-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x64x183x60 : Shape := ⟨4, ![4, 64, 183, 60]⟩
abbrev S1000000 : Shape := ⟨1, ![1000000]⟩
abbrev S_ : Shape := ⟨0, ![]⟩

class Facts : Prop where
  bcast_S_S4x64x183x60 : S_.BroadcastsInDim S4x64x183x60 (![] : Fin 0 → Fin S4x64x183x60.rank)
  reducesTo_S4x64x183x60_S_d0_1_2_3 : S4x64x183x60.ReducesTo [0, 1, 2, 3] S_
  h_S_ : 0 < S_.numel
  bcast_S_S1000000 : S_.BroadcastsInDim S1000000 (![] : Fin 0 → Fin S1000000.rank)
  reducesTo_S1000000_S_d0 : S1000000.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4x64x183x60 .f32) (main_arg1 : IVec S1000000 32) (main_arg2 : IVec S1000000 32) (main_arg3 : FVec F S1000000 .f32) : IVec S_ 1 :=
  let main_v0 : FVec F S4x64x183x60 .f32 := Host.absf main_arg0
  let main_cst : FVec F S_ .f32 := constant S_ .f32 0x7F800000#32
  let main_v1 : FVec F S4x64x183x60 .f32 := broadcastInDim S4x64x183x60 ![] bcast_S_S4x64x183x60 main_cst
  let main_v2 : IVec S4x64x183x60 1 := cmpf .olt main_v0 main_v1
  let main_c : IVec S_ 1 := constantI S_ 1 1#1
  let main_v3 : IVec S_ 1 := (fun x v => Host.reduce IntOp.andi x v reducesTo_S4x64x183x60_S_d0_1_2_3 h_S_) main_v2 main_c
  let main_v4 : FVec F S1000000 .f32 := Host.absf main_arg3
  let main_cst_0 : FVec F S_ .f32 := constant S_ .f32 0x7F800000#32
  let main_v5 : FVec F S1000000 .f32 := broadcastInDim S1000000 ![] bcast_S_S1000000 main_cst_0
  let main_v6 : IVec S1000000 1 := cmpf .olt main_v4 main_v5
  let main_c_1 : IVec S_ 1 := constantI S_ 1 1#1
  let main_v7 : IVec S_ 1 := (fun x v => Host.reduce IntOp.andi x v reducesTo_S1000000_S_d0 h_S_) main_v6 main_c_1
  let main_v8 : IVec S_ 1 := andi main_v3 main_v7
  let main_c_2 : IVec S_ 32 := constantI S_ 32 0#32
  let main_v9 : IVec S1000000 32 := broadcastInDim S1000000 ![] bcast_S_S1000000 main_c_2
  let main_v10 : IVec S1000000 1 := cmpi .sge main_arg1 main_v9
  let main_c_3 : IVec S_ 1 := constantI S_ 1 1#1
  let main_v11 : IVec S_ 1 := (fun x v => Host.reduce IntOp.andi x v reducesTo_S1000000_S_d0 h_S_) main_v10 main_c_3
  let main_v12 : IVec S_ 1 := andi main_v8 main_v11
  let main_c_4 : IVec S_ 32 := constantI S_ 32 10980#32
  let main_v13 : IVec S1000000 32 := broadcastInDim S1000000 ![] bcast_S_S1000000 main_c_4
  let main_v14 : IVec S1000000 1 := cmpi .slt main_arg1 main_v13
  let main_c_5 : IVec S_ 1 := constantI S_ 1 1#1
  let main_v15 : IVec S_ 1 := (fun x v => Host.reduce IntOp.andi x v reducesTo_S1000000_S_d0 h_S_) main_v14 main_c_5
  fn_part1 (F := F) main_v12 main_v15
-- ==== Kernel.lean ====
abbrev S4x64x183x60 : Shape := ⟨4, ![4, 64, 183, 60]⟩
abbrev S1000000 : Shape := ⟨1, ![1000000]⟩
abbrev S256x10980 : Shape := ⟨2, ![256, 10980]⟩
abbrev S_ : Shape := ⟨0, ![]⟩
abbrev S256x11008 : Shape := ⟨2, ![256, 11008]⟩
abbrev S1003520 : Shape := ⟨1, ![1003520]⟩
abbrev S256x1003520 : Shape := ⟨2, ![256, 1003520]⟩
abbrev S1024 : Shape := ⟨1, ![1024]⟩
abbrev S256x1024 : Shape := ⟨2, ![256, 1024]⟩
abbrev S1x1024 : Shape := ⟨2, ![1, 1024]⟩
abbrev S5504x1 : Shape := ⟨2, ![5504, 1]⟩
abbrev S5504x1024 : Shape := ⟨2, ![5504, 1024]⟩
abbrev S256x5504 : Shape := ⟨2, ![256, 5504]⟩
abbrev S256x16384 : Shape := ⟨2, ![256, 16384]⟩
abbrev S256x4096 : Shape := ⟨2, ![256, 4096]⟩
abbrev S4096 : Shape := ⟨1, ![4096]⟩
abbrev S256x2048 : Shape := ⟨2, ![256, 2048]⟩
abbrev S4096x1 : Shape := ⟨2, ![4096, 1]⟩
abbrev S1x2048 : Shape := ⟨2, ![1, 2048]⟩
abbrev S4096x2048 : Shape := ⟨2, ![4096, 2048]⟩
abbrev S4x64x128x128 : Shape := ⟨4, ![4, 64, 128, 128]⟩

abbrev nBuf : Space → Nat
  | .hbm => 21
  | .vmem => 14
  | .smem => 0
  | _ => 0

abbrev bufTy : (tb : Table) → Fin (tcTables nBuf tb) → BufTy
  | .hbm, ⟨0, _⟩ => ⟨S4x64x183x60, .f32⟩
  | .hbm, ⟨1, _⟩ => ⟨S1000000, .i32⟩
  | .hbm, ⟨2, _⟩ => ⟨S1000000, .i32⟩
  | .hbm, ⟨3, _⟩ => ⟨S1000000, .f32⟩
  | .hbm, ⟨4, _⟩ => ⟨S256x10980, .f32⟩
  | .hbm, ⟨5, _⟩ => ⟨S_, .i32⟩
  | .hbm, ⟨6, _⟩ => ⟨S_, .f32⟩
  | .hbm, ⟨7, _⟩ => ⟨S256x11008, .f32⟩
  | .hbm, ⟨8, _⟩ => ⟨S256x11008, .bf16⟩
  | .hbm, ⟨9, _⟩ => ⟨S_, .i32⟩
  | .hbm, ⟨10, _⟩ => ⟨S_, .i32⟩
  | .hbm, ⟨11, _⟩ => ⟨S1003520, .i32⟩
  | .hbm, ⟨12, _⟩ => ⟨S_, .i32⟩
  | .hbm, ⟨13, _⟩ => ⟨S_, .i32⟩
  | .hbm, ⟨14, _⟩ => ⟨S1003520, .i32⟩
  | .hbm, ⟨15, _⟩ => ⟨S_, .i32⟩
  | .hbm, ⟨16, _⟩ => ⟨S_, .f32⟩
  | .hbm, ⟨17, _⟩ => ⟨S1003520, .f32⟩
  | .hbm, ⟨18, _⟩ => ⟨S256x1003520, .bf16⟩
  | .hbm, ⟨19, _⟩ => ⟨S256x16384, .f32⟩
  | .hbm, ⟨20, _⟩ => ⟨S4x64x128x128, .f32⟩
  | .local _ .vmem, ⟨0, _⟩ => ⟨S256x11008, .bf16⟩
  | .local _ .vmem, ⟨1, _⟩ => ⟨S1024, .i32⟩
  | .local _ .vmem, ⟨2, _⟩ => ⟨S1024, .i32⟩
  | .local _ .vmem, ⟨3, _⟩ => ⟨S1024, .f32⟩
  | .local _ .vmem, ⟨4, _⟩ => ⟨S1024, .f32⟩
  | .local _ .vmem, ⟨5, _⟩ => ⟨S256x1024, .bf16⟩
  | .local _ .vmem, ⟨6, _⟩ => ⟨S256x1024, .bf16⟩
  | .local _ .vmem, ⟨7, _⟩ => ⟨S256x4096, .bf16⟩
  | .local _ .vmem, ⟨8, _⟩ => ⟨S256x4096, .bf16⟩
  | .local _ .vmem, ⟨9, _⟩ => ⟨S4096, .i32⟩
  | .local _ .vmem, ⟨10, _⟩ => ⟨S4096, .i32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S4x64x183x60, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_c_1 : Ref sig .tc := ⟨.hbm, 12, rfl⟩
abbrev main_call2_v0 : Ref sig .tc := ⟨.hbm, 13, rfl⟩
abbrev main_v4 : Ref sig .tc := ⟨.hbm, 14, rfl⟩
abbrev main_c_2 : Ref sig .tc := ⟨.hbm, 15, rfl⟩
abbrev main_call3_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12

abbrev nD : Nat := 1
abbrev τ : Topo := Topo.v7x

variable {F : FTy → Type} [FloatOps F]

abbrev grid0 : Pipeline.Grid := ⟨1, ![980], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x11008 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![8, 245], ![false, false]⟩

def k1_cond2 (i : grid1.Coords) : BitVec 1 :=
  let arg1 : BitVec 32 := BitVec.ofNat 32 (i 1).val
  let c244_i32 : BitVec 32 := 244#32
  let v24 : BitVec 1 := Scalar.cmpi .eq arg1 c244_i32
  let v25 : BitVec 32 := Scalar.extui v24
  let c0_i32_7 : BitVec 32 := 0#32
  let v26 : BitVec 1 := Scalar.cmpi .ne v25 c0_i32_7
  v26

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 1 → Nat :=
  let arg0 : BitVec 32 := BitVec.ofNat 32 (i 0).val
  let arg1 : BitVec 32 := BitVec.ofNat 32 (i 1).val
  let c0_i32 : BitVec 32 := 0#32
  ![arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S256x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S256x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  shapeCasts_S4x64x183x60_S256x10980 : S4x64x183x60.ShapeCasts S256x10980
  pads_S256x10980_S256x11008_000_0280 : S256x10980.Pads (![0, 0] : Fin 2 → Nat) ![0, 28] ![0, 0] S256x11008
  h_S_ : 0 < S_.numel
  bitsLt_bf16_f32 : FTy.bits .bf16 < FTy.bits .f32
  pads_S1000000_S1003520_035200 : S1000000.Pads (![0] : Fin 1 → Nat) ![3520] ![0] S1003520
  iota_S1x1024_d1_w32 : S1x1024.Iotas .tc 32 [1]
  natLt_1_32 : 1 < 32
  inb_S1024_S1024_0 : ∀ a, (![0] : Fin 1 → Nat) a + S1024.size a ≤ S1024.size a
  h_S1024 : 0 < S1024.numel
  shapeCasts_S1024_S1024 : S1024.ShapeCasts S1024
  shapeCasts_S1024_S1x1024 : S1024.ShapeCasts S1x1024
  iota_S5504x1_d0_w32 : S5504x1.Iotas .tc 32 [0]
  broadcasts_S5504x1_S5504x1024 : S5504x1.Broadcasts S5504x1024
  broadcasts_S1x1024_S5504x1024 : S1x1024.Broadcasts S5504x1024
  inb_S256x11008_S256x5504_0_0 : ∀ a, (![0, 0] : Fin 2 → Nat) a + S256x5504.size a ≤ S256x11008.size a
  h_S256x5504 : 0 < S256x5504.numel
  shapeCasts_S256x5504_S256x5504 : S256x5504.ShapeCasts S256x5504
  inb_S256x11008_S256x5504_0_5504 : ∀ a, (![0, 5504] : Fin 2 → Nat) a + S256x5504.size a ≤ S256x11008.size a
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  packedbf16_S256x1024_S256x1024_0_0 : (Rect.unit (s := S256x1024) ![0, 0] S256x1024.size inb_S256x1024_S256x1024_0_0).PackedRows (EltTy.packing .bf16)
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S4096_S4096_0 : ∀ a, (![0] : Fin 1 → Nat) a + S4096.size a ≤ S4096.size a
  h_S4096 : 0 < S4096.numel
  shapeCasts_S4096_S4096 : S4096.ShapeCasts S4096
  shapeCasts_S4096_S4096x1 : S4096.ShapeCasts S4096x1
  iota_S1x2048_d1_w32 : S1x2048.Iotas .tc 32 [1]
  broadcasts_S4096x1_S4096x2048 : S4096x1.Broadcasts S4096x2048
  broadcasts_S1x2048_S4096x2048 : S1x2048.Broadcasts S4096x2048
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S256x16384_S4x64x128x128 : S256x16384.ShapeCasts S4x64x128x128
  dot_S256x5504_S5504x1024_S256x1024_1_0_0_1_n_n_wf : DotDims.WF S256x5504 S5504x1024 S256x1024 [1] [0] [0] [1] [] []
  dot_S256x4096_S4096x2048_S256x2048_1_0_0_1_n_n_wf : DotDims.WF S256x4096 S4096x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x11008.size a ≤ S256x11008.size a
  hwx0_0 : ∀ i : grid0.Coords, EltTy.bits .bf16 = 32 ∨ (Rect.block (s := S256x11008) S256x11008.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S1003520.size a
  hwx0_1 : ∀ i : grid0.Coords, EltTy.bits .i32 = 32 ∨ (Rect.block (s := S1003520) S1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1003520.size a
  hwx0_2 : ∀ i : grid0.Coords, EltTy.bits .f32 = 32 ∨ (Rect.block (s := S1003520) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1003520.size a
  hwx0_3 : ∀ i : grid0.Coords, EltTy.bits .bf16 = 32 ∨ (Rect.block (s := S256x1003520) S256x1024.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S256x1003520.size a
  hwx1_0 : ∀ i : grid1.Coords, EltTy.bits .bf16 = 32 ∨ (Rect.block (s := S256x1003520) S256x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096.size a ≤ S1003520.size a
  hwx1_1 : ∀ i : grid1.Coords, EltTy.bits .i32 = 32 ∨ (Rect.block (s := S1003520) S4096.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x2048.size a ≤ S256x16384.size a
  hwx1_2 : ∀ i : grid1.Coords, EltTy.bits .f32 = 32 ∨ (Rect.block (s := S256x16384) S256x2048.size (cc1_transform_2 i) (hinb1_2 i)).WholeWords (EltTy.packing .f32)

variable [Facts₀]

def dot_S256x5504_S5504x1024_S256x1024_1_0_0_1_n_n : DotDims S256x5504 S5504x1024 S256x1024 where
  lhsContracting := [1]
  rhsContracting := [0]
  lhsNonContracting := [0]
  rhsNonContracting := [1]
  lhsBatch := []
  rhsBatch := []
  wf := dot_S256x5504_S5504x1024_S256x1024_1_0_0_1_n_n_wf
def dot_S256x4096_S4096x2048_S256x2048_1_0_0_1_n_n : DotDims S256x4096 S4096x2048 S256x2048 where
  lhsContracting := [1]
  rhsContracting := [0]
  lhsNonContracting := [0]
  rhsNonContracting := [1]
  lhsBatch := []
  rhsBatch := []
  wf := dot_S256x4096_S4096x2048_S256x2048_1_0_0_1_n_n_wf

abbrev win0_0 : Pipeline.Window sig grid0 :=
  Pipeline.Window.ofSpec (Memref.whole main_v2) S256x11008.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v6) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v7) S256x2048.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x64x183x60 : Shape := ⟨4, ![4, 64, 183, 60]⟩
abbrev S1000000 : Shape := ⟨1, ![1000000]⟩
abbrev S4x64x10980 : Shape := ⟨3, ![4, 64, 10980]⟩
abbrev S_ : Shape := ⟨0, ![]⟩
abbrev S1000000x1 : Shape := ⟨2, ![1000000, 1]⟩
abbrev S4x64x1000000 : Shape := ⟨3, ![4, 64, 1000000]⟩
abbrev S1x1x1000000 : Shape := ⟨3, ![1, 1, 1000000]⟩
abbrev S256x1000000 : Shape := ⟨2, ![256, 1000000]⟩
abbrev S1000000x256 : Shape := ⟨2, ![1000000, 256]⟩
abbrev S16384x256 : Shape := ⟨2, ![16384, 256]⟩
abbrev S256x16384 : Shape := ⟨2, ![256, 16384]⟩
abbrev S4x64x128x128 : Shape := ⟨4, ![4, 64, 128, 128]⟩

abbrev nBuf : Space → Nat
  | .hbm => 25
  | .vmem => 0
  | .smem => 0
  | _ => 0

abbrev bufTy : (tb : Table) → Fin (tcTables nBuf tb) → BufTy
  | .hbm, ⟨0, _⟩ => ⟨S4x64x183x60, .f32⟩
  | .hbm, ⟨1, _⟩ => ⟨S1000000, .i32⟩
  | .hbm, ⟨2, _⟩ => ⟨S1000000, .i32⟩
  | .hbm, ⟨3, _⟩ => ⟨S1000000, .f32⟩
  | .hbm, ⟨4, _⟩ => ⟨S4x64x10980, .f32⟩
  | .hbm, ⟨5, _⟩ => ⟨S_, .i32⟩
  | .hbm, ⟨6, _⟩ => ⟨S1000000, .i32⟩
  | .hbm, ⟨7, _⟩ => ⟨S1000000, .i1⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S1000000, .i32⟩
  | .hbm, ⟨12, _⟩ => ⟨S1000000x1, .i32⟩
  | .hbm, ⟨13, _⟩ => ⟨S4x64x1000000, .f32⟩
  | .hbm, ⟨14, _⟩ => ⟨S1x1x1000000, .f32⟩
  | .hbm, ⟨15, _⟩ => ⟨S4x64x1000000, .f32⟩
  | .hbm, ⟨16, _⟩ => ⟨S4x64x1000000, .f32⟩
  | .hbm, ⟨17, _⟩ => ⟨S256x1000000, .f32⟩
  | .hbm, ⟨18, _⟩ => ⟨S1000000x256, .f32⟩
  | .hbm, ⟨19, _⟩ => ⟨S_, .f32⟩
  | .hbm, ⟨20, _⟩ => ⟨S16384x256, .f32⟩
  | .hbm, ⟨21, _⟩ => ⟨S1000000x1, .i32⟩
  | .hbm, ⟨22, _⟩ => ⟨S16384x256, .f32⟩
  | .hbm, ⟨23, _⟩ => ⟨S256x16384, .f32⟩
  | .hbm, ⟨24, _⟩ => ⟨S4x64x128x128, .f32⟩
  | _, _ => ⟨S4x64x183x60, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  shapeCasts_S4x64x183x60_S4x64x10980 : S4x64x183x60.ShapeCasts S4x64x10980
  bcast_S_S1000000 : S_.BroadcastsInDim S1000000 (![] : Fin 0 → Fin S1000000.rank)
  bcast_S1000000_S1000000x1_0 : S1000000.BroadcastsInDim S1000000x1 (![0] : Fin 1 → Fin S1000000x1.rank)
  bcast_S1000000_S1x1x1000000_2 : S1000000.BroadcastsInDim S1x1x1000000 (![2] : Fin 1 → Fin S1x1x1000000.rank)
  bcast_S1x1x1000000_S4x64x1000000_0_1_2 : S1x1x1000000.BroadcastsInDim S4x64x1000000 (![0, 1, 2] : Fin 3 → Fin S4x64x1000000.rank)
  shapeCasts_S4x64x1000000_S256x1000000 : S4x64x1000000.ShapeCasts S256x1000000
  transposes_S256x1000000_S1000000x256_1_0 : S256x1000000.Transposes [1, 0] S1000000x256
  bcast_S_S16384x256 : S_.BroadcastsInDim S16384x256 (![] : Fin 0 → Fin S16384x256.rank)
  transposes_S16384x256_S256x16384_1_0 : S16384x256.Transposes [1, 0] S256x16384
  shapeCasts_S256x16384_S4x64x128x128 : S256x16384.ShapeCasts S4x64x128x128
  gather_S4x64x10980_S1000000x1_S4x64x1000000_01_2_n_n_2_1_4641_wf : GatherDims.WF S4x64x10980 S1000000x1 S4x64x1000000 [0, 1] [2] [] [2] [] 1 ![4, 64, 1]
  scatter_S16384x256_S1000000x1_S1000000x256_1_0_0_1_wf : ScatterDims.WF S16384x256 S1000000x1 S1000000x256 [1] [0] [0] 1

variable [Facts₀]

def gather_S4x64x10980_S1000000x1_S4x64x1000000_01_2_n_n_2_1_4641 : GatherDims S4x64x10980 S1000000x1 S4x64x1000000 where
  offsetDims := [0, 1]
  collapsedSliceDims := [2]
  operandBatchingDims := []
  startIndicesBatchingDims := []
  startIndexMap := [2]
  indexVectorDim := 1
  sliceSizes := ![4, 64, 1]
  wf := gather_S4x64x10980_S1000000x1_S4x64x1000000_01_2_n_n_2_1_4641_wf
def scatter_S16384x256_S1000000x1_S1000000x256_1_0_0_1 : ScatterDims S16384x256 S1000000x1 S1000000x256 where
  updateWindowDims := [1]
  insertedWindowDims := [0]
  scatterDimsToOperandDims := [0]
  indexVectorDim := 1
  wf := scatter_S16384x256_S1000000x1_S1000000x256_1_0_0_1_wf

class Facts : Prop extends Facts₀ where

variable [Facts]
-- ==== Proof.Bits.Gather.lean ====
/-
  The gather pallas_call, point by point. Its grid has 980 points; point `t` handles the votes `1024·t … 1024·t + 1023`.
  The padded HT table (window 0, the whole [256, 11008] array, brought in once), the point's 1024 HT index words
  (window 1) and its 1024 weights (window 2) are read; the point's [256, 1024] block of gathered, weighted values
  (window 3) is stored whole, once. Nothing is carried from a point to the next, so what the output's staging
  buffer holds after the body is ONE function of the three input blocks and the point's coordinate
  (`stored`): the body's one store, over its one payload.

  Stated at a PARAMETER `V`, the unscoped buffers' contents when the region is entered, and at any float
  instance: the proof data `dat`, each input window's buffer at its block at every point, the body's triple, and the
  body obligation.
-/
import proofs.«428843_j77163382440036_3_alg».proof.Proof.Gen.Kernel.Launch
import proofs.«428843_j77163382440036_3_alg».proof.Proof.Gen.Kernel.Skeleton
import proofs.«428843_j77163382440036_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gather

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, brought in there or not (the table is
    brought in at the first point only and its block never moves), for any proof data over `V`'s arrays whose body
    leaves the block in place. -/
theorem found0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses and what it stores -/

/-- The two halves of the table's columns, a whole vote block, the whole output block. -/
abbrev rLo : Rect S256x11008 := Rect.unit (s := S256x11008) ![0, 0] S256x5504.size inb_S256x11008_S256x5504_0_0
abbrev rHi : Rect S256x11008 := Rect.unit (s := S256x11008) ![0, 5504] S256x5504.size inb_S256x11008_S256x5504_0_5504
abbrev rVotes : Rect S1024 := Rect.unit (s := S1024) ![0] S1024.size inb_S1024_S1024_0
abbrev rOut : Rect S256x1024 := Rect.unit (s := S256x1024) ![0, 0] S256x1024.size inb_S256x1024_S256x1024_0_0

/-- The output block after the body at grid coordinate `i`, from the table `x`, the index words `h` and the weights `w`:
    the one store, of the payload over the four loads. -/
def stored (i : grid0.Coords) (x : Vec F S256x11008 .bf16) (h : Vec F S1024 .i32) (w : Vec F S1024 .f32) : Vec F S256x1024 .bf16 :=
  View.canon [⟨rOut, k0_pay1 i (View.ld w rVotes) (View.ld h rVotes) (View.ld x rLo) (View.ld x rHi)⟩]

/-- The one store covers the block. -/
theorem stored_cover (p0 : Vec F S256x1024 .bf16) (y : S256x1024.Idx) :
    ∃ pc ∈ ([⟨rOut, p0⟩] : List (View.Piece (Elt F) S256x1024 .bf16)), y ∈ pc.1.set :=
  View.cover_of_tiled [⟨rOut, p0⟩] S256x1024.size (by rfl) y

/-! ## The body's triple -/

set_option maxHeartbeats 1000000 in
/-- On whole staging memrefs, the inputs' at contents `x`, `h`, `w` and the output's at anything, the body runs to the
    continuation holding the inputs' as they were and the output's at `stored`. -/
theorem body_triple (c : Dev nD) (E : Set ℕ) (i : grid0.Coords)
    (arg1 : Memref sig .tc .vmem S256x11008 .bf16) (harg1 : arg1.IsWhole) (arg2 : Memref sig .tc .vmem S1024 .i32) (harg2 : arg2.IsWhole)
    (arg3 : Memref sig .tc .vmem S1024 .f32) (harg3 : arg3.IsWhole) (arg4 : Memref sig .tc .vmem S256x1024 .bf16) (harg4 : arg4.IsWhole)
    (x : Vec F S256x11008 .bf16) (h : Vec F S1024 .i32) (w : Vec F S1024 .f32) (K : PUnit → sProp 𝕄) :
    iprop(owns (c : Thread nD τ) arg1 fullShare x ∗ owns (c : Thread nD τ) arg2 fullShare h ∗ owns (c : Thread nD τ) arg3 fullShare w
        ∗ (∃ d, owns (c : Thread nD τ) arg4 fullShare d)
        ∗ (iprop(owns (c : Thread nD τ) arg1 fullShare x ∗ owns (c : Thread nD τ) arg2 fullShare h ∗ owns (c : Thread nD τ) arg3 fullShare w
            ∗ owns (c : Thread nD τ) arg4 fullShare (stored i x h w)) -∗ K ⟨⟩))
      ⊢ wp frame (wpE (defs₀ (F := F)) Variants.none c none) E (cc0__gather_kernel i arg1 harg1 arg2 harg2 arg3 harg3 arg4 harg4) K := by
  simp only [cc0__gather_kernel_eq_skeleton]; unfold cc0__gather_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_cover _)

/-! ## The pipeline's proof data -/

/-- The proof data of the gather pipeline on core `c`: the arrays as the region finds them; after the body at point `t`
    each input's buffer still at its block and the output's at `stored` of the three blocks; the invariant the scoped
    buffers no window stages and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => stored (grid0.coords t) (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
/-- What point `t` leaves in the output's staging buffer, and so writes back. -/
theorem after3 (c : Dev nD) (t : Fin cfg0.N) :
    (dat V c).after 3 t = stored (grid0.coords t) (blk V c 0 t) (blk V c 1 t) (blk V c 2 t) := by dsimp only [dat]

theorem before0 (c : Dev nD) (t : Fin cfg0.N) (d) : (dat V c).before 0 t d = blk V c 0 t :=
  found0 V (dat V c) (A_eq V c 0) (after0 V c) t d
theorem before1 (c : Dev nD) (t : Fin cfg0.N) (d) : (dat V c).before 1 t d = blk V c 1 t :=
  found1 V (dat V c) (A_eq V c 1) (after1 V c) t d
theorem before2 (c : Dev nD) (t : Fin cfg0.N) (d) : (dat V c).before 2 t d = blk V c 2 t :=
  found2 V (dat V c) (A_eq V c 2) (after2 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (body_triple c Set.univ (grid0.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.Kernel.Gather

end
-- ==== Proof.Bits.ScatterBase.lean ====
/-
  The scatter pallas_call: what its body's runs share. The grid has 8 × 245 points; point `t` is image tile
  `t / 245` (2048 pixel columns) and vote chunk `t mod 245` (4096 votes). The body keeps a [256, 2048] accumulator in a
  scratch buffer of its own across the 245 chunks of a tile: it clears it at chunk 0, adds the chunk's one-hot
  product at every chunk, and stores it into the output block at chunk 244 only. So the body has two conditions
  over the grid coordinates, decided here in closed form, and three cases meet the grid: clearing (chunk 0),
  plain (chunks 1 … 243) and storing (chunk 244). At the chunks that do not store, the output window is idle and is
  not written back.
-/
import proofs.«428843_j77163382440036_3_alg».proof.Proof.Gen.Kernel.Launch
import proofs.«428843_j77163382440036_3_alg».proof.Proof.Gen.Kernel.Skeleton
import proofs.«428843_j77163382440036_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions over the grid -/

/-- The accumulator is cleared: the chunk coordinate is 0 (the body's scalar chain, substituted). -/
abbrev Clears (i : grid1.Coords) : Prop := (Scalar.cmpi .ne (Scalar.extui (Scalar.cmpi .eq (BitVec.ofNat 32 (i 1).val) 0#32)) 0#32) = 1#1
theorem clears_iff : ∀ t : Fin cfg1.N, Clears (grid1.coords t) ↔ t.val % 245 = 0 :=
  (by decide +kernel : ∀ t : Fin grid1.N, Clears (grid1.coords t) ↔ t.val % 245 = 0)

/-- The accumulator is stored into the output block: the chunk coordinate is 244. -/
abbrev Stores (i : grid1.Coords) : Prop := k1_cond2 i = 1#1
theorem stores_iff : ∀ t : Fin cfg1.N, Stores (grid1.coords t) ↔ t.val % 245 = 244 :=
  (by decide +kernel : ∀ t : Fin grid1.N, Stores (grid1.coords t) ↔ t.val % 245 = 244)

/-! ## Where the windows are idle -/

theorem live0 : ∀ t : Fin cfg1.N, cfg1.idle 0 (grid1.coords t) = false := by decide +kernel
theorem live1 : ∀ t : Fin cfg1.N, cfg1.idle 1 (grid1.coords t) = false := by decide +kernel
/-- At a chunk that does not store, the output window is idle and is not written back. -/
theorem idle2 : ∀ t : Fin cfg1.N, ¬Stores (grid1.coords t) → cfg1.idle 2 (grid1.coords t) = true := by decide +kernel
theorem noFlush2 : ∀ t : Fin cfg1.N, ¬Stores (grid1.coords t) → (cfg1.win 2).flush t = false := by decide +kernel
/-- At chunk 244 it is live. -/
theorem live2 : ∀ t : Fin cfg1.N, Stores (grid1.coords t) → cfg1.idle 2 (grid1.coords t) = false := by decide +kernel

/-! ## The memrefs the body is called with -/

/-- One staging buffer of the output window, through which its contents are stated. -/
abbrev outView : View sig .tc .vmem S256x2048 .f32 := (Memref.whole cc1_stg2_0 : Memref sig .tc .vmem S256x2048 .f32).view
abbrev mVals (t : Fin cfg1.N) : Memref sig .tc .vmem S256x4096 .bf16 := win1_0.stage (cfg1.slots t 0)
abbrev hVals (t : Fin cfg1.N) : (mVals t).IsWhole := hstage1_0 ((cfg1.slots t 0).cast nbuf1_0)
abbrev mIdx (t : Fin cfg1.N) : Memref sig .tc .vmem S4096 .i32 := win1_1.stage (cfg1.slots t 1)
abbrev hIdx (t : Fin cfg1.N) : (mIdx t).IsWhole := hstage1_1 ((cfg1.slots t 1).cast nbuf1_1)
abbrev mOut (t : Fin cfg1.N) : Memref sig .tc .vmem S256x2048 .f32 := win1_2.stage (cfg1.slots t 2)
abbrev hOut (t : Fin cfg1.N) : (mOut t).IsWhole := hstage1_2 ((cfg1.slots t 2).cast nbuf1_2)
/-- The accumulator: a whole scoped buffer of the kernel's own. -/
abbrev mAcc : Memref sig .tc .vmem S256x2048 .f32 := Memref.whole cc1_scratch0
abbrev accView : View sig .tc .vmem S256x2048 .f32 := mAcc.view

/-- The region's invariant with the accumulator's part `P` spelt out: the seven scoped buffers of the other pipeline, each
    whole at some contents, the accumulator's part, and the generator register at some state. -/
abbrev withAcc (c : Dev nD) (P : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P) ∗ (∃ r, prngReg c r))

/-- The class invariant is that with the accumulator owned at some contents. -/
theorem PhiA_eq (c : Dev nD) :
    (Pipeline.ΦA spec1 c : sProp 𝕄) = withAcc c (iprop(∃ d, owns (c : Thread nD τ) mAcc fullShare d)) := by
  unfold Pipeline.ΦA; rw [scopedRest1_eq]; simp only [mAcc, owns_whole]; try rfl

end Cert.Kernel.Scatter

end
-- ==== Proof.Bits.ScatterClear.lean ====
/-
  The scatter body's run in the CLEARING case (chunk 0 of a tile: the accumulator is cleared first; nothing is stored into the output block): on whole memrefs the body runs to its end, the inputs left as they
  were, and each buffer it stores into left with its stores written, as a list of pieces the run itself finds.
-/
import proofs.«428843_j77163382440036_3_alg».proof.Proof.Bits.ScatterBase

set_option maxRecDepth 16384

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runClear (c : Dev nD) (i : grid1.Coords) (arg2 : Memref sig .tc .vmem S256x4096 .bf16) (harg2 : arg2.IsWhole) (arg3 : Memref sig .tc .vmem S4096 .i32) (harg3 : arg3.IsWhole) (arg4 : Memref sig .tc .vmem S256x2048 .f32) (harg4 : arg4.IsWhole) (arg5 : Memref sig .tc .vmem S256x2048 .f32) (harg5 : arg5.IsWhole) (hc0 : Clears i) (hc1 : ¬Stores i)
    (x0 : Vec F S256x4096 .bf16) (x1 : Vec F S4096 .i32) :
    Σ' (LO : List (View.Piece (Elt F) S256x2048 .f32)), { LA : List (View.Piece (Elt F) S256x2048 .f32) //
      ∀ (xi : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LA)) -∗ K ⟨⟩))
          ⊢ wp frame (wpE (defs₀ (F := F)) Variants.none c none) E (cc1__scatter_kernel i arg2 harg2 arg3 harg3 arg4 harg4 arg5 harg5) K } := by
  refine ⟨[], ?_, fun xi E K => ?run⟩
  case run =>
    simp only [cc1__scatter_kernel_eq_skeleton]; unfold cc1__scatter_kernel_skel
    unfold owns
    iintro ⟨⟨%f0, %hf0, H0⟩, ⟨%f1, %hf1, H1⟩, ⟨%f4, %hf4, H4⟩, ⟨%da, %fa, -, HA⟩, Hk⟩
    obtain rfl := harg2.eq_unread hf0; obtain rfl := harg3.eq_unread hf1; obtain rfl := harg4.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    iexists _; iexact HA

end Cert.Kernel.Scatter

end
-- ==== Proof.Bits.ScatterPlain.lean ====
/-
  The scatter body's run in the PLAIN case (chunks 1 … 243 of a tile: the accumulator is added to; nothing is stored into the output block): on whole memrefs the body runs to its end, the inputs left as they
  were, and each buffer it stores into left with its stores written, as a list of pieces the run itself finds.
-/
import proofs.«428843_j77163382440036_3_alg».proof.Proof.Bits.ScatterBase

set_option maxRecDepth 16384

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runPlain (c : Dev nD) (i : grid1.Coords) (arg2 : Memref sig .tc .vmem S256x4096 .bf16) (harg2 : arg2.IsWhole) (arg3 : Memref sig .tc .vmem S4096 .i32) (harg3 : arg3.IsWhole) (arg4 : Memref sig .tc .vmem S256x2048 .f32) (harg4 : arg4.IsWhole) (arg5 : Memref sig .tc .vmem S256x2048 .f32) (harg5 : arg5.IsWhole) (hc0 : ¬Clears i) (hc1 : ¬Stores i)
    (x0 : Vec F S256x4096 .bf16) (x1 : Vec F S4096 .i32) (xa : Vec F S256x2048 .f32) :
    Σ' (LO : List (View.Piece (Elt F) S256x2048 .f32)), { LA : List (View.Piece (Elt F) S256x2048 .f32) //
      ∀ (xi : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xa
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LA)) -∗ K ⟨⟩))
          ⊢ wp frame (wpE (defs₀ (F := F)) Variants.none c none) E (cc1__scatter_kernel i arg2 harg2 arg3 harg3 arg4 harg4 arg5 harg5) K } := by
  refine ⟨[], ?_, fun xi E K => ?run⟩
  case run =>
    simp only [cc1__scatter_kernel_eq_skeleton]; unfold cc1__scatter_kernel_skel
    unfold owns
    iintro ⟨⟨%f0, %hf0, H0⟩, ⟨%f1, %hf1, H1⟩, ⟨%f4, %hf4, H4⟩, ⟨%fa, %hfa, HA⟩, Hk⟩
    obtain rfl := harg2.eq_unread hf0; obtain rfl := harg3.eq_unread hf1; obtain rfl := harg4.eq_unread hf4; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    iexists _; iexact HA

end Cert.Kernel.Scatter

end
-- ==== Proof.Bits.ScatterStore.lean ====
/-
  The scatter body's run in the STORING case (chunk 244 of a tile: the accumulator is added to and then stored into the output block): on whole memrefs the body runs to its end, the inputs left as they
  were, and each buffer it stores into left with its stores written, as a list of pieces the run itself finds.
-/
import proofs.«428843_j77163382440036_3_alg».proof.Proof.Bits.ScatterBase

set_option maxRecDepth 16384

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runStore (c : Dev nD) (i : grid1.Coords) (arg2 : Memref sig .tc .vmem S256x4096 .bf16) (harg2 : arg2.IsWhole) (arg3 : Memref sig .tc .vmem S4096 .i32) (harg3 : arg3.IsWhole) (arg4 : Memref sig .tc .vmem S256x2048 .f32) (harg4 : arg4.IsWhole) (arg5 : Memref sig .tc .vmem S256x2048 .f32) (harg5 : arg5.IsWhole) (hc0 : ¬Clears i) (hc1 : Stores i)
    (x0 : Vec F S256x4096 .bf16) (x1 : Vec F S4096 .i32) (xa : Vec F S256x2048 .f32) :
    Σ' (LO : List (View.Piece (Elt F) S256x2048 .f32)), { LA : List (View.Piece (Elt F) S256x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LA)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d4, %f4, -, H4⟩, ⟨%fa, %hfa, HA⟩, Hk⟩
    obtain rfl := harg2.eq_unread hf0; obtain rfl := harg3.eq_unread hf1; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    iexists _; iexact HA

end Cert.Kernel.Scatter

end
-- ==== Proof.Bits.Scatter.lean ====
/-
  The scatter pallas_call, point by point: what the accumulator holds after every point, by recursion on the point
  (`accAt`: cleared and added to at chunk 0, added to at every later chunk of the tile), what the output block holds
  after a storing point (`outAt`), the invariant that carries the accumulator from a point to the next
  (`Inv`), the proof data, and the body obligation — a case split by the two closed forms, each leaf that case's run.
  Stated at a parameter `V`, the unscoped buffers' contents when the region is entered, and at any float instance.
-/
import proofs.«428843_j77163382440036_3_alg».proof.Proof.Bits.ScatterClear
import proofs.«428843_j77163382440036_3_alg».proof.Proof.Bits.ScatterPlain
import proofs.«428843_j77163382440036_3_alg».proof.Proof.Bits.ScatterStore

set_option maxRecDepth 16384

noncomputable section

namespace Cert.Kernel.Scatter

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

section Cases
variable (c : Dev nD) (i : grid1.Coords) (arg2 : Memref sig .tc .vmem S256x4096 .bf16) (harg2 : arg2.IsWhole) (arg3 : Memref sig .tc .vmem S4096 .i32) (harg3 : arg3.IsWhole) (arg4 : Memref sig .tc .vmem S256x2048 .f32) (harg4 : arg4.IsWhole) (arg5 : Memref sig .tc .vmem S256x2048 .f32) (harg5 : arg5.IsWhole)

/-- The clearing case's stores into the accumulator cover it, -/
theorem accClear_cover (hc0 : Clears i) (hc1 : ¬Stores i) (x0 : Vec F S256x4096 .bf16) (x1 : Vec F S4096 .i32) (y : S256x2048.Idx) :
    ∃ pc ∈ (runClear c i arg2 harg2 arg3 harg3 arg4 harg4 arg5 harg5 hc0 hc1 x0 x1).2.1, y ∈ pc.1.set :=
  View.cover_of_tiledL (runClear c i arg2 harg2 arg3 harg3 arg4 harg4 arg5 harg5 hc0 hc1 x0 x1).2.1 S256x2048.size (by sl_kernel_rfl) y
/-- and leave it at: its pieces read back. -/
def accClear (hc0 : Clears i) (hc1 : ¬Stores i) (x0 : Vec F S256x4096 .bf16) (x1 : Vec F S4096 .i32) : Vec F S256x2048 .f32 :=
  accView.read (Elt F) (accView.writes (Elt F) accView.junk (runClear c i arg2 harg2 arg3 harg3 arg4 harg4 arg5 harg5 hc0 hc1 x0 x1).2.1)

theorem accPlain_cover (hc0 : ¬Clears i) (hc1 : ¬Stores i) (x0 : Vec F S256x4096 .bf16) (x1 : Vec F S4096 .i32) (xa : Vec F S256x2048 .f32) (y : S256x2048.Idx) :
    ∃ pc ∈ (runPlain c i arg2 harg2 arg3 harg3 arg4 harg4 arg5 harg5 hc0 hc1 x0 x1 xa).2.1, y ∈ pc.1.set :=
  View.cover_of_tiledL (runPlain c i arg2 harg2 arg3 harg3 arg4 harg4 arg5 harg5 hc0 hc1 x0 x1 xa).2.1 S256x2048.size (by sl_kernel_rfl) y
def accPlain (hc0 : ¬Clears i) (hc1 : ¬Stores i) (x0 : Vec F S256x4096 .bf16) (x1 : Vec F S4096 .i32) (xa : Vec F S256x2048 .f32) : Vec F S256x2048 .f32 :=
  accView.read (Elt F) (accView.writes (Elt F) accView.junk (runPlain c i arg2 harg2 arg3 harg3 arg4 harg4 arg5 harg5 hc0 hc1 x0 x1 xa).2.1)

theorem accStore_cover (hc0 : ¬Clears i) (hc1 : Stores i) (x0 : Vec F S256x4096 .bf16) (x1 : Vec F S4096 .i32) (xa : Vec F S256x2048 .f32) (y : S256x2048.Idx) :
    ∃ pc ∈ (runStore c i arg2 harg2 arg3 harg3 arg4 harg4 arg5 harg5 hc0 hc1 x0 x1 xa).2.1, y ∈ pc.1.set :=
  View.cover_of_tiledL (runStore c i arg2 harg2 arg3 harg3 arg4 harg4 arg5 harg5 hc0 hc1 x0 x1 xa).2.1 S256x2048.size (by sl_kernel_rfl) y
def accStore (hc0 : ¬Clears i) (hc1 : Stores i) (x0 : Vec F S256x4096 .bf16) (x1 : Vec F S4096 .i32) (xa : Vec F S256x2048 .f32) : Vec F S256x2048 .f32 :=
  accView.read (Elt F) (accView.writes (Elt F) accView.junk (runStore c i arg2 harg2 arg3 harg3 arg4 harg4 arg5 harg5 hc0 hc1 x0 x1 xa).2.1)

/-- The storing case's one store into the output block covers it, and leaves it at: -/
theorem outStore_cover (hc0 : ¬Clears i) (hc1 : Stores i) (x0 : Vec F S256x4096 .bf16) (x1 : Vec F S4096 .i32) (xa : Vec F S256x2048 .f32) (y : S256x2048.Idx) :
    ∃ pc ∈ (runStore c i arg2 harg2 arg3 harg3 arg4 harg4 arg5 harg5 hc0 hc1 x0 x1 xa).1, y ∈ pc.1.set :=
  View.cover_of_tiledL (runStore c i arg2 harg2 arg3 harg3 arg4 harg4 arg5 harg5 hc0 hc1 x0 x1 xa).1 S256x2048.size (by sl_kernel_rfl) y
def outStore (hc0 : ¬Clears i) (hc1 : Stores i) (x0 : Vec F S256x4096 .bf16) (x1 : Vec F S4096 .i32) (xa : Vec F S256x2048 .f32) : Vec F S256x2048 .f32 :=
  outView.read (Elt F) (outView.writes (Elt F) outView.junk (runStore c i arg2 harg2 arg3 harg3 arg4 harg4 arg5 harg5 hc0 hc1 x0 x1 xa).1)

end Cases

variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The accumulator after each point -/

/-- What the accumulator holds after the body at position `n`: at a tile's chunk 0 the clearing case's contents; at a
    later chunk the plain or the storing case's, over what position `n - 1` left. -/
def accAt (c : Dev nD) : (n : ℕ) → n < cfg1.N → Vec F S256x2048 .f32
  | 0, hn => accClear c (grid1.coords ⟨0, hn⟩) (mVals ⟨0, hn⟩) (hVals ⟨0, hn⟩) (mIdx ⟨0, hn⟩) (hIdx ⟨0, hn⟩) (mOut ⟨0, hn⟩) (hOut ⟨0, hn⟩) mAcc (Memref.isWhole_whole _) ((clears_iff ⟨0, hn⟩).mpr (Nat.zero_mod _)) (fun h => (fun h => by (try dsimp only at h); omega) ((stores_iff ⟨0, hn⟩).mp h)) (blk V c 0 ⟨0, hn⟩) (blk V c 1 ⟨0, hn⟩)
  | n + 1, hn =>
    if h0 : (n + 1) % 245 = 0 then
      accClear c (grid1.coords ⟨n + 1, hn⟩) (mVals ⟨n + 1, hn⟩) (hVals ⟨n + 1, hn⟩) (mIdx ⟨n + 1, hn⟩) (hIdx ⟨n + 1, hn⟩) (mOut ⟨n + 1, hn⟩) (hOut ⟨n + 1, hn⟩) mAcc (Memref.isWhole_whole _) ((clears_iff ⟨n + 1, hn⟩).mpr h0) (fun h => (fun h => by (try dsimp only at h); omega) ((stores_iff ⟨n + 1, hn⟩).mp h)) (blk V c 0 ⟨n + 1, hn⟩) (blk V c 1 ⟨n + 1, hn⟩)
    else if h1 : (n + 1) % 245 = 244 then
      accStore c (grid1.coords ⟨n + 1, hn⟩) (mVals ⟨n + 1, hn⟩) (hVals ⟨n + 1, hn⟩) (mIdx ⟨n + 1, hn⟩) (hIdx ⟨n + 1, hn⟩) (mOut ⟨n + 1, hn⟩) (hOut ⟨n + 1, hn⟩) mAcc (Memref.isWhole_whole _) (fun h => h0 ((clears_iff ⟨n + 1, hn⟩).mp h)) ((stores_iff ⟨n + 1, hn⟩).mpr h1) (blk V c 0 ⟨n + 1, hn⟩) (blk V c 1 ⟨n + 1, hn⟩) (accAt c n (Nat.lt_of_succ_lt hn))
    else
      accPlain c (grid1.coords ⟨n + 1, hn⟩) (mVals ⟨n + 1, hn⟩) (hVals ⟨n + 1, hn⟩) (mIdx ⟨n + 1, hn⟩) (hIdx ⟨n + 1, hn⟩) (mOut ⟨n + 1, hn⟩) (hOut ⟨n + 1, hn⟩) mAcc (Memref.isWhole_whole _) (fun h => h0 ((clears_iff ⟨n + 1, hn⟩).mp h)) (fun h => h1 ((stores_iff ⟨n + 1, hn⟩).mp h)) (blk V c 0 ⟨n + 1, hn⟩) (blk V c 1 ⟨n + 1, hn⟩) (accAt c n (Nat.lt_of_succ_lt hn))

theorem accAt_clear (c : Dev nD) (t : Fin cfg1.N) (h0 : t.val % 245 = 0) :
    accAt V c t.val t.isLt = accClear c (grid1.coords t) (mVals t) (hVals t) (mIdx t) (hIdx t) (mOut t) (hOut t) mAcc (Memref.isWhole_whole _) ((clears_iff t).mpr h0) (fun h => (fun h => by omega) ((stores_iff t).mp h)) (blk V c 0 t) (blk V c 1 t) := by
  obtain ⟨n, hn⟩ := t
  cases n with
  | zero => exact rfl
  | succ n => exact (dif_pos h0).trans rfl

theorem accAt_plain (c : Dev nD) (t : Fin cfg1.N) (h0 : ¬t.val % 245 = 0) (h1 : ¬t.val % 245 = 244) :
    accAt V c t.val t.isLt = accPlain c (grid1.coords t) (mVals t) (hVals t) (mIdx t) (hIdx t) (mOut t) (hOut t) mAcc (Memref.isWhole_whole _) (fun h => h0 ((clears_iff t).mp h)) (fun h => h1 ((stores_iff t).mp h)) (blk V c 0 t) (blk V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_store (c : Dev nD) (t : Fin cfg1.N) (h0 : ¬t.val % 245 = 0) (h1 : t.val % 245 = 244) :
    accAt V c t.val t.isLt = accStore c (grid1.coords t) (mVals t) (hVals t) (mIdx t) (hIdx t) (mOut t) (hOut t) mAcc (Memref.isWhole_whole _) (fun h => h0 ((clears_iff t).mp h)) ((stores_iff t).mpr h1) (blk V c 0 t) (blk V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after a storing point (at the other points the window is idle and
    this is not consulted: there it is the accumulator, for definiteness). -/
def outAt (c : Dev nD) (t : Fin cfg1.N) : Vec F S256x2048 .f32 :=
  if h1 : t.val % 245 = 244 then
    outStore c (grid1.coords t) (mVals t) (hVals t) (mIdx t) (hIdx t) (mOut t) (hOut t) mAcc (Memref.isWhole_whole _) (fun h => (fun h => by omega) ((clears_iff t).mp h)) ((stores_iff t).mpr h1) (blk V c 0 t) (blk V c 1 t) (accAt V c (t.val - 1) (Nat.lt_of_le_of_lt (Nat.sub_le _ _) t.isLt))
  else accAt V c t.val t.isLt

theorem outAt_store (c : Dev nD) (t : Fin cfg1.N) (h0 : ¬t.val % 245 = 0) (h1 : t.val % 245 = 244) :
    outAt V c t = outStore c (grid1.coords t) (mVals t) (hVals t) (mIdx t) (hIdx t) (mOut t) (hOut t) mAcc (Memref.isWhole_whole _) (fun h => h0 ((clears_iff t).mp h)) ((stores_iff t).mpr h1) (blk V c 0 t) (blk V c 1 t) (accAt V c (t.val - 1) (Nat.lt_of_le_of_lt (Nat.sub_le _ _) t.isLt)) := by
  unfold outAt; exact (dif_pos h1).trans rfl

/-! ## The invariant -/

/-- What rides beside the accumulator in the region's invariant: the seven scoped buffers of the other pipeline, each
    whole at some contents, and the generator register at some state. -/
def beside (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ r, prngReg c r))

/-- The class invariant is the accumulator owned at some contents, and the rest; both ways. -/
theorem PhiA_open (c : Dev nD) :
    (Pipeline.ΦA spec1 c : sProp 𝕄) ⊢ iprop((∃ d, owns (c : Thread nD τ) mAcc fullShare d) ∗ beside c) := by
  rw [PhiA_eq]; unfold beside
  iintro ⟨⟨R1, R2, R3, R4, R5, R6, R7, HA⟩, Hg⟩
  isplitl [HA]; · iexact HA
  isplitl [R1]; · iexact R1
  isplitl [R2]; · iexact R2
  isplitl [R3]; · iexact R3
  isplitl [R4]; · iexact R4
  isplitl [R5]; · iexact R5
  isplitl [R6]; · iexact R6
  isplitl [R7]; · iexact R7
  iexact Hg
theorem PhiA_close (c : Dev nD) :
    iprop((∃ d, owns (c : Thread nD τ) mAcc fullShare d) ∗ beside c) ⊢ (Pipeline.ΦA spec1 c : sProp 𝕄) := by
  rw [PhiA_eq]; unfold beside
  iintro ⟨HA, R1, R2, R3, R4, R5, R6, R7, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexact HA
  iexact Hg

/-- The region's invariant before position `n`: before the first point the class's (the accumulator at anything);
    afterwards the accumulator at what the point before left. -/
def Inv (c : Dev nD) : (n : ℕ) → n ≤ cfg1.N → sProp 𝕄
  | 0, _ => Pipeline.ΦA spec1 c
  | n + 1, hn => iprop(owns (c : Thread nD τ) mAcc fullShare (accAt V c n hn) ∗ beside c)

theorem Inv_zero (c : Dev nD) (n : ℕ) (h : n ≤ cfg1.N) (hz : n = 0) : Inv V c n h = Pipeline.ΦA spec1 c := by
  subst hz; rfl
theorem Inv_succ (c : Dev nD) (n : ℕ) (hn : n < cfg1.N) :
    Inv V c (n + 1) hn = iprop(owns (c : Thread nD τ) mAcc fullShare (accAt V c n hn) ∗ beside c) := rfl
theorem Inv_pos (c : Dev nD) (n : ℕ) (h : n ≤ cfg1.N) (hz : n ≠ 0) :
    Inv V c n h = iprop(owns (c : Thread nD τ) mAcc fullShare (accAt V c (n - 1) (by omega)) ∗ beside c) := by
  cases n with
  | zero => exact absurd rfl hz
  | succ n => rfl

/-- Whatever the position, the invariant yields the accumulator at some contents beside the rest. -/
theorem Inv_open (c : Dev nD) (n : ℕ) (h : n ≤ cfg1.N) :
    Inv V c n h ⊢ iprop((∃ d, owns (c : Thread nD τ) mAcc fullShare d) ∗ beside c) := by
  cases n with
  | zero => exact PhiA_open c
  | succ n =>
    rw [Inv_succ]
    iintro ⟨HA, Hr⟩
    isplitl [HA]; · iexists _; iexact HA
    iexact Hr

/-! ## The pipeline's proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outAt V c t
  Φ t := Inv V c t.val (Nat.le_of_lt_succ t.isLt)
  q _ := fullShare
  owed _ := 0

theorem A_eq (c : Dev nD) (w : Fin cfg1.W) : (dat V c).A w = V c (Pipeline.arrRef spec1 w) := by
  dsimp only [dat]
theorem Inv_castSucc (c : Dev nD) (t : Fin cfg1.N) :
    (dat V c).Φ t.castSucc = Inv V c t.val (Nat.le_of_lt t.isLt) := by
  dsimp only [dat]; simp only [Fin.coe_castSucc]
theorem after0 (c : Dev nD) (t : Fin cfg1.N) : (dat V c).after 0 t = blk V c 0 t := by dsimp only [dat]
theorem after1 (c : Dev nD) (t : Fin cfg1.N) : (dat V c).after 1 t = blk V c 1 t := by dsimp only [dat]
/-- What a storing point leaves in the output's staging buffer, and so writes back. -/
theorem after2 (c : Dev nD) (t : Fin cfg1.N) : (dat V c).after 2 t = outAt V c t := by dsimp only [dat]
theorem before0 (c : Dev nD) (t : Fin cfg1.N) (d) : (dat V c).before 0 t d = blk V c 0 t :=
  found0 V (dat V c) (A_eq V c 0) (after0 V c) t d
theorem before1 (c : Dev nD) (t : Fin cfg1.N) (d) : (dat V c).before 1 t d = blk V c 1 t :=
  found1 V (dat V c) (A_eq V c 1) (after1 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (mVals t) fullShare ((dat V c).before 0 t d))
    ∗ (∃ d, owns (c : Thread nD τ) (mIdx t) fullShare ((dat V c).before 1 t d))
    ∗ (∃ d, owns (c : Thread nD τ) (mOut t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' memrefs hold their blocks; the closed forms say which case the point is in; the
    invariant hands the body the accumulator — at anything where it is cleared first, at what the point before left
    otherwise — and takes it back at this point's contents; at a point that does not store, the output's buffer is
    handed back as it was found. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = Inv V c (t.val + 1) t.isLt from rfl, Inv_succ]
  rw [show (dat V c).leavesExact 0 t = owns (c : Thread nD τ) (mVals t) fullShare ((dat V c).after 0 t) from by
    unfold Dat.leavesExact; rw [live0 t], after0]
  rw [show (dat V c).leavesExact 1 t = owns (c : Thread nD τ) (mIdx t) fullShare ((dat V c).after 1 t) from by
    unfold Dat.leavesExact; rw [live1 t], after1]
  have hN : t.val < 1960 := lt_of_lt_of_eq t.isLt (show cfg1.N = 1960 from N_1)
  by_cases h0 : t.val % 245 = 0
  · have hns : ¬Stores (grid1.coords t) := fun h => by have := (stores_iff t).mp h; omega
    rw [Dat.leavesExact_idle (dat V c) 2 t (idle2 t hns) (noFlush2 t hns)]
    rw [accAt_clear V c t h0]
    unfold accClear; (try dsimp only)
    rw [Inv_castSucc V c t]
    iintro ⟨Hinv, Ho, ⟨%d0, H0⟩, ⟨%d1, H1⟩, ⟨%d2, H2⟩⟩
    ihave Hopen := (Inv_open V c t.val (Nat.le_of_lt t.isLt)) $$ Hinv
    icases Hopen with ⟨HA, Hr⟩
    iapply ((runClear c (grid1.coords t) _ _ _ _ _ _ _ _ ((clears_iff t).mpr h0) hns (blk V c 0 t) (blk V c 1 t)).2.2 _ Set.univ _)
    isplitl [H0]; · iexact H0
    isplitl [H1]; · iexact H1
    isplitl [H2]; · iexact H2
    isplitl [HA]; · iexact HA
    iintro ⟨H0, H1, H2, ⟨%ea, HA⟩⟩
    isplitl [HA Hr]
    · isplitl [HA]
      · unfold owns; iexists _; isplitr
        swap; · iexact HA
        ipureintro; exact View.read_writes_of_cover _ _ _ _ _ (accClear_cover c _ _ _ _ _ _ _ _ _ _ _ _ _)
      iexact Hr
    isplitl [Ho]; · iexact Ho
    isplitl [H0]; · iexact H0
    isplitl [H1]; · iexact H1
    iexists _; iexact H2
  · have hz : t.val ≠ 0 := fun e => h0 (by rw [e])
    by_cases h1 : t.val % 245 = 244
    · rw [show (dat V c).leavesExact 2 t = owns (c : Thread nD τ) (mOut t) fullShare ((dat V c).after 2 t) from by
        unfold Dat.leavesExact; rw [live2 t ((stores_iff t).mpr h1)], after2]
      rw [accAt_store V c t h0 h1, outAt_store V c t h0 h1]
      unfold accStore outStore; (try dsimp only)
      rw [Inv_castSucc V c t, Inv_pos V c _ _ hz]
      iintro ⟨⟨HA, Hr⟩, Ho, ⟨%d0, H0⟩, ⟨%d1, H1⟩, ⟨%d2, H2⟩⟩
      iapply ((runStore c (grid1.coords t) _ _ _ _ _ _ _ _ (fun h => h0 ((clears_iff t).mp h)) ((stores_iff t).mpr h1) (blk V c 0 t) (blk V c 1 t) _).2.2 Set.univ _)
      isplitl [H0]; · iexact H0
      isplitl [H1]; · iexact H1
      isplitl [H2]; · iexists _; iexact H2
      isplitl [HA]; · iexact HA
      iintro ⟨H0, H1, ⟨%e2, H2⟩, ⟨%ea, HA⟩⟩
      isplitl [HA Hr]
      · isplitl [HA]
        · unfold owns; iexists _; isplitr
          swap; · iexact HA
          ipureintro; exact View.read_writes_of_cover _ _ _ _ _ (accStore_cover c _ _ _ _ _ _ _ _ _ _ _ _ _ _)
        iexact Hr
      isplitl [Ho]; · iexact Ho
      isplitl [H0]; · iexact H0
      isplitl [H1]; · iexact H1
      unfold owns; iexists _; isplitr
      swap; · iexact H2
      ipureintro; exact View.read_writes_of_cover _ _ _ _ _ (outStore_cover c _ _ _ _ _ _ _ _ _ _ _ _ _ _)
    · have hns : ¬Stores (grid1.coords t) := fun h => h1 ((stores_iff t).mp h)
      rw [Dat.leavesExact_idle (dat V c) 2 t (idle2 t hns) (noFlush2 t hns)]
      rw [accAt_plain V c t h0 h1]
      unfold accPlain; (try dsimp only)
      rw [Inv_castSucc V c t, Inv_pos V c _ _ hz]
      iintro ⟨⟨HA, Hr⟩, Ho, ⟨%d0, H0⟩, ⟨%d1, H1⟩, ⟨%d2, H2⟩⟩
      iapply ((runPlain c (grid1.coords t) _ _ _ _ _ _ _ _ (fun h => h0 ((clears_iff t).mp h)) hns (blk V c 0 t) (blk V c 1 t) _).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hr]
      · isplitl [HA]
        · unfold owns; iexists _; isplitr
          swap; · iexact HA
          ipureintro; exact View.read_writes_of_cover _ _ _ _ _ (accPlain_cover c _ _ _ _ _ _ _ _ _ _ _ _ _ _)
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant's two ends -/

/-- What the launch hands the region is the invariant before the first point. -/
theorem inv_first (c : Dev nD) : Pipeline.ΦA spec1 c ⊢ (dat V c).Φ 0 := by
  rw [show (dat V c).Φ 0 = Inv V c 0 (Nat.zero_le _) from rfl, Inv_zero V c 0 _ rfl]
  try exact Idealize.SL.BI.Entails.refl _

/-- After the last point the invariant gives the class's back: the accumulator's contents are forgotten. -/
theorem inv_last (c : Dev nD) : (dat V c).Φ (Fin.last cfg1.N) ⊢ Pipeline.ΦA spec1 c := by
  rw [show (dat V c).Φ (Fin.last cfg1.N) = Inv V c (Fin.last cfg1.N).val (Nat.le_of_lt_succ (Fin.last cfg1.N).isLt) from rfl]
  exact (Inv_open V c _ _).trans (PhiA_close c)

end Cert.Kernel.Scatter

end
-- ==== Proof.Bits.Whole.lean ====
/-
  The whole run of @main: eight stretches of host operations (a reshape, the four paddings, a change of format), the
  gather pallas_call, the scatter pallas_call, and the closing reshape. Between two items the core's unscoped
  buffers are held at a valuation: the launch contents folded through the stretches (the generated `Gen.V0 … Gen.V8`),
  then with the gather's arrays at what its write-backs leave (`Wg`), then with the scatter's (`Ws`), then after
  the closing reshape (`Wend`). Each region enters the pipeline library through a segment record over these
  valuations, and one launch over the eleven segments gives: every weakly fair execution ends, nothing faulting,
  with every unscoped buffer at `Wend`. Stated at any float instance.
-/
import proofs.«428843_j77163382440036_3_alg».proof.Proof.Bits.Gather
import proofs.«428843_j77163382440036_3_alg».proof.Proof.Bits.Scatter
import proofs.«428843_j77163382440036_3_alg».proof.Proof.Gen.Kernel.Regions

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- The gather's entry contents, read at the TensorCore's references. -/
abbrev Vin : (c : Dev nD) → (b : Ref sig .tc) → Buf (Elt F) ((c : Thread nD τ).loc b) := fun c b => V8 m c b
/-- At the gather's exit: its arrays at what the pipeline leaves, every other buffer as entered. -/
def Wg (c : Dev nD) : Valuation τ sig (Elt F) :=
  Pipeline.withArrays spec0 c (V8 m c) fun w => (Gather.dat (Vin m) c).arrAt w cfg0.N
theorem Wg_arr (c : Dev nD) (w : Fin cfg0.W) :
    Wg m c (Proc.devRef .tc (Pipeline.arrRef spec0 w)) = (Gather.dat (Vin m) c).arrAt w cfg0.N := by
  unfold Wg; exact Pipeline.withArrays_arr spec0 launch0.win.arr_inj c _ _ w
theorem Wg_of_ne (c : Dev nD) (b : Ref sig .tc) (hb : ∀ w, Pipeline.arrRef spec0 w ≠ b) :
    Wg m c (Proc.devRef .tc b) = V8 m c (Proc.devRef .tc b) := by
  unfold Wg; exact Pipeline.withArrays_of_ne spec0 c _ _ b hb
/-- The scatter's entry contents (no host operation stands between the two regions). -/
abbrev Vg : (c : Dev nD) → (b : Ref sig .tc) → Buf (Elt F) ((c : Thread nD τ).loc b) := fun c b => Wg m c b
theorem hF0 (c : Dev nD) (w : Fin cfg0.W) : (Gather.dat (Vin m) c).arrAt w cfg0.N = Vg m c (Pipeline.arrRef spec0 w) :=
  (Wg_arr m c w).symm
theorem hrest0 (c : Dev nD) : ∀ b, b ∉ Finset.univ.image (Pipeline.arrRef spec0) → Vg m c b = Vin m c b :=
  fun b hb => Wg_of_ne m c b fun w e => hb (Finset.mem_image.mpr ⟨w, Finset.mem_univ _, e⟩)

/-- At the scatter's exit. -/
def Ws (c : Dev nD) : Valuation τ sig (Elt F) :=
  Pipeline.withArrays spec1 c (Wg m c) fun w => (Scatter.dat (Vg m) c).arrAt w cfg1.N
theorem Ws_arr (c : Dev nD) (w : Fin cfg1.W) :
    Ws m c (Proc.devRef .tc (Pipeline.arrRef spec1 w)) = (Scatter.dat (Vg m) c).arrAt w cfg1.N := by
  unfold Ws; exact Pipeline.withArrays_arr spec1 launch1.win.arr_inj c _ _ w
theorem Ws_of_ne (c : Dev nD) (b : Ref sig .tc) (hb : ∀ w, Pipeline.arrRef spec1 w ≠ b) :
    Ws m c (Proc.devRef .tc b) = Wg m c (Proc.devRef .tc b) := by
  unfold Ws; exact Pipeline.withArrays_of_ne spec1 c _ _ b hb
abbrev Vs : (c : Dev nD) → (b : Ref sig .tc) → Buf (Elt F) ((c : Thread nD τ).loc b) := fun c b => Ws m c b
theorem hF1 (c : Dev nD) (w : Fin cfg1.W) : (Scatter.dat (Vg m) c).arrAt w cfg1.N = Vs m c (Pipeline.arrRef spec1 w) :=
  (Ws_arr m c w).symm
theorem hrest1 (c : Dev nD) : ∀ b, b ∉ Finset.univ.image (Pipeline.arrRef spec1) → Vs m c b = Vg m c b :=
  fun b hb => Ws_of_ne m c b fun w e => hb (Finset.mem_image.mpr ⟨w, Finset.mem_univ _, e⟩)

/-- After the closing reshape. -/
abbrev Wend (c : Dev nD) : Valuation τ sig (Elt F) := StableHlo.after hostOps2 (Ws m c)
theorem Wend_of (c : Dev nD) (r : Ref sig .tc) (h : r ∉ hostOps2_W) : Wend m c r = Ws m c r :=
  StableHlo.after_of_writes_sub hostOps2 _ hostOps2_writes h

/-- `main_arg0` reaches the end as launched: no host stretch writes it and no region stages it as an output. -/
theorem Wend_main_arg0 (c : Dev nD) : Wend m c (Proc.devRef .tc main_arg0) = m ((c : Thread nD τ).loc main_arg0) :=
  (Wend_of m c main_arg0 (by decide)).trans <| (Ws_of_ne m c main_arg0 (by decide)).trans <| (Wg_of_ne m c main_arg0 (by decide)).trans <|
    (V8_of m c main_arg0 (by decide)).trans <| (V7_of m c main_arg0 (by decide)).trans <| (V6_of m c main_arg0 (by decide)).trans <|
    (V5_of m c main_arg0 (by decide)).trans <| (V4_of m c main_arg0 (by decide)).trans <| (V3_of m c main_arg0 (by decide)).trans <|
    (V2_of m c main_arg0 (by decide)).trans <| (V1_of m c main_arg0 (by decide)).trans rfl
/-- `main_arg1` reaches the end as launched: no host stretch writes it and no region stages it as an output. -/
theorem Wend_main_arg1 (c : Dev nD) : Wend m c (Proc.devRef .tc main_arg1) = m ((c : Thread nD τ).loc main_arg1) :=
  (Wend_of m c main_arg1 (by decide)).trans <| (Ws_of_ne m c main_arg1 (by decide)).trans <| (Wg_of_ne m c main_arg1 (by decide)).trans <|
    (V8_of m c main_arg1 (by decide)).trans <| (V7_of m c main_arg1 (by decide)).trans <| (V6_of m c main_arg1 (by decide)).trans <|
    (V5_of m c main_arg1 (by decide)).trans <| (V4_of m c main_arg1 (by decide)).trans <| (V3_of m c main_arg1 (by decide)).trans <|
    (V2_of m c main_arg1 (by decide)).trans <| (V1_of m c main_arg1 (by decide)).trans rfl
/-- `main_arg2` reaches the end as launched: no host stretch writes it and no region stages it as an output. -/
theorem Wend_main_arg2 (c : Dev nD) : Wend m c (Proc.devRef .tc main_arg2) = m ((c : Thread nD τ).loc main_arg2) :=
  (Wend_of m c main_arg2 (by decide)).trans <| (Ws_of_ne m c main_arg2 (by decide)).trans <| (Wg_of_ne m c main_arg2 (by decide)).trans <|
    (V8_of m c main_arg2 (by decide)).trans <| (V7_of m c main_arg2 (by decide)).trans <| (V6_of m c main_arg2 (by decide)).trans <|
    (V5_of m c main_arg2 (by decide)).trans <| (V4_of m c main_arg2 (by decide)).trans <| (V3_of m c main_arg2 (by decide)).trans <|
    (V2_of m c main_arg2 (by decide)).trans <| (V1_of m c main_arg2 (by decide)).trans rfl
/-- `main_arg3` reaches the end as launched: no host stretch writes it and no region stages it as an output. -/
theorem Wend_main_arg3 (c : Dev nD) : Wend m c (Proc.devRef .tc main_arg3) = m ((c : Thread nD τ).loc main_arg3) :=
  (Wend_of m c main_arg3 (by decide)).trans <| (Ws_of_ne m c main_arg3 (by decide)).trans <| (Wg_of_ne m c main_arg3 (by decide)).trans <|
    (V8_of m c main_arg3 (by decide)).trans <| (V7_of m c main_arg3 (by decide)).trans <| (V6_of m c main_arg3 (by decide)).trans <|
    (V5_of m c main_arg3 (by decide)).trans <| (V4_of m c main_arg3 (by decide)).trans <| (V3_of m c main_arg3 (by decide)).trans <|
    (V2_of m c main_arg3 (by decide)).trans <| (V1_of m c main_arg3 (by decide)).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Gather.dat (Vin m) c
  | ⟨1, _⟩ => fun c => Scatter.dat (Vg m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ => R
/-- The last thread state without what is owed. -/
abbrev Tₙ (c : Dev nD) : sProp 𝕄 := StableHlo.held (c : Thread nD τ) (Pipeline.ucRefs τ sig) (Wend m c)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- the library's lemmas are stated over the pinned configuration; unifying with it unfolds plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gather.body_obligation (Vin m) c).loose
  hwaits := Pipeline.hwaits_of_owed_zero _ _ _ _ L lv 0 fun _ _ => rfl
  pre c := iprop(StableHlo.held (c : Thread nD τ) (Pipeline.ucRefs τ sig) (V8 m c) ∗ R c)
  post c := iprop(StableHlo.held (c : Thread nD τ) (Pipeline.ucRefs τ sig) (Wg m c) ∗ R c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m 0 c).Φ 0 from .rfl)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ (Pipeline.ΦA spec0 c : sProp 𝕄) from .rfl) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin m c) (Vg m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying with it unfolds plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Scatter.body_obligation (Vg m) c).loose
  hwaits := Pipeline.hwaits_of_owed_zero _ _ _ _ L lv 1 fun _ _ => rfl
  pre c := iprop(StableHlo.held (c : Thread nD τ) (Pipeline.ucRefs τ sig) (Wg m c) ∗ R c)
  post c := iprop(StableHlo.held (c : Thread nD τ) (Pipeline.ucRefs τ sig) (Ws m c) ∗ R c)
  X c := iprop(∃ r, prngReg c r)
  Y c := iprop(∃ r, prngReg c r)
  Z c := Pipeline.unscopedRest (Ix := Unit) (Name := ℕ) (U := UR sig nD τ) (Lvl := ℕ) spec1 c (Vg m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vg m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from Scatter.inv_first (Vg m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ (Pipeline.ΦA spec1 c : sProp 𝕄) from Scatter.inv_last (Vg m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vg m c) (Vs m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The closing reshape as a segment, from the scatter's exit contents. -/
abbrev segLast : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (Ws m) R

/-! ## @main as segments, and the launch -/

abbrev segs : List (Pipeline.Seg (pcfgs (F := F)) adm (pdats m) () defs₀ 𝒱₀ L lv) :=
  [ .host (seg0 m 𝒱₀ L lv E), .host (seg1 m 𝒱₀ L lv E), .host (seg2 m 𝒱₀ L lv E), .host (seg3 m 𝒱₀ L lv E),
    .host (seg4 m 𝒱₀ L lv E), .host (seg5 m 𝒱₀ L lv E), .host (seg6 m 𝒱₀ L lv E), .host (seg7 m 𝒱₀ L lv E),
    .region (reg0 m), .region (reg1 m), .host (segLast m) ]

theorem main_run (c : Dev nD) : main (F := F) c = Pipeline.Seg.run (segs m) := (main_chain c).trans (by chain_rfl)

set_option backward.isDefEq.respectTransparency.types false in
/-- From any memory with zero counters, every weakly fair execution of @main on the TensorCores terminates, nothing
    faulting, and every final state holds each unscoped buffer at `Wend`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      show iprop(StableHlo.held (c : Thread nD τ) (Pipeline.ucRefs τ sig) (Wend m c) ∗ SI s') ⊢ _
      unfold StableHlo.held
      iintro ⟨Hh, HSI⟩
      imodintro
      iapply (pointsTo_read_all (Pipeline.ucRefs τ sig) (fun b => (((c : Thread nD τ)).1, b)) (Wend m c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Wend_main_arg0 m c),
     (h c _ (mem_uc main_arg1 (by decide))).trans (Wend_main_arg1 m c),
     (h c _ (mem_uc main_arg2 (by decide))).trans (Wend_main_arg2 m c),
     (h c _ (mem_uc main_arg3 (by decide))).trans (Wend_main_arg3 m c)⟩) (run_all m ρ)

end Cert.Kernel.Whole

end
-- ==== Proof.Gather.lean ====
/-
  The gather pallas_call, point by point. Its grid has 980 points; point `t` handles the votes `1024·t … 1024·t + 1023`.
  The padded HT table (window 0, the whole [256, 11008] array, brought in once), the point's 1024 HT index words
  (window 1) and its 1024 weights (window 2) are read; the point's [256, 1024] block of gathered, weighted values
  (window 3) is stored whole, once. Nothing is carried from a point to the next, so what the output's staging
  buffer holds after the body is ONE function of the three input blocks and the point's coordinate
  (`stored`): the body's one store, over its one payload.

  Stated at a PARAMETER `V`, the unscoped buffers' contents when the region is entered, and at any float
  instance: the proof data `dat`, each input window's buffer at its block at every point, the body's triple, and the
  body obligation.
-/
import proofs.«428843_j77163382440036_3_alg».proof.Proof.Gen.KernelIdeal.Launch
import proofs.«428843_j77163382440036_3_alg».proof.Proof.Gen.KernelIdeal.Skeleton
import proofs.«428843_j77163382440036_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gather

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def blk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, brought in there or not (the table is
    brought in at the first point only and its block never moves), for any proof data over `V`'s arrays whose body
    leaves the block in place. -/
theorem found0 {c : Dev nD} (dat : Dat τ (Elt F) Unit ℕ (UR sig nD τ) ℕ cfg0 c) (hA : dat.A 0 = V c (Pipeline.arrRef spec0 0))
    (hafter : ∀ t, dat.after 0 t = blk V c 0 t) (t : Fin cfg0.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1 {c : Dev nD} (dat : Dat τ (Elt F) Unit ℕ (UR sig nD τ) ℕ cfg0 c) (hA : dat.A 1 = V c (Pipeline.arrRef spec0 1))
    (hafter : ∀ t, dat.after 1 t = blk V c 1 t) (t : Fin cfg0.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)
theorem found2 {c : Dev nD} (dat : Dat τ (Elt F) Unit ℕ (UR sig nD τ) ℕ cfg0 c) (hA : dat.A 2 = V c (Pipeline.arrRef spec0 2))
    (hafter : ∀ t, dat.after 2 t = blk V c 2 t) (t : Fin cfg0.N) (d) : dat.before 2 t d = blk V c 2 t :=
  (dat.before_in_eq_fetched 2 rfl (fun _ => rfl) (fun _ _ _ => rfl) (fun t => by rw [hafter]; unfold Dat.blockOf blk; rw [hA]; try rfl) t d).trans
    (by unfold Dat.fetched Dat.blockOf blk; rw [hA]; try rfl)

/-! ## The body's accesses and what it stores -/

/-- The two halves of the table's columns, a whole vote block, the whole output block. -/
abbrev rLo : Rect S256x11008 := Rect.unit (s := S256x11008) ![0, 0] S256x5504.size inb_S256x11008_S256x5504_0_0
abbrev rHi : Rect S256x11008 := Rect.unit (s := S256x11008) ![0, 5504] S256x5504.size inb_S256x11008_S256x5504_0_5504
abbrev rVotes : Rect S1024 := Rect.unit (s := S1024) ![0] S1024.size inb_S1024_S1024_0
abbrev rOut : Rect S256x1024 := Rect.unit (s := S256x1024) ![0, 0] S256x1024.size inb_S256x1024_S256x1024_0_0

/-- The output block after the body at grid coordinate `i`, from the table `x`, the index words `h` and the weights `w`:
    the one store, of the payload over the four loads. -/
def stored (i : grid0.Coords) (x : Vec F S256x11008 .bf16) (h : Vec F S1024 .i32) (w : Vec F S1024 .f32) : Vec F S256x1024 .bf16 :=
  View.canon [⟨rOut, k0_pay1 i (View.ld w rVotes) (View.ld h rVotes) (View.ld x rLo) (View.ld x rHi)⟩]

/-- The one store covers the block. -/
theorem stored_cover (p0 : Vec F S256x1024 .bf16) (y : S256x1024.Idx) :
    ∃ pc ∈ ([⟨rOut, p0⟩] : List (View.Piece (Elt F) S256x1024 .bf16)), y ∈ pc.1.set :=
  View.cover_of_tiled [⟨rOut, p0⟩] S256x1024.size (by rfl) y

/-! ## The body's triple -/

set_option maxHeartbeats 1000000 in
/-- On whole staging memrefs, the inputs' at contents `x`, `h`, `w` and the output's at anything, the body runs to the
    continuation holding the inputs' as they were and the output's at `stored`. -/
theorem body_triple (c : Dev nD) (E : Set ℕ) (i : grid0.Coords)
    (arg1 : Memref sig .tc .vmem S256x11008 .bf16) (harg1 : arg1.IsWhole) (arg2 : Memref sig .tc .vmem S1024 .i32) (harg2 : arg2.IsWhole)
    (arg3 : Memref sig .tc .vmem S1024 .f32) (harg3 : arg3.IsWhole) (arg4 : Memref sig .tc .vmem S256x1024 .bf16) (harg4 : arg4.IsWhole)
    (x : Vec F S256x11008 .bf16) (h : Vec F S1024 .i32) (w : Vec F S1024 .f32) (K : PUnit → sProp 𝕄) :
    iprop(owns (c : Thread nD τ) arg1 fullShare x ∗ owns (c : Thread nD τ) arg2 fullShare h ∗ owns (c : Thread nD τ) arg3 fullShare w
        ∗ (∃ d, owns (c : Thread nD τ) arg4 fullShare d)
        ∗ (iprop(owns (c : Thread nD τ) arg1 fullShare x ∗ owns (c : Thread nD τ) arg2 fullShare h ∗ owns (c : Thread nD τ) arg3 fullShare w
            ∗ owns (c : Thread nD τ) arg4 fullShare (stored i x h w)) -∗ K ⟨⟩))
      ⊢ wp frame (wpE (defs₀ (F := F)) Variants.none c none) E (cc0__gather_kernel i arg1 harg1 arg2 harg2 arg3 harg3 arg4 harg4) K := by
  simp only [cc0__gather_kernel_eq_skeleton]; unfold cc0__gather_kernel_skel
  unfold owns
  iintro ⟨⟨%f1, %hf1, H1⟩, ⟨%f2, %hf2, H2⟩, ⟨%f3, %hf3, H3⟩, ⟨%d4, %f4, -, H4⟩, Hk⟩
  subst hf1; subst hf2; subst hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (stored_cover _)

/-! ## The pipeline's proof data -/

/-- The proof data of the gather pipeline on core `c`: the arrays as the region finds them; after the body at point `t`
    each input's buffer still at its block and the output's at `stored` of the three blocks; the invariant the scoped
    buffers no window stages and the generator register, untouched; nothing owed; full shares. -/
def dat (c : Dev nD) : Dat τ (Elt F) Unit ℕ (UR sig nD τ) ℕ cfg0 c where
  A w := V c (Pipeline.arrRef spec0 w)
  after w t := match w with
    | ⟨0, _⟩ => blk V c 0 t
    | ⟨1, _⟩ => blk V c 1 t
    | ⟨2, _⟩ => blk V c 2 t
    | ⟨3, _⟩ => stored (grid0.coords t) (blk V c 0 t) (blk V c 1 t) (blk V c 2 t)
  Φ _ := Pipeline.ΦA spec0 c
  q _ := fullShare
  owed _ := 0

theorem A_eq (c : Dev nD) (w : Fin cfg0.W) : (dat V c).A w = V c (Pipeline.arrRef spec0 w) := by
  dsimp only [dat]

theorem after0 (c : Dev nD) (t : Fin cfg0.N) : (dat V c).after 0 t = blk V c 0 t := by dsimp only [dat]
theorem after1 (c : Dev nD) (t : Fin cfg0.N) : (dat V c).after 1 t = blk V c 1 t := by dsimp only [dat]
theorem after2 (c : Dev nD) (t : Fin cfg0.N) : (dat V c).after 2 t = blk V c 2 t := by dsimp only [dat]
/-- What point `t` leaves in the output's staging buffer, and so writes back. -/
theorem after3 (c : Dev nD) (t : Fin cfg0.N) :
    (dat V c).after 3 t = stored (grid0.coords t) (blk V c 0 t) (blk V c 1 t) (blk V c 2 t) := by dsimp only [dat]

theorem before0 (c : Dev nD) (t : Fin cfg0.N) (d) : (dat V c).before 0 t d = blk V c 0 t :=
  found0 V (dat V c) (A_eq V c 0) (after0 V c) t d
theorem before1 (c : Dev nD) (t : Fin cfg0.N) (d) : (dat V c).before 1 t d = blk V c 1 t :=
  found1 V (dat V c) (A_eq V c 1) (after1 V c) t d
theorem before2 (c : Dev nD) (t : Fin cfg0.N) (d) : (dat V c).before 2 t d = blk V c 2 t :=
  found2 V (dat V c) (A_eq V c 2) (after2 V c) t d

/-! ## The body obligation -/

/-- What the body is called with at point `t`, the windows one by one, -/
def bodyPre (c : Dev nD) (t : Fin cfg0.N) : sProp 𝕄 :=
  iprop((dat V c).Φ t.castSucc ∗ (dat V c).owesAt () t.castSucc
    ∗ (∃ d, owns (c : Thread nD τ) (st0_0 t) fullShare ((dat V c).before 0 t d))
    ∗ (∃ d, owns (c : Thread nD τ) (st0_1 t) fullShare ((dat V c).before 1 t d))
    ∗ (∃ d, owns (c : Thread nD τ) (st0_2 t) fullShare ((dat V c).before 2 t d))
    ∗ (∃ d, owns (c : Thread nD τ) (st0_3 t) fullShare ((dat V c).before 3 t d)))

/-- and what it returns. -/
def bodyPost (c : Dev nD) (t : Fin cfg0.N) : sProp 𝕄 :=
  iprop((dat V c).Φ t.succ ∗ (dat V c).owesAt () t.succ
    ∗ owns (c : Thread nD τ) (st0_0 t) fullShare ((dat V c).after 0 t)
    ∗ owns (c : Thread nD τ) (st0_1 t) fullShare ((dat V c).after 1 t)
    ∗ owns (c : Thread nD τ) (st0_2 t) fullShare ((dat V c).after 2 t)
    ∗ owns (c : Thread nD τ) (st0_3 t) fullShare ((dat V c).after 3 t))

/-- The body at any point: the inputs' memrefs hold their blocks, so the triple applies; the invariant and what the
    core owes pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0, before1, before2]
  rw [show (dat V c).Φ t.succ = (dat V c).Φ t.castSucc from rfl,
    show (dat V c).owesAt () t.succ = (dat V c).owesAt () t.castSucc from rfl,
    after0, after1, after2, after3]
  iintro ⟨HΦ, Ho, ⟨%d0, H0⟩, ⟨%d1, H1⟩, ⟨%d2, H2⟩, ⟨%d3, H3⟩⟩
  iapply (body_triple c Set.univ (grid0.coords t) _ _ _ _ _ _ _ _ (blk V c 0 t) (blk V c 1 t) (blk V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dat (F := F) V c) (defs₀ (F := F)) Variants.none () Set.univ := fun t => by
  rw [bigSep_W0, bigSep_W0]
  exact sound_body V c t

end Cert.KernelIdeal.Gather

end
-- ==== Proof.ScatterBase.lean ====
/-
  The scatter pallas_call: what its body's runs share. The grid has 8 × 245 points; point `t` is image tile
  `t / 245` (2048 pixel columns) and vote chunk `t mod 245` (4096 votes). The body keeps a [256, 2048] accumulator in a
  scratch buffer of its own across the 245 chunks of a tile: it clears it at chunk 0, adds the chunk's one-hot
  product at every chunk, and stores it into the output block at chunk 244 only. So the body has two conditions
  over the grid coordinates, decided here in closed form, and three cases meet the grid: clearing (chunk 0),
  plain (chunks 1 … 243) and storing (chunk 244). At the chunks that do not store, the output window is idle and is
  not written back.
-/
import proofs.«428843_j77163382440036_3_alg».proof.Proof.Gen.KernelIdeal.Launch
import proofs.«428843_j77163382440036_3_alg».proof.Proof.Gen.KernelIdeal.Skeleton
import proofs.«428843_j77163382440036_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditions over the grid -/

/-- The accumulator is cleared: the chunk coordinate is 0 (the body's scalar chain, substituted). -/
abbrev Clears (i : grid1.Coords) : Prop := (Scalar.cmpi .ne (Scalar.extui (Scalar.cmpi .eq (BitVec.ofNat 32 (i 1).val) 0#32)) 0#32) = 1#1
theorem clears_iff : ∀ t : Fin cfg1.N, Clears (grid1.coords t) ↔ t.val % 245 = 0 :=
  (by decide +kernel : ∀ t : Fin grid1.N, Clears (grid1.coords t) ↔ t.val % 245 = 0)

/-- The accumulator is stored into the output block: the chunk coordinate is 244. -/
abbrev Stores (i : grid1.Coords) : Prop := k1_cond2 i = 1#1
theorem stores_iff : ∀ t : Fin cfg1.N, Stores (grid1.coords t) ↔ t.val % 245 = 244 :=
  (by decide +kernel : ∀ t : Fin grid1.N, Stores (grid1.coords t) ↔ t.val % 245 = 244)

/-! ## Where the windows are idle -/

theorem live0 : ∀ t : Fin cfg1.N, cfg1.idle 0 (grid1.coords t) = false := by decide +kernel
theorem live1 : ∀ t : Fin cfg1.N, cfg1.idle 1 (grid1.coords t) = false := by decide +kernel
/-- At a chunk that does not store, the output window is idle and is not written back. -/
theorem idle2 : ∀ t : Fin cfg1.N, ¬Stores (grid1.coords t) → cfg1.idle 2 (grid1.coords t) = true := by decide +kernel
theorem noFlush2 : ∀ t : Fin cfg1.N, ¬Stores (grid1.coords t) → (cfg1.win 2).flush t = false := by decide +kernel
/-- At chunk 244 it is live. -/
theorem live2 : ∀ t : Fin cfg1.N, Stores (grid1.coords t) → cfg1.idle 2 (grid1.coords t) = false := by decide +kernel

/-! ## The memrefs the body is called with -/

/-- One staging buffer of the output window, through which its contents are stated. -/
abbrev outView : View sig .tc .vmem S256x2048 .f32 := (Memref.whole cc1_stg2_0 : Memref sig .tc .vmem S256x2048 .f32).view
abbrev mVals (t : Fin cfg1.N) : Memref sig .tc .vmem S256x4096 .bf16 := win1_0.stage (cfg1.slots t 0)
abbrev hVals (t : Fin cfg1.N) : (mVals t).IsWhole := hstage1_0 ((cfg1.slots t 0).cast nbuf1_0)
abbrev mIdx (t : Fin cfg1.N) : Memref sig .tc .vmem S4096 .i32 := win1_1.stage (cfg1.slots t 1)
abbrev hIdx (t : Fin cfg1.N) : (mIdx t).IsWhole := hstage1_1 ((cfg1.slots t 1).cast nbuf1_1)
abbrev mOut (t : Fin cfg1.N) : Memref sig .tc .vmem S256x2048 .f32 := win1_2.stage (cfg1.slots t 2)
abbrev hOut (t : Fin cfg1.N) : (mOut t).IsWhole := hstage1_2 ((cfg1.slots t 2).cast nbuf1_2)
/-- The accumulator: a whole scoped buffer of the kernel's own. -/
abbrev mAcc : Memref sig .tc .vmem S256x2048 .f32 := Memref.whole cc1_scratch0
abbrev accView : View sig .tc .vmem S256x2048 .f32 := mAcc.view

/-- The region's invariant with the accumulator's part `P` spelt out: the seven scoped buffers of the other pipeline, each
    whole at some contents, the accumulator's part, and the generator register at some state. -/
abbrev withAcc (c : Dev nD) (P : sProp 𝕄) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ P) ∗ (∃ r, prngReg c r))

/-- The class invariant is that with the accumulator owned at some contents. -/
theorem PhiA_eq (c : Dev nD) :
    (Pipeline.ΦA spec1 c : sProp 𝕄) = withAcc c (iprop(∃ d, owns (c : Thread nD τ) mAcc fullShare d)) := by
  unfold Pipeline.ΦA; rw [scopedRest1_eq]; simp only [mAcc, owns_whole]; try rfl

end Cert.KernelIdeal.Scatter

end
-- ==== Proof.ScatterClear.lean ====
/-
  The scatter body's run in the CLEARING case (chunk 0 of a tile: the accumulator is cleared first; nothing is stored into the output block): on whole memrefs the body runs to its end, the inputs left as they
  were, and each buffer it stores into left with its stores written, as a list of pieces the run itself finds.
-/
import proofs.«428843_j77163382440036_3_alg».proof.Proof.ScatterBase

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runClear (c : Dev nD) (i : grid1.Coords) (arg2 : Memref sig .tc .vmem S256x4096 .bf16) (harg2 : arg2.IsWhole) (arg3 : Memref sig .tc .vmem S4096 .i32) (harg3 : arg3.IsWhole) (arg4 : Memref sig .tc .vmem S256x2048 .f32) (harg4 : arg4.IsWhole) (arg5 : Memref sig .tc .vmem S256x2048 .f32) (harg5 : arg5.IsWhole) (hc0 : Clears i) (hc1 : ¬Stores i)
    (x0 : Vec F S256x4096 .bf16) (x1 : Vec F S4096 .i32) :
    Σ' (LO : List (View.Piece (Elt F) S256x2048 .f32)), { LA : List (View.Piece (Elt F) S256x2048 .f32) //
      ∀ (xi : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare xi ∗ (∃ d, owns (c : Thread nD τ) arg5 fullShare d)
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LA)) -∗ K ⟨⟩))
          ⊢ wp frame (wpE (defs₀ (F := F)) Variants.none c none) E (cc1__scatter_kernel i arg2 harg2 arg3 harg3 arg4 harg4 arg5 harg5) K } := by
  refine ⟨[], ?_, fun xi E K => ?run⟩
  case run =>
    simp only [cc1__scatter_kernel_eq_skeleton]; unfold cc1__scatter_kernel_skel
    unfold owns
    iintro ⟨⟨%f0, %hf0, H0⟩, ⟨%f1, %hf1, H1⟩, ⟨%f4, %hf4, H4⟩, ⟨%da, %fa, -, HA⟩, Hk⟩
    obtain rfl := harg2.eq_unread hf0; obtain rfl := harg3.eq_unread hf1; obtain rfl := harg4.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    iexists _; iexact HA

end Cert.KernelIdeal.Scatter

end
-- ==== Proof.ScatterPlain.lean ====
/-
  The scatter body's run in the PLAIN case (chunks 1 … 243 of a tile: the accumulator is added to; nothing is stored into the output block): on whole memrefs the body runs to its end, the inputs left as they
  were, and each buffer it stores into left with its stores written, as a list of pieces the run itself finds.
-/
import proofs.«428843_j77163382440036_3_alg».proof.Proof.ScatterBase

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runPlain (c : Dev nD) (i : grid1.Coords) (arg2 : Memref sig .tc .vmem S256x4096 .bf16) (harg2 : arg2.IsWhole) (arg3 : Memref sig .tc .vmem S4096 .i32) (harg3 : arg3.IsWhole) (arg4 : Memref sig .tc .vmem S256x2048 .f32) (harg4 : arg4.IsWhole) (arg5 : Memref sig .tc .vmem S256x2048 .f32) (harg5 : arg5.IsWhole) (hc0 : ¬Clears i) (hc1 : ¬Stores i)
    (x0 : Vec F S256x4096 .bf16) (x1 : Vec F S4096 .i32) (xa : Vec F S256x2048 .f32) :
    Σ' (LO : List (View.Piece (Elt F) S256x2048 .f32)), { LA : List (View.Piece (Elt F) S256x2048 .f32) //
      ∀ (xi : Vec F S256x2048 .f32) (E : Set ℕ) (K : PUnit → sProp 𝕄),
        iprop(owns (c : Thread nD τ) arg2 fullShare x0 ∗ owns (c : Thread nD τ) arg3 fullShare x1 ∗ owns (c : Thread nD τ) arg4 fullShare xi ∗ owns (c : Thread nD τ) arg5 fullShare xa
            ∗ (iprop(owns (c : Thread nD τ) arg2 fullShare x0 ∗ owns (c : Thread nD τ) arg3 fullShare x1 ∗ owns (c : Thread nD τ) arg4 fullShare xi ∗ (∃ f, arg5.view.loc (c : Thread nD τ) ↦[arg5.view.set]{fullShare} arg5.view.writes (Elt F) f LA)) -∗ K ⟨⟩))
          ⊢ wp frame (wpE (defs₀ (F := F)) Variants.none c none) E (cc1__scatter_kernel i arg2 harg2 arg3 harg3 arg4 harg4 arg5 harg5) K } := by
  refine ⟨[], ?_, fun xi E K => ?run⟩
  case run =>
    simp only [cc1__scatter_kernel_eq_skeleton]; unfold cc1__scatter_kernel_skel
    unfold owns
    iintro ⟨⟨%f0, %hf0, H0⟩, ⟨%f1, %hf1, H1⟩, ⟨%f4, %hf4, H4⟩, ⟨%fa, %hfa, HA⟩, Hk⟩
    obtain rfl := harg2.eq_unread hf0; obtain rfl := harg3.eq_unread hf1; obtain rfl := harg4.eq_unread hf4; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    iexists _; iexact HA

end Cert.KernelIdeal.Scatter

end
-- ==== Proof.ScatterStore.lean ====
/-
  The scatter body's run in the STORING case (chunk 244 of a tile: the accumulator is added to and then stored into the output block): on whole memrefs the body runs to its end, the inputs left as they
  were, and each buffer it stores into left with its stores written, as a list of pieces the run itself finds.
-/
import proofs.«428843_j77163382440036_3_alg».proof.Proof.ScatterBase

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def runStore (c : Dev nD) (i : grid1.Coords) (arg2 : Memref sig .tc .vmem S256x4096 .bf16) (harg2 : arg2.IsWhole) (arg3 : Memref sig .tc .vmem S4096 .i32) (harg3 : arg3.IsWhole) (arg4 : Memref sig .tc .vmem S256x2048 .f32) (harg4 : arg4.IsWhole) (arg5 : Memref sig .tc .vmem S256x2048 .f32) (harg5 : arg5.IsWhole) (hc0 : ¬Clears i) (hc1 : Stores i)
    (x0 : Vec F S256x4096 .bf16) (x1 : Vec F S4096 .i32) (xa : Vec F S256x2048 .f32) :
    Σ' (LO : List (View.Piece (Elt F) S256x2048 .f32)), { LA : List (View.Piece (Elt F) S256x2048 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xa
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f LO) ∗ (∃ f, arg5.view.loc (c : Thread nD τ) ↦[arg5.view.set]{fullShare} arg5.view.writes (Elt F) f LA)) -∗ K ⟨⟩))
          ⊢ wp frame (wpE (defs₀ (F := F)) Variants.none c none) E (cc1__scatter_kernel i arg2 harg2 arg3 harg3 arg4 harg4 arg5 harg5) K } := by
  refine ⟨?_, ?_, fun E K => ?run⟩
  case run =>
    simp only [cc1__scatter_kernel_eq_skeleton]; unfold cc1__scatter_kernel_skel
    unfold owns
    iintro ⟨⟨%f0, %hf0, H0⟩, ⟨%f1, %hf1, H1⟩, ⟨%d4, %f4, -, H4⟩, ⟨%fa, %hfa, HA⟩, Hk⟩
    obtain rfl := harg2.eq_unread hf0; obtain rfl := harg3.eq_unread hf1; obtain rfl := harg5.eq_unread hfa
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    iexists _; iexact HA

end Cert.KernelIdeal.Scatter

end
-- ==== Proof.Scatter.lean ====
/-
  The scatter pallas_call, point by point: what the accumulator holds after every point, by recursion on the point
  (`accAt`: cleared and added to at chunk 0, added to at every later chunk of the tile), what the output block holds
  after a storing point (`outAt`), the invariant that carries the accumulator from a point to the next
  (`Inv`), the proof data, and the body obligation — a case split by the two closed forms, each leaf that case's run.
  Stated at a parameter `V`, the unscoped buffers' contents when the region is entered, and at any float instance.
-/
import proofs.«428843_j77163382440036_3_alg».proof.Proof.ScatterClear
import proofs.«428843_j77163382440036_3_alg».proof.Proof.ScatterPlain
import proofs.«428843_j77163382440036_3_alg».proof.Proof.ScatterStore

set_option maxRecDepth 16384

noncomputable section

namespace Cert.KernelIdeal.Scatter

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

section Cases
variable (c : Dev nD) (i : grid1.Coords) (arg2 : Memref sig .tc .vmem S256x4096 .bf16) (harg2 : arg2.IsWhole) (arg3 : Memref sig .tc .vmem S4096 .i32) (harg3 : arg3.IsWhole) (arg4 : Memref sig .tc .vmem S256x2048 .f32) (harg4 : arg4.IsWhole) (arg5 : Memref sig .tc .vmem S256x2048 .f32) (harg5 : arg5.IsWhole)

/-- The clearing case's stores into the accumulator cover it, -/
theorem accClear_cover (hc0 : Clears i) (hc1 : ¬Stores i) (x0 : Vec F S256x4096 .bf16) (x1 : Vec F S4096 .i32) (y : S256x2048.Idx) :
    ∃ pc ∈ (runClear c i arg2 harg2 arg3 harg3 arg4 harg4 arg5 harg5 hc0 hc1 x0 x1).2.1, y ∈ pc.1.set :=
  View.cover_of_tiledL (runClear c i arg2 harg2 arg3 harg3 arg4 harg4 arg5 harg5 hc0 hc1 x0 x1).2.1 S256x2048.size (by sl_kernel_rfl) y
/-- and leave it at: its pieces read back. -/
def accClear (hc0 : Clears i) (hc1 : ¬Stores i) (x0 : Vec F S256x4096 .bf16) (x1 : Vec F S4096 .i32) : Vec F S256x2048 .f32 :=
  accView.read (Elt F) (accView.writes (Elt F) accView.junk (runClear c i arg2 harg2 arg3 harg3 arg4 harg4 arg5 harg5 hc0 hc1 x0 x1).2.1)

theorem accPlain_cover (hc0 : ¬Clears i) (hc1 : ¬Stores i) (x0 : Vec F S256x4096 .bf16) (x1 : Vec F S4096 .i32) (xa : Vec F S256x2048 .f32) (y : S256x2048.Idx) :
    ∃ pc ∈ (runPlain c i arg2 harg2 arg3 harg3 arg4 harg4 arg5 harg5 hc0 hc1 x0 x1 xa).2.1, y ∈ pc.1.set :=
  View.cover_of_tiledL (runPlain c i arg2 harg2 arg3 harg3 arg4 harg4 arg5 harg5 hc0 hc1 x0 x1 xa).2.1 S256x2048.size (by sl_kernel_rfl) y
def accPlain (hc0 : ¬Clears i) (hc1 : ¬Stores i) (x0 : Vec F S256x4096 .bf16) (x1 : Vec F S4096 .i32) (xa : Vec F S256x2048 .f32) : Vec F S256x2048 .f32 :=
  accView.read (Elt F) (accView.writes (Elt F) accView.junk (runPlain c i arg2 harg2 arg3 harg3 arg4 harg4 arg5 harg5 hc0 hc1 x0 x1 xa).2.1)

theorem accStore_cover (hc0 : ¬Clears i) (hc1 : Stores i) (x0 : Vec F S256x4096 .bf16) (x1 : Vec F S4096 .i32) (xa : Vec F S256x2048 .f32) (y : S256x2048.Idx) :
    ∃ pc ∈ (runStore c i arg2 harg2 arg3 harg3 arg4 harg4 arg5 harg5 hc0 hc1 x0 x1 xa).2.1, y ∈ pc.1.set :=
  View.cover_of_tiledL (runStore c i arg2 harg2 arg3 harg3 arg4 harg4 arg5 harg5 hc0 hc1 x0 x1 xa).2.1 S256x2048.size (by sl_kernel_rfl) y
def accStore (hc0 : ¬Clears i) (hc1 : Stores i) (x0 : Vec F S256x4096 .bf16) (x1 : Vec F S4096 .i32) (xa : Vec F S256x2048 .f32) : Vec F S256x2048 .f32 :=
  accView.read (Elt F) (accView.writes (Elt F) accView.junk (runStore c i arg2 harg2 arg3 harg3 arg4 harg4 arg5 harg5 hc0 hc1 x0 x1 xa).2.1)

/-- The storing case's one store into the output block covers it, and leaves it at: -/
theorem outStore_cover (hc0 : ¬Clears i) (hc1 : Stores i) (x0 : Vec F S256x4096 .bf16) (x1 : Vec F S4096 .i32) (xa : Vec F S256x2048 .f32) (y : S256x2048.Idx) :
    ∃ pc ∈ (runStore c i arg2 harg2 arg3 harg3 arg4 harg4 arg5 harg5 hc0 hc1 x0 x1 xa).1, y ∈ pc.1.set :=
  View.cover_of_tiledL (runStore c i arg2 harg2 arg3 harg3 arg4 harg4 arg5 harg5 hc0 hc1 x0 x1 xa).1 S256x2048.size (by sl_kernel_rfl) y
def outStore (hc0 : ¬Clears i) (hc1 : Stores i) (x0 : Vec F S256x4096 .bf16) (x1 : Vec F S4096 .i32) (xa : Vec F S256x2048 .f32) : Vec F S256x2048 .f32 :=
  outView.read (Elt F) (outView.writes (Elt F) outView.junk (runStore c i arg2 harg2 arg3 harg3 arg4 harg4 arg5 harg5 hc0 hc1 x0 x1 xa).1)

end Cases

variable (V : (c : Dev nD) → (b : Ref sig .tc) → Buf (Elt F) ((c : Thread nD τ).loc b))

/-! ## The windows' blocks -/

/-- Window `w`'s block at point `t`, read off its array as the region finds it. -/
def blk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem found0 {c : Dev nD} (dat : Dat τ (Elt F) Unit ℕ (UR sig nD τ) ℕ cfg1 c) (hA : dat.A 0 = V c (Pipeline.arrRef spec1 0))
    (hafter : ∀ t, dat.after 0 t = blk V c 0 t) (t : Fin cfg1.N) (d) : dat.before 0 t d = blk V c 0 t :=
  (dat.before_in_eq_fetched 0 rfl (fun _ => rfl) (fun _ _ _ => rfl) (fun t => by rw [hafter]; unfold Dat.blockOf blk; rw [hA]; try rfl) t d).trans
    (by unfold Dat.fetched Dat.blockOf blk; rw [hA]; try rfl)
theorem found1 {c : Dev nD} (dat : Dat τ (Elt F) Unit ℕ (UR sig nD τ) ℕ cfg1 c) (hA : dat.A 1 = V c (Pipeline.arrRef spec1 1))
    (hafter : ∀ t, dat.after 1 t = blk V c 1 t) (t : Fin cfg1.N) (d) : dat.before 1 t d = blk V c 1 t :=
  (dat.before_in_eq_fetched 1 rfl (fun _ => rfl) (fun _ _ _ => rfl) (fun t => by rw [hafter]; unfold Dat.blockOf blk; rw [hA]; try rfl) t d).trans
    (by unfold Dat.fetched Dat.blockOf blk; rw [hA]; try rfl)

/-! ## The accumulator after each point -/

/-- What the accumulator holds after the body at position `n`: at a tile's chunk 0 the clearing case's contents; at a
    later chunk the plain or the storing case's, over what position `n - 1` left. -/
def accAt (c : Dev nD) : (n : ℕ) → n < cfg1.N → Vec F S256x2048 .f32
  | 0, hn => accClear c (grid1.coords ⟨0, hn⟩) (mVals ⟨0, hn⟩) (hVals ⟨0, hn⟩) (mIdx ⟨0, hn⟩) (hIdx ⟨0, hn⟩) (mOut ⟨0, hn⟩) (hOut ⟨0, hn⟩) mAcc (Memref.isWhole_whole _) ((clears_iff ⟨0, hn⟩).mpr (Nat.zero_mod _)) (fun h => (fun h => by (try dsimp only at h); omega) ((stores_iff ⟨0, hn⟩).mp h)) (blk V c 0 ⟨0, hn⟩) (blk V c 1 ⟨0, hn⟩)
  | n + 1, hn =>
    if h0 : (n + 1) % 245 = 0 then
      accClear c (grid1.coords ⟨n + 1, hn⟩) (mVals ⟨n + 1, hn⟩) (hVals ⟨n + 1, hn⟩) (mIdx ⟨n + 1, hn⟩) (hIdx ⟨n + 1, hn⟩) (mOut ⟨n + 1, hn⟩) (hOut ⟨n + 1, hn⟩) mAcc (Memref.isWhole_whole _) ((clears_iff ⟨n + 1, hn⟩).mpr h0) (fun h => (fun h => by (try dsimp only at h); omega) ((stores_iff ⟨n + 1, hn⟩).mp h)) (blk V c 0 ⟨n + 1, hn⟩) (blk V c 1 ⟨n + 1, hn⟩)
    else if h1 : (n + 1) % 245 = 244 then
      accStore c (grid1.coords ⟨n + 1, hn⟩) (mVals ⟨n + 1, hn⟩) (hVals ⟨n + 1, hn⟩) (mIdx ⟨n + 1, hn⟩) (hIdx ⟨n + 1, hn⟩) (mOut ⟨n + 1, hn⟩) (hOut ⟨n + 1, hn⟩) mAcc (Memref.isWhole_whole _) (fun h => h0 ((clears_iff ⟨n + 1, hn⟩).mp h)) ((stores_iff ⟨n + 1, hn⟩).mpr h1) (blk V c 0 ⟨n + 1, hn⟩) (blk V c 1 ⟨n + 1, hn⟩) (accAt c n (Nat.lt_of_succ_lt hn))
    else
      accPlain c (grid1.coords ⟨n + 1, hn⟩) (mVals ⟨n + 1, hn⟩) (hVals ⟨n + 1, hn⟩) (mIdx ⟨n + 1, hn⟩) (hIdx ⟨n + 1, hn⟩) (mOut ⟨n + 1, hn⟩) (hOut ⟨n + 1, hn⟩) mAcc (Memref.isWhole_whole _) (fun h => h0 ((clears_iff ⟨n + 1, hn⟩).mp h)) (fun h => h1 ((stores_iff ⟨n + 1, hn⟩).mp h)) (blk V c 0 ⟨n + 1, hn⟩) (blk V c 1 ⟨n + 1, hn⟩) (accAt c n (Nat.lt_of_succ_lt hn))

theorem accAt_clear (c : Dev nD) (t : Fin cfg1.N) (h0 : t.val % 245 = 0) :
    accAt V c t.val t.isLt = accClear c (grid1.coords t) (mVals t) (hVals t) (mIdx t) (hIdx t) (mOut t) (hOut t) mAcc (Memref.isWhole_whole _) ((clears_iff t).mpr h0) (fun h => (fun h => by omega) ((stores_iff t).mp h)) (blk V c 0 t) (blk V c 1 t) := by
  obtain ⟨n, hn⟩ := t
  cases n with
  | zero => exact rfl
  | succ n => exact (dif_pos h0).trans rfl

theorem accAt_plain (c : Dev nD) (t : Fin cfg1.N) (h0 : ¬t.val % 245 = 0) (h1 : ¬t.val % 245 = 244) :
    accAt V c t.val t.isLt = accPlain c (grid1.coords t) (mVals t) (hVals t) (mIdx t) (hIdx t) (mOut t) (hOut t) mAcc (Memref.isWhole_whole _) (fun h => h0 ((clears_iff t).mp h)) (fun h => h1 ((stores_iff t).mp h)) (blk V c 0 t) (blk V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem accAt_store (c : Dev nD) (t : Fin cfg1.N) (h0 : ¬t.val % 245 = 0) (h1 : t.val % 245 = 244) :
    accAt V c t.val t.isLt = accStore c (grid1.coords t) (mVals t) (hVals t) (mIdx t) (hIdx t) (mOut t) (hOut t) mAcc (Memref.isWhole_whole _) (fun h => h0 ((clears_iff t).mp h)) ((stores_iff t).mpr h1) (blk V c 0 t) (blk V c 1 t) (accAt V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- What the output window's staging buffer holds after a storing point (at the other points the window is idle and
    this is not consulted: there it is the accumulator, for definiteness). -/
def outAt (c : Dev nD) (t : Fin cfg1.N) : Vec F S256x2048 .f32 :=
  if h1 : t.val % 245 = 244 then
    outStore c (grid1.coords t) (mVals t) (hVals t) (mIdx t) (hIdx t) (mOut t) (hOut t) mAcc (Memref.isWhole_whole _) (fun h => (fun h => by omega) ((clears_iff t).mp h)) ((stores_iff t).mpr h1) (blk V c 0 t) (blk V c 1 t) (accAt V c (t.val - 1) (Nat.lt_of_le_of_lt (Nat.sub_le _ _) t.isLt))
  else accAt V c t.val t.isLt

theorem outAt_store (c : Dev nD) (t : Fin cfg1.N) (h0 : ¬t.val % 245 = 0) (h1 : t.val % 245 = 244) :
    outAt V c t = outStore c (grid1.coords t) (mVals t) (hVals t) (mIdx t) (hIdx t) (mOut t) (hOut t) mAcc (Memref.isWhole_whole _) (fun h => h0 ((clears_iff t).mp h)) ((stores_iff t).mpr h1) (blk V c 0 t) (blk V c 1 t) (accAt V c (t.val - 1) (Nat.lt_of_le_of_lt (Nat.sub_le _ _) t.isLt)) := by
  unfold outAt; exact (dif_pos h1).trans rfl

/-! ## The invariant -/

/-- What rides beside the accumulator in the region's invariant: the seven scoped buffers of the other pipeline, each
    whole at some contents, and the generator register at some state. -/
def beside (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ r, prngReg c r))

/-- The class invariant is the accumulator owned at some contents, and the rest; both ways. -/
theorem PhiA_open (c : Dev nD) :
    (Pipeline.ΦA spec1 c : sProp 𝕄) ⊢ iprop((∃ d, owns (c : Thread nD τ) mAcc fullShare d) ∗ beside c) := by
  rw [PhiA_eq]; unfold beside
  iintro ⟨⟨R1, R2, R3, R4, R5, R6, R7, HA⟩, Hg⟩
  isplitl [HA]; · iexact HA
  isplitl [R1]; · iexact R1
  isplitl [R2]; · iexact R2
  isplitl [R3]; · iexact R3
  isplitl [R4]; · iexact R4
  isplitl [R5]; · iexact R5
  isplitl [R6]; · iexact R6
  isplitl [R7]; · iexact R7
  iexact Hg
theorem PhiA_close (c : Dev nD) :
    iprop((∃ d, owns (c : Thread nD τ) mAcc fullShare d) ∗ beside c) ⊢ (Pipeline.ΦA spec1 c : sProp 𝕄) := by
  rw [PhiA_eq]; unfold beside
  iintro ⟨HA, R1, R2, R3, R4, R5, R6, R7, Hg⟩
  isplitr [Hg]
  · isplitl [R1]; · iexact R1
    isplitl [R2]; · iexact R2
    isplitl [R3]; · iexact R3
    isplitl [R4]; · iexact R4
    isplitl [R5]; · iexact R5
    isplitl [R6]; · iexact R6
    isplitl [R7]; · iexact R7
    iexact HA
  iexact Hg

/-- The region's invariant before position `n`: before the first point the class's (the accumulator at anything);
    afterwards the accumulator at what the point before left. -/
def Inv (c : Dev nD) : (n : ℕ) → n ≤ cfg1.N → sProp 𝕄
  | 0, _ => Pipeline.ΦA spec1 c
  | n + 1, hn => iprop(owns (c : Thread nD τ) mAcc fullShare (accAt V c n hn) ∗ beside c)

theorem Inv_zero (c : Dev nD) (n : ℕ) (h : n ≤ cfg1.N) (hz : n = 0) : Inv V c n h = Pipeline.ΦA spec1 c := by
  subst hz; rfl
theorem Inv_succ (c : Dev nD) (n : ℕ) (hn : n < cfg1.N) :
    Inv V c (n + 1) hn = iprop(owns (c : Thread nD τ) mAcc fullShare (accAt V c n hn) ∗ beside c) := rfl
theorem Inv_pos (c : Dev nD) (n : ℕ) (h : n ≤ cfg1.N) (hz : n ≠ 0) :
    Inv V c n h = iprop(owns (c : Thread nD τ) mAcc fullShare (accAt V c (n - 1) (by omega)) ∗ beside c) := by
  cases n with
  | zero => exact absurd rfl hz
  | succ n => rfl

/-- Whatever the position, the invariant yields the accumulator at some contents beside the rest. -/
theorem Inv_open (c : Dev nD) (n : ℕ) (h : n ≤ cfg1.N) :
    Inv V c n h ⊢ iprop((∃ d, owns (c : Thread nD τ) mAcc fullShare d) ∗ beside c) := by
  cases n with
  | zero => exact PhiA_open c
  | succ n =>
    rw [Inv_succ]
    iintro ⟨HA, Hr⟩
    isplitl [HA]; · iexists _; iexact HA
    iexact Hr

/-! ## The pipeline's proof data -/

def dat (c : Dev nD) : Dat τ (Elt F) Unit ℕ (UR sig nD τ) ℕ cfg1 c where
  A w := V c (Pipeline.arrRef spec1 w)
  after w t := match w with
    | ⟨0, _⟩ => blk V c 0 t
    | ⟨1, _⟩ => blk V c 1 t
    | ⟨2, _⟩ => outAt V c t
  Φ t := Inv V c t.val (Nat.le_of_lt_succ t.isLt)
  q _ := fullShare
  owed _ := 0

theorem A_eq (c : Dev nD) (w : Fin cfg1.W) : (dat V c).A w = V c (Pipeline.arrRef spec1 w) := by
  dsimp only [dat]
theorem Inv_castSucc (c : Dev nD) (t : Fin cfg1.N) :
    (dat V c).Φ t.castSucc = Inv V c t.val (Nat.le_of_lt t.isLt) := by
  dsimp only [dat]; simp only [Fin.coe_castSucc]
theorem after0 (c : Dev nD) (t : Fin cfg1.N) : (dat V c).after 0 t = blk V c 0 t := by dsimp only [dat]
theorem after1 (c : Dev nD) (t : Fin cfg1.N) : (dat V c).after 1 t = blk V c 1 t := by dsimp only [dat]
/-- What a storing point leaves in the output's staging buffer, and so writes back. -/
theorem after2 (c : Dev nD) (t : Fin cfg1.N) : (dat V c).after 2 t = outAt V c t := by dsimp only [dat]
theorem before0 (c : Dev nD) (t : Fin cfg1.N) (d) : (dat V c).before 0 t d = blk V c 0 t :=
  found0 V (dat V c) (A_eq V c 0) (after0 V c) t d
theorem before1 (c : Dev nD) (t : Fin cfg1.N) (d) : (dat V c).before 1 t d = blk V c 1 t :=
  found1 V (dat V c) (A_eq V c 1) (after1 V c) t d

/-! ## The body obligation -/

/-- What the body is called with at point `t`, the windows one by one, -/
def bodyPre (c : Dev nD) (t : Fin cfg1.N) : sProp 𝕄 :=
  iprop((dat V c).Φ t.castSucc ∗ (dat V c).owesAt () t.castSucc
    ∗ (∃ d, owns (c : Thread nD τ) (mVals t) fullShare ((dat V c).before 0 t d))
    ∗ (∃ d, owns (c : Thread nD τ) (mIdx t) fullShare ((dat V c).before 1 t d))
    ∗ (∃ d, owns (c : Thread nD τ) (mOut t) fullShare ((dat V c).before 2 t d)))

/-- and what it returns. -/
def bodyPost (c : Dev nD) (t : Fin cfg1.N) : sProp 𝕄 :=
  iprop((dat V c).Φ t.succ ∗ (dat V c).owesAt () t.succ
    ∗ (dat V c).leavesExact 0 t
    ∗ (dat V c).leavesExact 1 t
    ∗ (dat V c).leavesExact 2 t)

set_option maxHeartbeats 4800000 in
/-- The body at any point. The inputs' memrefs hold their blocks; the closed forms say which case the point is in; the
    invariant hands the body the accumulator — at anything where it is cleared first, at what the point before left
    otherwise — and takes it back at this point's contents; at a point that does not store, the output's buffer is
    handed back as it was found. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0, before1]
  rw [show (dat V c).owesAt () t.succ = (dat V c).owesAt () t.castSucc from rfl]
  rw [show (dat V c).Φ t.succ = Inv V c (t.val + 1) t.isLt from rfl, Inv_succ]
  rw [show (dat V c).leavesExact 0 t = owns (c : Thread nD τ) (mVals t) fullShare ((dat V c).after 0 t) from by
    unfold Dat.leavesExact; rw [live0 t], after0]
  rw [show (dat V c).leavesExact 1 t = owns (c : Thread nD τ) (mIdx t) fullShare ((dat V c).after 1 t) from by
    unfold Dat.leavesExact; rw [live1 t], after1]
  have hN : t.val < 1960 := lt_of_lt_of_eq t.isLt (show cfg1.N = 1960 from N_1)
  by_cases h0 : t.val % 245 = 0
  · have hns : ¬Stores (grid1.coords t) := fun h => by have := (stores_iff t).mp h; omega
    rw [Dat.leavesExact_idle (dat V c) 2 t (idle2 t hns) (noFlush2 t hns)]
    rw [accAt_clear V c t h0]
    unfold accClear; (try dsimp only)
    rw [Inv_castSucc V c t]
    iintro ⟨Hinv, Ho, ⟨%d0, H0⟩, ⟨%d1, H1⟩, ⟨%d2, H2⟩⟩
    ihave Hopen := (Inv_open V c t.val (Nat.le_of_lt t.isLt)) $$ Hinv
    icases Hopen with ⟨HA, Hr⟩
    iapply ((runClear c (grid1.coords t) _ _ _ _ _ _ _ _ ((clears_iff t).mpr h0) hns (blk V c 0 t) (blk V c 1 t)).2.2 _ Set.univ _)
    isplitl [H0]; · iexact H0
    isplitl [H1]; · iexact H1
    isplitl [H2]; · iexact H2
    isplitl [HA]; · iexact HA
    iintro ⟨H0, H1, H2, ⟨%ea, HA⟩⟩
    isplitl [HA Hr]
    · isplitl [HA]
      · unfold owns; iexists _; isplitr
        swap; · iexact HA
        ipureintro; exact View.read_writes_of_cover _ _ _ _ _ (accClear_cover c _ _ _ _ _ _ _ _ _ _ _ _ _)
      iexact Hr
    isplitl [Ho]; · iexact Ho
    isplitl [H0]; · iexact H0
    isplitl [H1]; · iexact H1
    iexists _; iexact H2
  · have hz : t.val ≠ 0 := fun e => h0 (by rw [e])
    by_cases h1 : t.val % 245 = 244
    · rw [show (dat V c).leavesExact 2 t = owns (c : Thread nD τ) (mOut t) fullShare ((dat V c).after 2 t) from by
        unfold Dat.leavesExact; rw [live2 t ((stores_iff t).mpr h1)], after2]
      rw [accAt_store V c t h0 h1, outAt_store V c t h0 h1]
      unfold accStore outStore; (try dsimp only)
      rw [Inv_castSucc V c t, Inv_pos V c _ _ hz]
      iintro ⟨⟨HA, Hr⟩, Ho, ⟨%d0, H0⟩, ⟨%d1, H1⟩, ⟨%d2, H2⟩⟩
      iapply ((runStore c (grid1.coords t) _ _ _ _ _ _ _ _ (fun h => h0 ((clears_iff t).mp h)) ((stores_iff t).mpr h1) (blk V c 0 t) (blk V c 1 t) _).2.2 Set.univ _)
      isplitl [H0]; · iexact H0
      isplitl [H1]; · iexact H1
      isplitl [H2]; · iexists _; iexact H2
      isplitl [HA]; · iexact HA
      iintro ⟨H0, H1, ⟨%e2, H2⟩, ⟨%ea, HA⟩⟩
      isplitl [HA Hr]
      · isplitl [HA]
        · unfold owns; iexists _; isplitr
          swap; · iexact HA
          ipureintro; exact View.read_writes_of_cover _ _ _ _ _ (accStore_cover c _ _ _ _ _ _ _ _ _ _ _ _ _ _)
        iexact Hr
      isplitl [Ho]; · iexact Ho
      isplitl [H0]; · iexact H0
      isplitl [H1]; · iexact H1
      unfold owns; iexists _; isplitr
      swap; · iexact H2
      ipureintro; exact View.read_writes_of_cover _ _ _ _ _ (outStore_cover c _ _ _ _ _ _ _ _ _ _ _ _ _ _)
    · have hns : ¬Stores (grid1.coords t) := fun h => h1 ((stores_iff t).mp h)
      rw [Dat.leavesExact_idle (dat V c) 2 t (idle2 t hns) (noFlush2 t hns)]
      rw [accAt_plain V c t h0 h1]
      unfold accPlain; (try dsimp only)
      rw [Inv_castSucc V c t, Inv_pos V c _ _ hz]
      iintro ⟨⟨HA, Hr⟩, Ho, ⟨%d0, H0⟩, ⟨%d1, H1⟩, ⟨%d2, H2⟩⟩
      iapply ((runPlain c (grid1.coords t) _ _ _ _ _ _ _ _ (fun h => h0 ((clears_iff t).mp h)) hns (blk V c 0 t) (blk V c 1 t) _).2.2 _ Set.univ _)
      isplitl [H0]; · iexact H0
      isplitl [H1]; · iexact H1
      isplitl [H2]; · iexact H2
      isplitl [HA]; · iexact HA
      iintro ⟨H0, H1, H2, ⟨%ea, HA⟩⟩
      isplitl [HA Hr]
      · isplitl [HA]
        · unfold owns; iexists _; isplitr
          swap; · iexact HA
          ipureintro; exact View.read_writes_of_cover _ _ _ _ _ (accPlain_cover c _ _ _ _ _ _ _ _ _ _ _ _ _ _)
        iexact Hr
      isplitl [Ho]; · iexact Ho
      isplitl [H0]; · iexact H0
      isplitl [H1]; · iexact H1
      iexists _; iexact H2

/-- The library's body obligation, at every point. -/
theorem body_obligation (c : Dev nD) : BodyObligation (dat (F := F) V c) (defs₀ (F := F)) Variants.none () Set.univ := fun t => by
  rw [bigSep_W1, bigSep_W1]
  exact sound_body V c t

/-! ## The invariant's two ends -/

/-- What the launch hands the region is the invariant before the first point. -/
theorem inv_first (c : Dev nD) : Pipeline.ΦA spec1 c ⊢ (dat V c).Φ 0 := by
  rw [show (dat V c).Φ 0 = Inv V c 0 (Nat.zero_le _) from rfl, Inv_zero V c 0 _ rfl]
  try exact Idealize.SL.BI.Entails.refl _

/-- After the last point the invariant gives the class's back: the accumulator's contents are forgotten. -/
theorem inv_last (c : Dev nD) : (dat V c).Φ (Fin.last cfg1.N) ⊢ Pipeline.ΦA spec1 c := by
  rw [show (dat V c).Φ (Fin.last cfg1.N) = Inv V c (Fin.last cfg1.N).val (Nat.le_of_lt_succ (Fin.last cfg1.N).isLt) from rfl]
  exact (Inv_open V c _ _).trans (PhiA_close c)

end Cert.KernelIdeal.Scatter

end
-- ==== Proof.Whole.lean ====
/-
  The whole run of @main: eight stretches of host operations (a reshape, the four paddings, a change of format), the
  gather pallas_call, the scatter pallas_call, and the closing reshape. Between two items the core's unscoped
  buffers are held at a valuation: the launch contents folded through the stretches (the generated `Gen.V0 … Gen.V8`),
  then with the gather's arrays at what its write-backs leave (`Wg`), then with the scatter's (`Ws`), then after
  the closing reshape (`Wend`). Each region enters the pipeline library through a segment record over these
  valuations, and one launch over the eleven segments gives: every weakly fair execution ends, nothing faulting,
  with every unscoped buffer at `Wend`. Stated at any float instance.
-/
import proofs.«428843_j77163382440036_3_alg».proof.Proof.Gather
import proofs.«428843_j77163382440036_3_alg».proof.Proof.Scatter
import proofs.«428843_j77163382440036_3_alg».proof.Proof.Gen.KernelIdeal.Regions

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the regions' boundaries -/

/-- The gather's entry contents, read at the TensorCore's references. -/
abbrev Vin : (c : Dev nD) → (b : Ref sig .tc) → Buf (Elt F) ((c : Thread nD τ).loc b) := fun c b => V8 m c b
/-- At the gather's exit: its arrays at what the pipeline leaves, every other buffer as entered. -/
def Wg (c : Dev nD) : Valuation τ sig (Elt F) :=
  Pipeline.withArrays spec0 c (V8 m c) fun w => (Gather.dat (Vin m) c).arrAt w cfg0.N
theorem Wg_arr (c : Dev nD) (w : Fin cfg0.W) :
    Wg m c (Proc.devRef .tc (Pipeline.arrRef spec0 w)) = (Gather.dat (Vin m) c).arrAt w cfg0.N := by
  unfold Wg; exact Pipeline.withArrays_arr spec0 launch0.win.arr_inj c _ _ w
theorem Wg_of_ne (c : Dev nD) (b : Ref sig .tc) (hb : ∀ w, Pipeline.arrRef spec0 w ≠ b) :
    Wg m c (Proc.devRef .tc b) = V8 m c (Proc.devRef .tc b) := by
  unfold Wg; exact Pipeline.withArrays_of_ne spec0 c _ _ b hb
/-- The scatter's entry contents (no host operation stands between the two regions). -/
abbrev Vg : (c : Dev nD) → (b : Ref sig .tc) → Buf (Elt F) ((c : Thread nD τ).loc b) := fun c b => Wg m c b
theorem hF0 (c : Dev nD) (w : Fin cfg0.W) : (Gather.dat (Vin m) c).arrAt w cfg0.N = Vg m c (Pipeline.arrRef spec0 w) :=
  (Wg_arr m c w).symm
theorem hrest0 (c : Dev nD) : ∀ b, b ∉ Finset.univ.image (Pipeline.arrRef spec0) → Vg m c b = Vin m c b :=
  fun b hb => Wg_of_ne m c b fun w e => hb (Finset.mem_image.mpr ⟨w, Finset.mem_univ _, e⟩)

/-- At the scatter's exit. -/
def Ws (c : Dev nD) : Valuation τ sig (Elt F) :=
  Pipeline.withArrays spec1 c (Wg m c) fun w => (Scatter.dat (Vg m) c).arrAt w cfg1.N
theorem Ws_arr (c : Dev nD) (w : Fin cfg1.W) :
    Ws m c (Proc.devRef .tc (Pipeline.arrRef spec1 w)) = (Scatter.dat (Vg m) c).arrAt w cfg1.N := by
  unfold Ws; exact Pipeline.withArrays_arr spec1 launch1.win.arr_inj c _ _ w
theorem Ws_of_ne (c : Dev nD) (b : Ref sig .tc) (hb : ∀ w, Pipeline.arrRef spec1 w ≠ b) :
    Ws m c (Proc.devRef .tc b) = Wg m c (Proc.devRef .tc b) := by
  unfold Ws; exact Pipeline.withArrays_of_ne spec1 c _ _ b hb
abbrev Vs : (c : Dev nD) → (b : Ref sig .tc) → Buf (Elt F) ((c : Thread nD τ).loc b) := fun c b => Ws m c b
theorem hF1 (c : Dev nD) (w : Fin cfg1.W) : (Scatter.dat (Vg m) c).arrAt w cfg1.N = Vs m c (Pipeline.arrRef spec1 w) :=
  (Ws_arr m c w).symm
theorem hrest1 (c : Dev nD) : ∀ b, b ∉ Finset.univ.image (Pipeline.arrRef spec1) → Vs m c b = Vg m c b :=
  fun b hb => Ws_of_ne m c b fun w e => hb (Finset.mem_image.mpr ⟨w, Finset.mem_univ _, e⟩)

/-- After the closing reshape. -/
abbrev Wend (c : Dev nD) : Valuation τ sig (Elt F) := StableHlo.after hostOps2 (Ws m c)
theorem Wend_of (c : Dev nD) (r : Ref sig .tc) (h : r ∉ hostOps2_W) : Wend m c r = Ws m c r :=
  StableHlo.after_of_writes_sub hostOps2 _ hostOps2_writes h

/-- `main_arg0` reaches the end as launched: no host stretch writes it and no region stages it as an output. -/
theorem Wend_main_arg0 (c : Dev nD) : Wend m c (Proc.devRef .tc main_arg0) = m ((c : Thread nD τ).loc main_arg0) :=
  (Wend_of m c main_arg0 (by decide)).trans <| (Ws_of_ne m c main_arg0 (by decide)).trans <| (Wg_of_ne m c main_arg0 (by decide)).trans <|
    (V8_of m c main_arg0 (by decide)).trans <| (V7_of m c main_arg0 (by decide)).trans <| (V6_of m c main_arg0 (by decide)).trans <|
    (V5_of m c main_arg0 (by decide)).trans <| (V4_of m c main_arg0 (by decide)).trans <| (V3_of m c main_arg0 (by decide)).trans <|
    (V2_of m c main_arg0 (by decide)).trans <| (V1_of m c main_arg0 (by decide)).trans rfl
/-- `main_arg1` reaches the end as launched: no host stretch writes it and no region stages it as an output. -/
theorem Wend_main_arg1 (c : Dev nD) : Wend m c (Proc.devRef .tc main_arg1) = m ((c : Thread nD τ).loc main_arg1) :=
  (Wend_of m c main_arg1 (by decide)).trans <| (Ws_of_ne m c main_arg1 (by decide)).trans <| (Wg_of_ne m c main_arg1 (by decide)).trans <|
    (V8_of m c main_arg1 (by decide)).trans <| (V7_of m c main_arg1 (by decide)).trans <| (V6_of m c main_arg1 (by decide)).trans <|
    (V5_of m c main_arg1 (by decide)).trans <| (V4_of m c main_arg1 (by decide)).trans <| (V3_of m c main_arg1 (by decide)).trans <|
    (V2_of m c main_arg1 (by decide)).trans <| (V1_of m c main_arg1 (by decide)).trans rfl
/-- `main_arg2` reaches the end as launched: no host stretch writes it and no region stages it as an output. -/
theorem Wend_main_arg2 (c : Dev nD) : Wend m c (Proc.devRef .tc main_arg2) = m ((c : Thread nD τ).loc main_arg2) :=
  (Wend_of m c main_arg2 (by decide)).trans <| (Ws_of_ne m c main_arg2 (by decide)).trans <| (Wg_of_ne m c main_arg2 (by decide)).trans <|
    (V8_of m c main_arg2 (by decide)).trans <| (V7_of m c main_arg2 (by decide)).trans <| (V6_of m c main_arg2 (by decide)).trans <|
    (V5_of m c main_arg2 (by decide)).trans <| (V4_of m c main_arg2 (by decide)).trans <| (V3_of m c main_arg2 (by decide)).trans <|
    (V2_of m c main_arg2 (by decide)).trans <| (V1_of m c main_arg2 (by decide)).trans rfl
/-- `main_arg3` reaches the end as launched: no host stretch writes it and no region stages it as an output. -/
theorem Wend_main_arg3 (c : Dev nD) : Wend m c (Proc.devRef .tc main_arg3) = m ((c : Thread nD τ).loc main_arg3) :=
  (Wend_of m c main_arg3 (by decide)).trans <| (Ws_of_ne m c main_arg3 (by decide)).trans <| (Wg_of_ne m c main_arg3 (by decide)).trans <|
    (V8_of m c main_arg3 (by decide)).trans <| (V7_of m c main_arg3 (by decide)).trans <| (V6_of m c main_arg3 (by decide)).trans <|
    (V5_of m c main_arg3 (by decide)).trans <| (V4_of m c main_arg3 (by decide)).trans <| (V3_of m c main_arg3 (by decide)).trans <|
    (V2_of m c main_arg3 (by decide)).trans <| (V1_of m c main_arg3 (by decide)).trans rfl

/-! ## The proof data family and the thread state -/

/-- Both pipelines' proof data, each at its region's entry contents. -/
def pdats : (p : Fin 2) → (c : Dev nD) → Dat τ (Elt F) Unit ℕ (UR sig nD τ) ℕ (Pipeline.pin (pcfgs (F := F)) adm p) c
  | ⟨0, _⟩ => fun c => Gather.dat (Vin m) c
  | ⟨1, _⟩ => fun c => Scatter.dat (Vg m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ => R
/-- The last thread state without what is owed. -/
abbrev Tₙ (c : Dev nD) : sProp 𝕄 := StableHlo.held (c : Thread nD τ) (Pipeline.ucRefs τ sig) (Wend m c)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The regions as segments -/

-- the library's lemmas are stated over the pinned configuration; unifying with it unfolds plain definitions in a metavariable's type
set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Gather.body_obligation (Vin m) c).loose
  hwaits := Pipeline.hwaits_of_owed_zero _ _ _ _ L lv 0 fun _ _ => rfl
  pre c := iprop(StableHlo.held (c : Thread nD τ) (Pipeline.ucRefs τ sig) (V8 m c) ∗ R c)
  post c := iprop(StableHlo.held (c : Thread nD τ) (Pipeline.ucRefs τ sig) (Wg m c) ∗ R c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec0 c : sProp 𝕄) ⊢ (pdats m 0 c).Φ 0 from .rfl)
    unfold Pipeline.ΦA
    iintro ⟨Hp, -, Hr⟩
    isplitl [Hr]; · iexact Hr
    iexact Hp
  hout c := by
    rw [Pipeline.ownSems0_none]
    refine BIBase.Entails.trans (show (pdats m 0 c).Φ (Fin.last _) ⊢ (Pipeline.ΦA spec0 c : sProp 𝕄) from .rfl) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin m c) (Vg m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the library's lemmas are stated over the pinned configuration; unifying with it unfolds plain definitions in a metavariable's type
set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Scatter.body_obligation (Vg m) c).loose
  hwaits := Pipeline.hwaits_of_owed_zero _ _ _ _ L lv 1 fun _ _ => rfl
  pre c := iprop(StableHlo.held (c : Thread nD τ) (Pipeline.ucRefs τ sig) (Wg m c) ∗ R c)
  post c := iprop(StableHlo.held (c : Thread nD τ) (Pipeline.ucRefs τ sig) (Ws m c) ∗ R c)
  X c := iprop(∃ r, prngReg c r)
  Y c := iprop(∃ r, prngReg c r)
  Z c := Pipeline.unscopedRest (Ix := Unit) (Name := ℕ) (U := UR sig nD τ) (Lvl := ℕ) spec1 c (Vg m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vg m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine BIBase.Entails.trans ?_ (show (Pipeline.ΦA spec1 c : sProp 𝕄) ⊢ (pdats m 1 c).Φ 0 from Scatter.inv_first (Vg m) c)
    unfold Pipeline.ΦA
    iintro ⟨Hp, -, Hr⟩
    isplitl [Hr]; · iexact Hr
    iexact Hp
  hout c := by
    rw [Pipeline.ownSems0_none]
    refine BIBase.Entails.trans (show (pdats m 1 c).Φ (Fin.last _) ⊢ (Pipeline.ΦA spec1 c : sProp 𝕄) from Scatter.inv_last (Vg m) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vg m c) (Vs m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The closing reshape as a segment, from the scatter's exit contents. -/
abbrev segLast : Pipeline.HostSeg (Name := ℕ) (U := UR sig nD τ) (pcfgs (F := F)) defs₀ 𝒱₀ L lv :=
  Pipeline.HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (Ws m) R

/-! ## @main as segments, and the launch -/

abbrev segs : List (Pipeline.Seg (pcfgs (F := F)) adm (pdats m) () defs₀ 𝒱₀ L lv) :=
  [ .host (seg0 m 𝒱₀ L lv E), .host (seg1 m 𝒱₀ L lv E), .host (seg2 m 𝒱₀ L lv E), .host (seg3 m 𝒱₀ L lv E),
    .host (seg4 m 𝒱₀ L lv E), .host (seg5 m 𝒱₀ L lv E), .host (seg6 m 𝒱₀ L lv E), .host (seg7 m 𝒱₀ L lv E),
    .region (reg0 m), .region (reg1 m), .host (segLast m) ]

theorem main_run (c : Dev nD) : main (F := F) c = Pipeline.Seg.run (segs m) := (main_chain c).trans (by chain_rfl)

set_option backward.isDefEq.respectTransparency.types false in
/-- From any memory with zero counters, every weakly fair execution of @main on the TensorCores terminates, nothing
    faulting, and every final state holds each unscoped buffer at `Wend`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = Wend m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl,
      fun _ => .rfl, fun _ => .rfl, fun _ => .rfl, fun c => sep_mono .rfl (by iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wend m c b)
    (hfin := fun c s' => by
      show iprop(StableHlo.held (c : Thread nD τ) (Pipeline.ucRefs τ sig) (Wend m c) ∗ SI s') ⊢ _
      unfold StableHlo.held
      iintro ⟨Hh, HSI⟩
      imodintro
      iapply (pointsTo_read_all (Pipeline.ucRefs τ sig) (fun b => (((c : Thread nD τ)).1, b)) (Wend m c) s')
      isplitl [Hh] <;> iassumption)
    (hQ := fun s h => h)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (Wend_main_arg0 m c),
     (h c _ (mem_uc main_arg1 (by decide))).trans (Wend_main_arg1 m c),
     (h c _ (mem_uc main_arg2 (by decide))).trans (Wend_main_arg2 m c),
     (h c _ (mem_uc main_arg3 (by decide))).trans (Wend_main_arg3 m c)⟩) (run_all m ρ)

end Cert.KernelIdeal.Whole

end
-- ==== Proof.Spec.lean ====
/-
  The function both programs compute, on the extended reals, index by index.

  A vote `v` (one of 1,000,000) names a pixel `ht_index[v]` of the 183 × 60 HT plane, a pixel `im_index[v]` of the
  128 × 128 image plane and a weight. The result at channel `(b, c)` and image pixel `(y, z)` is the sum, over the
  votes whose image index WORD is the pixel number `128·y + z`, of `x[b, c, h / 60, h mod 60] · weight[v]`, where
  `h` is the vote's HT pixel number. A vote whose image index word is no pixel number (negative, or 16384 and more)
  is counted by neither program and appears in no sum here. The HT pixel number is read off the index word capped at
  the last pixel: under the range condition on `ht_index` (every word's value below 10980) that is the word's value,
  and outside it nothing is claimed.
-/
import Idealize.ShloMosaic.PureOps.Ideal
import Idealize.ShloMosaic.Lib.ValueIdx

noncomputable section

namespace Cert.Ht2Im

open Idealize.ShloMosaic Idealize.ShloMosaic.ValueIdx

/-- The HT planes, the votes, the image planes: the literal shapes of the two programs' arguments and result. -/
abbrev SX : Shape := ⟨4, ![4, 64, 183, 60]⟩
abbrev SV : Shape := ⟨1, ![1000000]⟩
abbrev SO : Shape := ⟨4, ![4, 64, 128, 128]⟩

/-- The range condition on the HT index words: each, read as an unsigned number, is below 10980 (so its sign bit is
    clear and the signed reading is the same number, between 0 and 10979). -/
def HtInRange (ht : SV.Idx → BitVec 32) : Prop := ∀ v : Fin 1000000, (ht (ix1 v)).toNat < 10980

/-- A vote's HT pixel number, below 10980: the index word's value, capped at the last pixel. -/
def htPix (ht : SV.Idx → BitVec 32) (v : Fin 1000000) : Fin 10980 := ⟨min (ht (ix1 v)).toNat 10979, by omega⟩

theorem htPix_val {ht : SV.Idx → BitVec 32} (h : HtInRange ht) (v : Fin 1000000) : (htPix ht v).val = (ht (ix1 v)).toNat := by
  have := h v; simp only [htPix]; omega

/-- The HT planes read at a channel and a pixel NUMBER `h` (row `h / 60`, column `h mod 60`). -/
def xAt (x : SX.Idx → EReal) (b : Fin 4) (c : Fin 64) (h : Fin 10980) : EReal :=
  x (ix4 b c (⟨h.val / 60, by omega⟩ : Fin 183) (⟨h.val % 60, by omega⟩ : Fin 60))

/-- The votes of image pixel number `p`, summed at channel `(b, c)`. -/
def votes (x : SX.Idx → EReal) (ht im : SV.Idx → BitVec 32) (w : SV.Idx → EReal) (b : Fin 4) (c : Fin 64) (p : Fin 16384) : EReal :=
  ∑ v : Fin 1000000, if im (ix1 v) = BitVec.ofNat 32 p.val then xAt x b c (htPix ht v) * w (ix1 v) else 0

/-- The result array. -/
def G (x : SX.Idx → EReal) (ht im : SV.Idx → BitVec 32) (w : SV.Idx → EReal) : SO.Idx → EReal := fun j =>
  votes x ht im w (j 0) (j 1)
    ⟨(j 2).val * 128 + (j 3).val, by
      have h2 : (j 2).val < 128 := (j 2).isLt
      have h3 : (j 3).val < 128 := (j 3).isLt
      omega⟩

theorem G_apply (x : SX.Idx → EReal) (ht im : SV.Idx → BitVec 32) (w : SV.Idx → EReal) (b : Fin 4) (c : Fin 64) (y z : Fin 128) :
    G x ht im w (ix4 b c y z) = votes x ht im w b c ⟨y.val * 128 + z.val, by omega⟩ := rfl

end Cert.Ht2Im

end
-- ==== Proof.HostVal.lean ====
import proofs.«428843_j77163382440036_3_alg».proof.Proof.Gen.KernelIdeal.Regions
import proofs.«428843_j77163382440036_3_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Run
import Idealize.ShloMosaic.Lib.KernelVsHost

noncomputable section

namespace Cert.KernelIdeal.HostVal

open Idealize.ShloMosaic Idealize.ShloMosaic.TcCoe Idealize.ShloMosaic.ValueIdx Idealize.SL.Sem Cert.KernelIdeal Cert.KernelIdeal.Gen

variable (m : (ℓ : Loc nD τ sig) → Buf (Elt Ideal) ℓ) (c : Dev nD)

/-- The launch contents of the four arguments on core `c`. -/
abbrev argX : S4x64x183x60.Idx → EReal := m ((c.tc : Thread nD τ).loc main_arg0)
abbrev argHt : S1000000.Idx → BitVec 32 := m ((c.tc : Thread nD τ).loc main_arg1)
abbrev argIm : S1000000.Idx → BitVec 32 := m ((c.tc : Thread nD τ).loc main_arg2)
abbrev argW : S1000000.Idx → EReal := m ((c.tc : Thread nD τ).loc main_arg3)

/-! ## A vector of 1,000,000 entries with 3520 entries appended -/

/-- The padded vector read at entry `v`: the operand's entry while `v` is below 1,000,000, the padding value after. -/
theorem pad1_apply {α : Type} (x : S1000000.Idx → α) (z : S_.Idx → α) (v : Fin 1003520) :
    pad S1003520 ![0] ![3520] ![0] x z pads_S1000000_S1003520_035200 h_S_ (ix1 v)
      = if hv : v.val < 1000000 then x (ix1 ⟨v.val, hv⟩) else z (Shape.Idx.first h_S_) := by
  by_cases hv : v.val < 1000000
  · rw [dif_pos hv]
    refine pad_apply_of_inside (s := S1000000) (t := S1003520) ![0] ![3520] ![0] x z
      pads_S1000000_S1003520_035200 h_S_ (ix1 v) (ix1 ⟨v.val, hv⟩) (fun a => ?_)
    match a with
    | ⟨0, _⟩ => show v.val = 0 + v.val * (0 + 1); omega
  · rw [dif_neg hv]
    refine pad_apply_of_not_inside (s := S1000000) (t := S1003520) ![0] ![3520] ![0] x z
      pads_S1000000_S1003520_035200 h_S_ (ix1 v) (0 : Fin 1) ?_
    show ¬(0 ≤ v.val ∧ (v.val - 0) % (0 + 1) = 0 ∧ (v.val - 0) / (0 + 1) < 1000000)
    omega

/-- The zero word converted to a float is the extended real 0. -/
theorem sitofp_zero_apply (i : S_.Idx) : (sitofp (F := Ideal) .f32 (constantI S_ 32 0#32) : S_.Idx → EReal) i = 0 := by
  show ((((0#32 : BitVec 32).toInt : ℤ) : ℝ) : EReal) = 0
  simp

/-! ## Each buffer as one term over the launch contents

A buffer is written by one host stretch only; the later stretches leave it alone, and the stretch's operations, read
back to the launch contents, compose to the term on the right. -/

/-- The table: the HT planes reshaped to 256 rows, 28 columns of the converted zero word appended, then narrowed. -/
theorem table_eq :
    (V8 (F := Ideal) m c (Proc.devRef .tc main_v2) : S256x11008.Idx → EReal)
      = truncf .bf16 (pad S256x11008 ![0, 0] ![0, 28] ![0, 0]
          (shapeCast S256x10980 (argX m c) shapeCasts_S4x64x183x60_S256x10980)
          (sitofp (F := Ideal) .f32 (constantI S_ 32 0#32)) pads_S256x10980_S256x11008_000_0280 h_S_) bitsLt_bf16_f32 := by
  refine (V8_of m c main_v2 (by decide)).trans ?_
  refine (V7_of m c main_v2 (by decide)).trans ?_
  refine (V6_of m c main_v2 (by decide)).trans ?_
  refine (V5_of m c main_v2 (by decide)).trans ?_
  refine (V4_of m c main_v2 (by decide)).trans ?_
  show StableHlo.after hostOps0_2 (V2 m c) (Proc.devRef .tc main_v2) = _
  after_results
  rfl

/-- The HT index words, padded with the zero word. -/
theorem htp_eq :
    (V8 (F := Ideal) m c (Proc.devRef .tc main_v3) : S1003520.Idx → BitVec 32)
      = pad S1003520 ![0] ![3520] ![0] (argHt m c) (constantI S_ 32 0#32) pads_S1000000_S1003520_035200 h_S_ := by
  refine (V8_of m c main_v3 (by decide)).trans ?_
  refine (V7_of m c main_v3 (by decide)).trans ?_
  refine (V6_of m c main_v3 (by decide)).trans ?_
  refine (V5_of m c main_v3 (by decide)).trans ?_
  show StableHlo.after hostOps0_3 (V3 m c) (Proc.devRef .tc main_v3) = _
  after_results
  rfl

/-- The image index words, padded with the zero word. -/
theorem imp_eq :
    (V8 (F := Ideal) m c (Proc.devRef .tc main_v4) : S1003520.Idx → BitVec 32)
      = pad S1003520 ![0] ![3520] ![0] (argIm m c) (constantI S_ 32 0#32) pads_S1000000_S1003520_035200 h_S_ := by
  refine (V8_of m c main_v4 (by decide)).trans ?_
  refine (V7_of m c main_v4 (by decide)).trans ?_
  show StableHlo.after hostOps0_5 (V5 m c) (Proc.devRef .tc main_v4) = _
  after_results
  rfl

/-- The weights, padded with the converted zero word. -/
theorem wp_eq :
    (V8 (F := Ideal) m c (Proc.devRef .tc main_v5) : S1003520.Idx → EReal)
      = pad S1003520 ![0] ![3520] ![0] (argW m c) (sitofp (F := Ideal) .f32 (constantI S_ 32 0#32))
          pads_S1000000_S1003520_035200 h_S_ := by
  show StableHlo.after hostOps0_7 (V7 m c) (Proc.devRef .tc main_v5) = _
  after_results
  rfl

/-! ## The four buffers read at an index -/

/-- The gather's table operand: the HT planes as [256, 10980] rows, 28 zero columns appended. -/
theorem table_apply (r : Fin 256) (h : Fin 11008) :
    (V8 (F := Ideal) m c (Proc.devRef .tc main_v2) : S256x11008.Idx → EReal) (ix2 r h)
      = if hh : h.val < 10980 then Cert.Ht2Im.xAt (argX m c) ⟨r.val / 64, by omega⟩ ⟨r.val % 64, by omega⟩ ⟨h.val, hh⟩ else 0 := by
  refine (congrFun (table_eq m c) (ix2 r h)).trans ?_
  -- narrowing is the identity on the extended reals
  show pad S256x11008 ![0, 0] ![0, 28] ![0, 0]
      (shapeCast S256x10980 (argX m c) shapeCasts_S4x64x183x60_S256x10980)
      (sitofp (F := Ideal) .f32 (constantI S_ 32 0#32)) pads_S256x10980_S256x11008_000_0280 h_S_ (ix2 r h) = _
  by_cases hh : h.val < 10980
  · -- a column of the operand: entry (r, h) of the reshaped planes is entry r · 10980 + h of x in row-major order,
    -- which is plane (r / 64, r mod 64), row h / 60, column h mod 60
    rw [dif_pos hh]
    refine (pad_apply_of_inside (s := S256x10980) (t := S256x11008) ![0, 0] ![0, 28] ![0, 0] _ _
      pads_S256x10980_S256x11008_000_0280 h_S_ (ix2 r h) (ix2 r ⟨h.val, hh⟩) (fun a => ?_)).trans ?_
    · match a with
      | ⟨0, _⟩ => show r.val = 0 + r.val * (0 + 1); omega
      | ⟨1, _⟩ => show h.val = 0 + h.val * (0 + 1); omega
    · refine shapeCast_apply (argX m c) shapeCasts_S4x64x183x60_S256x10980 (ix2 r ⟨h.val, hh⟩)
        (ix4 (⟨r.val / 64, by omega⟩ : Fin 4) (⟨r.val % 64, by omega⟩ : Fin 64)
          (⟨h.val / 60, by omega⟩ : Fin 183) (⟨h.val % 60, by omega⟩ : Fin 60)) ?_
      rw [Shape.rowMajor_val_four, Shape.rowMajor_val_two]
      show ((r.val / 64 * 64 + r.val % 64) * 183 + h.val / 60) * 60 + h.val % 60 = r.val * 10980 + h.val
      omega
  · -- one of the 28 appended columns: the padding value
    rw [dif_neg hh]
    refine (pad_apply_of_not_inside (s := S256x10980) (t := S256x11008) ![0, 0] ![0, 28] ![0, 0] _ _
      pads_S256x10980_S256x11008_000_0280 h_S_ (ix2 r h) (1 : Fin 2) ?_).trans (sitofp_zero_apply _)
    show ¬(0 ≤ h.val ∧ (h.val - 0) % (0 + 1) = 0 ∧ (h.val - 0) / (0 + 1) < 10980)
    omega

/-- The padded HT index words, image index words and weights: 3520 zeros appended. -/
theorem htp_apply (v : Fin 1003520) :
    (V8 (F := Ideal) m c (Proc.devRef .tc main_v3) : S1003520.Idx → BitVec 32) (ix1 v)
      = if hv : v.val < 1000000 then argHt m c (ix1 ⟨v.val, hv⟩) else 0#32 := by
  refine (congrFun (htp_eq m c) (ix1 v)).trans ?_
  exact pad1_apply (argHt m c) (constantI S_ 32 0#32) v
theorem imp_apply (v : Fin 1003520) :
    (V8 (F := Ideal) m c (Proc.devRef .tc main_v4) : S1003520.Idx → BitVec 32) (ix1 v)
      = if hv : v.val < 1000000 then argIm m c (ix1 ⟨v.val, hv⟩) else 0#32 := by
  refine (congrFun (imp_eq m c) (ix1 v)).trans ?_
  exact pad1_apply (argIm m c) (constantI S_ 32 0#32) v
theorem wp_apply (v : Fin 1003520) :
    (V8 (F := Ideal) m c (Proc.devRef .tc main_v5) : S1003520.Idx → EReal) (ix1 v)
      = if hv : v.val < 1000000 then argW m c (ix1 ⟨v.val, hv⟩) else 0 := by
  refine (congrFun (wp_eq m c) (ix1 v)).trans ?_
  refine (pad1_apply (argW m c) (sitofp (F := Ideal) .f32 (constantI S_ 32 0#32)) v).trans ?_
  rw [sitofp_zero_apply]

end Cert.KernelIdeal.HostVal

end
-- ==== Proof.Pay0.lean ====
import proofs.«428843_j77163382440036_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.Pay

open Idealize.ShloMosaic Idealize.ShloMosaic.ValueIdx Cert.KernelIdeal

/-- The dimension-number record of both products: [256, 5504] × [5504, 1024], contracting axis 1 with axis 0. -/
abbrev D := dot_S256x5504_S5504x1024_S256x1024_1_0_0_1_n_n

theorem D_lhs_0 (j : S256x1024.Idx) (q : D.contr.Idx) : ((D.lhsIdx j q 0 : Fin _) : ℕ) = j 0 := by
  simp [DotDims.lhsIdx, D, dot_S256x5504_S5504x1024_S256x1024_1_0_0_1_n_n]; rfl
theorem D_lhs_1 (j : S256x1024.Idx) (q : D.contr.Idx) : ((D.lhsIdx j q 1 : Fin _) : ℕ) = q ⟨0, by decide⟩ := by
  simp [DotDims.lhsIdx, D, dot_S256x5504_S5504x1024_S256x1024_1_0_0_1_n_n]; rfl
theorem D_rhs_0 (j : S256x1024.Idx) (q : D.contr.Idx) : ((D.rhsIdx j q 0 : Fin _) : ℕ) = q ⟨0, by decide⟩ := by
  simp [DotDims.rhsIdx, D, dot_S256x5504_S5504x1024_S256x1024_1_0_0_1_n_n]; rfl
theorem D_rhs_1 (j : S256x1024.Idx) (q : D.contr.Idx) : ((D.rhsIdx j q 1 : Fin _) : ℕ) = j 1 := by
  simp [DotDims.rhsIdx, D, dot_S256x5504_S5504x1024_S256x1024_1_0_0_1_n_n]; rfl

/-- A one-bit word widened to 32 bits and read as a signed number is 1 when the bit is set and 0 when not. -/
theorem bit_toEReal (b : BitVec 1) :
    FloatOps.sitofp (F := Ideal) .f32 (b.setWidth 32) = if b = 1#1 then (1 : EReal) else 0 := by
  rcases BitVec.eq_zero_or_eq_one b with rfl | rfl
  · rw [if_neg (by decide)]
    show ((((0#1 : BitVec 1).setWidth 32).toInt : ℝ) : EReal) = 0
    rw [show ((0#1 : BitVec 1).setWidth 32).toInt = 0 from by decide]
    simp
  · rw [if_pos rfl]
    show ((((1#1 : BitVec 1).setWidth 32).toInt : ℝ) : EReal) = 1
    rw [show ((1#1 : BitVec 1).setWidth 32).toInt = 1 from by decide]
    simp

/-! ## The block's arrays, stage by stage -/

/-- The votes of block `i` that exist, as floats: 1 where vote number `i·1024 + k` is below 1,000,000, else 0. -/
def validF (i : grid0.Coords) : FVec Ideal S1x1024 .f32 :=
  sitofp .f32 (extui 32 (cmpi .slt
    (addi (broadcast S1x1024 (Scalar.muli (BitVec.ofNat 32 (i 0).val) 1024#32)) (iota .tc S1x1024 32 [1] Gen.iota_S1x1024_d1_w32))
    (broadcast S1x1024 1000000#32)) Gen.natLt_1_32)

/-- The row words of a half of the HT table: the word of the row number plus the half's offset `c`. -/
def rowsW (c : BitVec 32) : IVec S5504x1024 32 :=
  broadcastTo S5504x1024 (addi (iota .tc S5504x1 32 [0] Gen.iota_S5504x1_d0_w32) (broadcast S5504x1 c)) Gen.broadcasts_S5504x1_S5504x1024

/-- The votes' HT index words, one column per vote. -/
def colsW (v12 : Vec Ideal S1024 .i32) : IVec S5504x1024 32 :=
  broadcastTo S5504x1024 (shapeCast S1x1024 (shapeCast S1024 v12 Gen.shapeCasts_S1024_S1024) Gen.shapeCasts_S1024_S1x1024)
    Gen.broadcasts_S1x1024_S5504x1024

/-- The one-hot matrix of a half: row word equal to the vote's index word, as a float. -/
def onehot (c : BitVec 32) (v12 : Vec Ideal S1024 .i32) : FVec Ideal S5504x1024 .bf16 :=
  truncf .bf16 (sitofp .f32 (extui 32 (cmpi .eq (rowsW c) (colsW v12)) Gen.natLt_1_32)) Gen.bitsLt_bf16_f32

/-- The votes' weights, zeroed where the vote does not exist, as one row. -/
def weightRow (i : grid0.Coords) (v8 : Vec Ideal S1024 .f32) : FVec Ideal S1x1024 .f32 :=
  mulf (shapeCast S1x1024 (shapeCast S1024 v8 Gen.shapeCasts_S1024_S1024) Gen.shapeCasts_S1024_S1x1024) (validF i)

/-- The stored value is the two products into a zero accumulator, summed onto a zero splat, times the weight row
    broadcast over the rows; the final change of format is the identity. -/
theorem k0_pay1_eq (i : grid0.Coords) (v8 : Vec Ideal S1024 .f32) (v12 : Vec Ideal S1024 .i32)
    (v25 v38 : Vec Ideal S256x5504 .bf16) (j : S256x1024.Idx) :
    Gen.k0_pay1 (F := Ideal) i v8 v12 v25 v38 j
      = ((Scalar.ofBits (F := Ideal) .f32 0x00000000#32
            + FloatOps.matmul D none (shapeCast S256x5504 v25 Gen.shapeCasts_S256x5504_S256x5504 : FVec Ideal S256x5504 .bf16) (onehot 0#32 v12)
                (constant S256x1024 .f32 0x00000000#32) j)
          + FloatOps.matmul D none (shapeCast S256x5504 v38 Gen.shapeCasts_S256x5504_S256x5504 : FVec Ideal S256x5504 .bf16) (onehot 5504#32 v12)
              (constant S256x1024 .f32 0x00000000#32) j)
        * broadcastTo S256x1024 (weightRow i v8) Gen.broadcasts_S1x1024_S256x1024 j := rfl

open Idealize.ShloMosaic.StableHlo.Predicate (slt_iff_toNat cmpi_eq_iff)

/-- Vote number `i·1024 + k` of block `i` (below 980·1024 + 1024) does not wrap as a 32-bit word. -/
theorem voteWord_toNat (i : grid0.Coords) (k : Fin 1024) :
    (BitVec.ofNat 32 (i 0).val * 1024#32 + BitVec.ofNat 32 k.val).toNat = (i 0).val * 1024 + k.val := by
  have hi : (i 0).val < 980 := (i 0).isLt
  have hk : k.val < 1024 := k.isLt
  rw [BitVec.toNat_add, BitVec.toNat_mul, BitVec.toNat_ofNat, BitVec.toNat_ofNat]
  show ((i 0).val % 2 ^ 32 * 1024 % 2 ^ 32 + k.val % 2 ^ 32) % 2 ^ 32 = (i 0).val * 1024 + k.val
  omega

/-- The valid mask at a vote: the signed comparison of a word below 2³¹ with 1,000,000 is the comparison of the numbers. -/
theorem validF_apply (i : grid0.Coords) (u : Fin 1) (k : Fin 1024) :
    validF i (ix2 u k) = if (i 0).val * 1024 + k.val < 1000000 then (1 : EReal) else 0 := by
  have hi : (i 0).val < 980 := (i 0).isLt
  have hk : k.val < 1024 := k.isLt
  have hio : iota .tc S1x1024 32 [1] Gen.iota_S1x1024_d1_w32 (ix2 u k) = BitVec.ofNat 32 k.val :=
    iota_single_apply .tc S1x1024 32 1 Gen.iota_S1x1024_d1_w32 (ix2 u k)
  have hcmp : IntOp.cmpi .slt (BitVec.ofNat 32 (i 0).val * 1024#32 + BitVec.ofNat 32 k.val) 1000000#32 = 1#1
      ↔ (i 0).val * 1024 + k.val < 1000000 := by
    have hb : (1000000#32 : BitVec 32).toNat = 1000000 := rfl
    have h := slt_iff_toNat (a := BitVec.ofNat 32 (i 0).val * 1024#32 + BitVec.ofNat 32 k.val) (b := 1000000#32)
      (by rw [voteWord_toNat]; omega) (by rw [hb]; omega)
    rw [voteWord_toNat, hb] at h
    exact h
  show FloatOps.sitofp (F := Ideal) .f32
      ((IntOp.cmpi .slt (BitVec.ofNat 32 (i 0).val * 1024#32 + iota .tc S1x1024 32 [1] Gen.iota_S1x1024_d1_w32 (ix2 u k)) 1000000#32).setWidth 32) = _
  rw [hio]
  exact (bit_toEReal _).trans (if_congr hcmp rfl rfl)

/-- A row word of a half at row `h`: the word of `h` plus the offset. -/
theorem rowsW_apply (c : BitVec 32) (h : Fin 5504) (k : Fin 1024) : rowsW c (ix2 h k) = BitVec.ofNat 32 h.val + c := by
  have hio : iota .tc S5504x1 32 [0] Gen.iota_S5504x1_d0_w32 (ix2 h (0 : Fin 1)) = BitVec.ofNat 32 h.val :=
    iota_single_apply .tc S5504x1 32 0 Gen.iota_S5504x1_d0_w32 (ix2 h (0 : Fin 1))
  refine (broadcastTo_apply _ Gen.broadcasts_S5504x1_S5504x1024 (ix2 h k) (ix2 h (0 : Fin 1)) fun a => ?_).trans ?_
  · match a with
    | ⟨0, _⟩ => rfl
    | ⟨1, _⟩ => rfl
  · show iota .tc S5504x1 32 [0] Gen.iota_S5504x1_d0_w32 (ix2 h (0 : Fin 1)) + c = _
    rw [hio]

/-- A column word at vote `k`: the vote's HT index word. -/
theorem colsW_apply (v12 : Vec Ideal S1024 .i32) (h : Fin 5504) (k : Fin 1024) : colsW v12 (ix2 h k) = v12 (ix1 k) := by
  refine (broadcastTo_1b_ab_apply _ Gen.broadcasts_S1x1024_S5504x1024 h k).trans ?_
  refine (shapeCast_a_1a_apply _ Gen.shapeCasts_S1024_S1x1024 (0 : Fin 1) k).trans ?_
  rw [shapeCast_self]

/-- The one-hot matrix at row `h` and vote `k`. -/
theorem onehot_apply (c : BitVec 32) (v12 : Vec Ideal S1024 .i32) (h : Fin 5504) (k : Fin 1024) :
    onehot c v12 (ix2 h k) = if v12 (ix1 k) = BitVec.ofNat 32 h.val + c then (1 : EReal) else 0 := by
  show FloatOps.sitofp (F := Ideal) .f32 ((IntOp.cmpi .eq (rowsW c (ix2 h k)) (colsW v12 (ix2 h k))).setWidth 32) = _
  rw [rowsW_apply, colsW_apply]
  exact (bit_toEReal _).trans (if_congr (cmpi_eq_iff.trans eq_comm) rfl rfl)

/-- The weight row at a vote. -/
theorem weightRow_apply (i : grid0.Coords) (v8 : Vec Ideal S1024 .f32) (u : Fin 1) (k : Fin 1024) :
    weightRow i v8 (ix2 u k) = v8 (ix1 k) * (if (i 0).val * 1024 + k.val < 1000000 then (1 : EReal) else 0) := by
  show shapeCast S1x1024 (shapeCast S1024 v8 Gen.shapeCasts_S1024_S1024) Gen.shapeCasts_S1024_S1x1024 (ix2 u k) * validF i (ix2 u k) = _
  rw [validF_apply]
  refine congrArg (· * _) ?_
  refine (shapeCast_a_1a_apply _ Gen.shapeCasts_S1024_S1x1024 u k).trans ?_
  rw [shapeCast_self]

/-! ## The products read at an index -/

/-- The contraction index of the two products is its one coordinate, a row number of the half. -/
def contrE : D.contr.Idx ≃ Fin 5504 := contrEquiv1 D 5504 rfl rfl

theorem contrE_symm_val (h : Fin 5504) : ((contrE.symm h) ⟨0, by decide⟩ : ℕ) = h.val :=
  contrEquiv1_symm_val D 5504 rfl rfl h

/-- A half's product into the zero accumulator, read at channel row `r` and vote `k`: the contraction runs over the
    half's rows, the table is read at `(r, h)` and the one-hot matrix at `(h, k)`; a product with 1 or 0 keeps or
    drops the table entry (on all of the extended reals). -/
theorem half_apply (c : BitVec 32) (v12 : Vec Ideal S1024 .i32) (T : Vec Ideal S256x5504 .bf16) (r : Fin 256) (k : Fin 1024) :
    FloatOps.matmul D none (shapeCast S256x5504 T Gen.shapeCasts_S256x5504_S256x5504 : FVec Ideal S256x5504 .bf16) (onehot c v12)
        (constant S256x1024 .f32 0x00000000#32) (ix2 r k)
      = ∑ h : Fin 5504, if v12 (ix1 k) = BitVec.ofNat 32 h.val + c then T (ix2 r h) else 0 := by
  refine (Ideal.matmul_constant_zero_apply D none _ _ (ix2 r k)).trans ?_
  rw [shapeCast_self]
  refine ((Equiv.sum_comp contrE.symm _).symm).trans ?_
  refine Finset.sum_congr rfl fun h _ => ?_
  have hl : D.lhsIdx (ix2 r k) (contrE.symm h) = ix2 r h :=
    Shape.idx_ext₂ (D_lhs_0 _ _) ((D_lhs_1 _ _).trans (contrE_symm_val h))
  have hr : D.rhsIdx (ix2 r k) (contrE.symm h) = ix2 h k :=
    Shape.idx_ext₂ ((D_rhs_0 _ _).trans (contrE_symm_val h)) (D_rhs_1 _ _)
  rw [hl, hr, onehot_apply, mul_ite, mul_one, mul_zero]

theorem pay0_apply (i : grid0.Coords) (v8 : Vec Ideal S1024 .f32) (v12 : Vec Ideal S1024 .i32)
    (v25 v38 : Vec Ideal S256x5504 .bf16) (r : Fin 256) (k : Fin 1024) :
    Gen.k0_pay1 (F := Ideal) i v8 v12 v25 v38 (ix2 r k)
      = ((∑ h : Fin 5504, if v12 (ix1 k) = BitVec.ofNat 32 h.val then v25 (ix2 r h) else 0)
          + (∑ h : Fin 5504, if v12 (ix1 k) = BitVec.ofNat 32 (h.val + 5504) then v38 (ix2 r h) else 0))
        * (v8 (ix1 k) * (if (i 0).val * 1024 + k.val < 1000000 then (1 : EReal) else 0)) := by
  -- the zero splat the products are summed onto
  have hz : Scalar.ofBits (F := Ideal) .f32 0x00000000#32 = (0 : EReal) := Ideal.ofBits_zero_f32
  -- the weight row, broadcast over the channel rows
  have hw : broadcastTo S256x1024 (weightRow i v8) Gen.broadcasts_S1x1024_S256x1024 (ix2 r k)
      = v8 (ix1 k) * (if (i 0).val * 1024 + k.val < 1000000 then (1 : EReal) else 0) :=
    (broadcastTo_1b_ab_apply _ Gen.broadcasts_S1x1024_S256x1024 r k).trans (weightRow_apply i v8 0 k)
  -- the first half: offset 0
  have hA := (half_apply 0#32 v12 v25 r k).trans
    (Finset.sum_congr rfl fun h _ => by rw [BitVec.add_zero])
  -- the second half: offset 5504, and the word of `h` plus 5504 is the word of `h + 5504`
  have hB := (half_apply 5504#32 v12 v38 r k).trans
    (Finset.sum_congr rfl fun h _ => by
      rw [show BitVec.ofNat 32 h.val + 5504#32 = BitVec.ofNat 32 (h.val + 5504) from (BitVec.ofNat_add h.val 5504).symm])
  rw [k0_pay1_eq, hz, hA, hB, hw, zero_add]

/-- A 32-bit word is the word of a number below 2³² exactly when its value is that number. -/
theorem word_eq_ofNat_iff (wd : BitVec 32) (n : Nat) (hn : n < 2 ^ 32) : wd = BitVec.ofNat 32 n ↔ wd.toNat = n := by
  constructor
  · intro h
    rw [h, BitVec.toNat_ofNat]
    exact Nat.mod_eq_of_lt hn
  · intro h
    apply BitVec.eq_of_toNat_eq
    rw [BitVec.toNat_ofNat, Nat.mod_eq_of_lt hn]
    exact h

theorem onehot_select (f : Fin 11008 → EReal) (wd : BitVec 32) (hw : wd.toNat < 11008) :
    (∑ h : Fin 5504, if wd = BitVec.ofNat 32 h.val then f ⟨h.val, by omega⟩ else 0)
      + (∑ h : Fin 5504, if wd = BitVec.ofNat 32 (h.val + 5504) then f ⟨h.val + 5504, by omega⟩ else 0)
      = f ⟨wd.toNat, hw⟩ := by
  by_cases hlo : wd.toNat < 5504
  · -- the word names a pixel of the first half: the first sum has one live term, the second none
    have h1 : (∑ h : Fin 5504, if wd = BitVec.ofNat 32 h.val then f ⟨h.val, by omega⟩ else 0) = f ⟨wd.toNat, hw⟩ := by
      rw [Finset.sum_eq_single (⟨wd.toNat, hlo⟩ : Fin 5504)]
      · rw [if_pos ((word_eq_ofNat_iff wd _ (by omega)).mpr rfl)]
      · intro b _ hb
        rw [if_neg]
        intro hc
        exact hb (Fin.ext ((word_eq_ofNat_iff wd b.val (by omega)).mp hc).symm)
      · intro hn
        exact absurd (Finset.mem_univ _) hn
    have h2 : (∑ h : Fin 5504, if wd = BitVec.ofNat 32 (h.val + 5504) then f ⟨h.val + 5504, by omega⟩ else 0) = 0 := by
      refine Finset.sum_eq_zero fun b _ => ?_
      rw [if_neg]
      intro hc
      have := (word_eq_ofNat_iff wd (b.val + 5504) (by omega)).mp hc
      omega
    rw [h1, h2, add_zero]
  · -- the word names a pixel of the second half
    have hhi : wd.toNat - 5504 < 5504 := by omega
    have h1 : (∑ h : Fin 5504, if wd = BitVec.ofNat 32 h.val then f ⟨h.val, by omega⟩ else 0) = 0 := by
      refine Finset.sum_eq_zero fun b _ => ?_
      rw [if_neg]
      intro hc
      have := (word_eq_ofNat_iff wd b.val (by omega)).mp hc
      omega
    have h2 : (∑ h : Fin 5504, if wd = BitVec.ofNat 32 (h.val + 5504) then f ⟨h.val + 5504, by omega⟩ else 0) = f ⟨wd.toNat, hw⟩ := by
      rw [Finset.sum_eq_single (⟨wd.toNat - 5504, hhi⟩ : Fin 5504)]
      · rw [if_pos ((word_eq_ofNat_iff wd _ (by omega)).mpr (by show wd.toNat = wd.toNat - 5504 + 5504; omega))]
        exact congrArg f (Fin.ext (by show wd.toNat - 5504 + 5504 = wd.toNat; omega))
      · intro b _ hb
        rw [if_neg]
        intro hc
        have := (word_eq_ofNat_iff wd (b.val + 5504) (by omega)).mp hc
        exact hb (Fin.ext (by show b.val = wd.toNat - 5504; omega))
      · intro hn
        exact absurd (Finset.mem_univ _) hn
    rw [h1, h2, zero_add]

end Cert.KernelIdeal.Pay

end
-- ==== Proof.Sums.lean ====
import proofs.«428843_j77163382440036_3_alg».proof.Proof.Spec
import Mathlib.Algebra.BigOperators.Fin
import Mathlib.Data.Fintype.BigOperators
import Mathlib.Logic.Equiv.Fin.Basic

noncomputable section

namespace Cert.Ht2Im

open Idealize.ShloMosaic

/-- 245 chunks of 4096 votes are the 1,003,520 padded votes. -/
theorem sum_chunks (g : Fin 1003520 → EReal) :
    (∑ c : Fin 245, ∑ k : Fin 4096, g ⟨c.val * 4096 + k.val, by omega⟩) = ∑ v : Fin 1003520, g v := by
  -- the double sum is a sum over pairs (chunk, position), and a pair is the vote numbered position + 4096 · chunk
  refine (Fintype.sum_prod_type' (fun (c : Fin 245) (k : Fin 4096) => g ⟨c.val * 4096 + k.val, by omega⟩)).symm.trans ?_
  refine Fintype.sum_equiv (finProdFinEquiv.trans (finCongr (by norm_num : 245 * 4096 = 1003520))) _ _
    fun x => congrArg g (Fin.ext ?_)
  show x.1.val * 4096 + x.2.val = x.2.val + 4096 * x.1.val
  omega

/-- Padded votes that contribute nothing drop out of the sum. -/
theorem sum_padded (g : Fin 1003520 → EReal) (hz : ∀ v : Fin 1003520, 1000000 ≤ v.val → g v = 0) :
    (∑ v : Fin 1003520, g v) = ∑ v : Fin 1000000, g ⟨v.val, by omega⟩ := by
  -- 1003520 = 1000000 + 3520: the sum splits into the first 1000000 terms and a tail of 3520, each of which is zero
  have e : (∑ v : Fin 1003520, g v) = ∑ v : Fin (1000000 + 3520), g (Fin.cast (by norm_num) v) :=
    (Fintype.sum_equiv (finCongr (by norm_num : 1000000 + 3520 = 1003520)) _ _ (fun _ => rfl)).symm
  have tail : (∑ i : Fin 3520, g (Fin.cast (by norm_num) (Fin.natAdd 1000000 i))) = 0 :=
    Finset.sum_eq_zero fun i _ => hz _ (Nat.le_add_right 1000000 i.val)
  rw [e, Fin.sum_univ_add, tail, add_zero]
  exact Finset.sum_congr rfl fun v _ => congrArg g (Fin.ext rfl)

/-- An accumulator reset before chunk 0 and added to at every chunk holds, after chunk `n`, the sum of the chunks so far. -/
theorem acc_eq_sum (S : ℕ → EReal) (a : ℕ → EReal) (h0 : a 0 = 0 + S 0) (hs : ∀ n, a (n + 1) = a n + S (n + 1)) (n : ℕ) :
    a n = ∑ c ∈ Finset.range (n + 1), S c := by
  induction n with
  | zero => rw [h0, zero_add]; exact (Finset.sum_range_one S).symm
  | succ n ih => rw [Finset.sum_range_succ, ← ih, hs]

end Cert.Ht2Im

end
-- ==== Proof.KernelMath.lean ====
import proofs.«428843_j77163382440036_3_alg».proof.Proof.Spec
import proofs.«428843_j77163382440036_3_alg».proof.Proof.Sums

noncomputable section

namespace Cert.Ht2Im

open Idealize.ShloMosaic Idealize.ShloMosaic.ValueIdx

/-- A row of the padded HT table read through the two one-hot halves at an index word. -/
def selTable (X : Fin 256 → Fin 11008 → EReal) (r : Fin 256) (wd : BitVec 32) : EReal :=
  (∑ h : Fin 5504, if wd = BitVec.ofNat 32 h.val then X r ⟨h.val, by omega⟩ else 0)
    + (∑ h : Fin 5504, if wd = BitVec.ofNat 32 (h.val + 5504) then X r ⟨h.val + 5504, by omega⟩ else 0)

/-- A 32-bit word is the word of a number below 2³² exactly when that number is its value. -/
private theorem eq_ofNat_iff (wd : BitVec 32) (n : ℕ) (hn : n < 2 ^ 32) : wd = BitVec.ofNat 32 n ↔ wd.toNat = n := by
  constructor
  · rintro rfl
    rw [BitVec.toNat_ofNat]; exact Nat.mod_eq_of_lt hn
  · intro h
    apply BitVec.eq_of_toNat_eq
    rw [BitVec.toNat_ofNat, Nat.mod_eq_of_lt hn]; exact h

/-- The two one-hot halves, at a word whose value is a column of the padded table, read that column: exactly one
    column number of one half is the word's value, and every other term of both sums is zero. -/
theorem selTable_eq (X : Fin 256 → Fin 11008 → EReal) (r : Fin 256) (wd : BitVec 32) (hwd : wd.toNat < 11008) :
    selTable X r wd = X r ⟨wd.toNat, hwd⟩ := by
  unfold selTable
  rcases Nat.lt_or_ge wd.toNat 5504 with hA | hB
  · -- the value lies in the first half
    have h1 : (∑ h : Fin 5504, if wd = BitVec.ofNat 32 h.val then X r ⟨h.val, by omega⟩ else 0) = X r ⟨wd.toNat, hwd⟩ := by
      rw [Finset.sum_eq_single (⟨wd.toNat, hA⟩ : Fin 5504)]
      · exact if_pos ((eq_ofNat_iff wd _ (by omega)).2 rfl)
      · intro h _ hne
        refine if_neg fun e => hne (Fin.ext ?_)
        exact ((eq_ofNat_iff wd _ (by omega)).1 e).symm
      · intro hn; exact absurd (Finset.mem_univ _) hn
    have h2 : (∑ h : Fin 5504, if wd = BitVec.ofNat 32 (h.val + 5504) then X r ⟨h.val + 5504, by omega⟩ else 0) = 0 :=
      Finset.sum_eq_zero fun h _ => if_neg fun e => by
        have := (eq_ofNat_iff wd _ (by omega)).1 e; omega
    exact (congrArg₂ (· + ·) h1 h2).trans (add_zero _)
  · -- the value lies in the second half, at position value − 5504
    have hk : wd.toNat - 5504 < 5504 := by omega
    have h1 : (∑ h : Fin 5504, if wd = BitVec.ofNat 32 h.val then X r ⟨h.val, by omega⟩ else 0) = 0 :=
      Finset.sum_eq_zero fun h _ => if_neg fun e => by
        have := (eq_ofNat_iff wd _ (by omega)).1 e; omega
    have h2 : (∑ h : Fin 5504, if wd = BitVec.ofNat 32 (h.val + 5504) then X r ⟨h.val + 5504, by omega⟩ else 0) = X r ⟨wd.toNat, hwd⟩ := by
      rw [Finset.sum_eq_single (⟨wd.toNat - 5504, hk⟩ : Fin 5504)]
      · refine (if_pos ((eq_ofNat_iff wd _ (by omega)).2 ?_)).trans (congrArg (X r) (Fin.ext ?_))
        · show wd.toNat = wd.toNat - 5504 + 5504
          omega
        · show wd.toNat - 5504 + 5504 = wd.toNat
          omega
      · intro h _ hne
        refine if_neg fun e => hne (Fin.ext ?_)
        have := (eq_ofNat_iff wd _ (by omega)).1 e
        show h.val = wd.toNat - 5504
        omega
      · intro hn; exact absurd (Finset.mem_univ _) hn
    exact (congrArg₂ (· + ·) h1 h2).trans (zero_add _)

/-- The padded, masked sum the kernel forms is the specification's sum over the votes. -/
theorem kernel_sum_eq_votes (x : SX.Idx → EReal) (ht im : SV.Idx → BitVec 32) (w : SV.Idx → EReal) (hr : HtInRange ht)
    (X : Fin 256 → Fin 11008 → EReal) (Hp Ip : Fin 1003520 → BitVec 32) (Wp : Fin 1003520 → EReal)
    (hX : ∀ (r : Fin 256) (h : Fin 11008), X r h = if hh : h.val < 10980 then xAt x ⟨r.val / 64, by omega⟩ ⟨r.val % 64, by omega⟩ ⟨h.val, hh⟩ else 0)
    (hH : ∀ v : Fin 1003520, Hp v = if hv : v.val < 1000000 then ht (ix1 ⟨v.val, hv⟩) else 0#32)
    (hI : ∀ v : Fin 1003520, Ip v = if hv : v.val < 1000000 then im (ix1 ⟨v.val, hv⟩) else 0#32)
    (hW : ∀ v : Fin 1003520, Wp v = if hv : v.val < 1000000 then w (ix1 ⟨v.val, hv⟩) else 0)
    (b : Fin 4) (c : Fin 64) (p : Fin 16384) :
    (∑ v : Fin 1003520, if Ip v = BitVec.ofNat 32 p.val
        then selTable X ⟨b.val * 64 + c.val, by omega⟩ (Hp v) * (Wp v * (if v.val < 1000000 then (1 : EReal) else 0)) else 0)
      = votes x ht im w b c p := by
  -- the padded votes carry the factor 0 and drop out; what is left is a sum over the 1000000 votes
  refine (sum_padded (fun v => if Ip v = BitVec.ofNat 32 p.val
      then selTable X ⟨b.val * 64 + c.val, by omega⟩ (Hp v) * (Wp v * (if v.val < 1000000 then (1 : EReal) else 0)) else 0) ?_).trans ?_
  · intro v hv
    rw [if_neg (by omega : ¬ v.val < 1000000), mul_zero, mul_zero, ite_self]
  · unfold votes
    refine Finset.sum_congr rfl fun v _ => ?_
    dsimp only
    -- at a vote below 1000000 the padded words and weight are the vote's own
    have eI : Ip ⟨v.val, by omega⟩ = im (ix1 v) := (hI _).trans (dif_pos v.isLt)
    have eH : Hp ⟨v.val, by omega⟩ = ht (ix1 v) := (hH _).trans (dif_pos v.isLt)
    have eW : Wp ⟨v.val, by omega⟩ = w (ix1 v) := (hW _).trans (dif_pos v.isLt)
    -- the selected column is the vote's HT pixel, and row b·64 + c is channel (b, c)
    have eX : selTable X ⟨b.val * 64 + c.val, by omega⟩ (ht (ix1 v)) = xAt x b c (htPix ht v) := by
      have hv := hr v
      rw [selTable_eq X _ (ht (ix1 v)) (by omega)]
      refine (hX _ _).trans ((dif_pos hv).trans ?_)
      have key : ∀ (b' : Fin 4) (c' : Fin 64) (h' : Fin 10980), b' = b → c' = c → h' = htPix ht v →
          xAt x b' c' h' = xAt x b c (htPix ht v) := by
        rintro _ _ _ rfl rfl rfl; rfl
      refine key _ _ _ (Fin.ext ?_) (Fin.ext ?_) (Fin.ext (htPix_val hr v).symm)
      · show (b.val * 64 + c.val) / 64 = b.val
        omega
      · show (b.val * 64 + c.val) % 64 = c.val
        omega
    rw [eI, eH, eW, eX, if_pos v.isLt, mul_one]

end Cert.Ht2Im

end
-- ==== Proof.GatherVal.lean ====
import proofs.«428843_j77163382440036_3_alg».proof.Proof.Gather
import proofs.«428843_j77163382440036_3_alg».proof.Proof.Pay0
import proofs.«428843_j77163382440036_3_alg».proof.Proof.KernelMath
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.GatherVal

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

/-- The gather's three input arrays as the region finds them: the padded table, the padded HT index words, the padded weights. -/
abbrev tab : S256x11008.Idx → EReal := V c main_v2
abbrev hts : S1003520.Idx → BitVec 32 := V c main_v3
abbrev wts : S1003520.Idx → EReal := V c main_v5

/-- The gathered, weighted, masked values: row `r`, padded vote `v`. -/
def vals : S256x1003520.Idx → EReal := fun j =>
  Cert.Ht2Im.selTable (fun r h => tab V c (ix2 r h)) (j 0) (hts V c (ix1 (j 1)))
    * (wts V c (ix1 (j 1)) * (if (j 1).val < 1000000 then (1 : EReal) else 0))

/-! ## One point's block, from the table and the point's words and weights -/

theorem hz1 : (![0] : Fin 1 → Nat) = fun _ => 0 := funext fun a => by fin_cases a; rfl
theorem hz2 : (![0, 0] : Fin 2 → Nat) = fun _ => 0 := funext fun a => by fin_cases a <;> rfl

/-- The first half of the table's columns read at row `r`, column `h`: the table at `(r, h)`. -/
theorem ld_lo (x : Vec Ideal S256x11008 .bf16) (r : Fin 256) (h : Fin 5504) :
    View.ld x Gather.rLo (ix2 r h) = x (ix2 r ⟨h.val, by omega⟩) := by
  refine congrArg x (Shape.idx_ext₂ ?_ ?_)
  · show 0 + 1 * r.val = r.val
    omega
  · show 0 + 1 * h.val = h.val
    omega

/-- The second half read at row `r`, column `h`: the table at `(r, h + 5504)`. -/
theorem ld_hi (x : Vec Ideal S256x11008 .bf16) (r : Fin 256) (h : Fin 5504) :
    View.ld x Gather.rHi (ix2 r h) = x (ix2 r ⟨h.val + 5504, by omega⟩) := by
  refine congrArg x (Shape.idx_ext₂ ?_ ?_)
  · show 0 + 1 * r.val = r.val
    omega
  · show 5504 + 1 * h.val = h.val + 5504
    omega

/-- What a point stores at row `r` and vote `k` of its block, from the whole table `x`, the point's index words `hw`
    and weights `ww`: the table's row read through the two one-hot halves at the vote's word, times the weight, times
    the mask of the votes that exist. -/
theorem point_apply (i : grid0.Coords) (x : Vec Ideal S256x11008 .bf16) (hw : Vec Ideal S1024 .i32) (ww : Vec Ideal S1024 .f32)
    (r : Fin 256) (k : Fin 1024) :
    Gen.k0_pay1 (F := Ideal) i (View.ld ww Gather.rVotes) (View.ld hw Gather.rVotes) (View.ld x Gather.rLo) (View.ld x Gather.rHi) (ix2 r k)
      = Cert.Ht2Im.selTable (fun r h => x (ix2 r h)) r (hw (ix1 k))
          * (ww (ix1 k) * (if (i 0).val * 1024 + k.val < 1000000 then (1 : EReal) else 0)) := by
  refine (Pay.pay0_apply i _ _ _ _ r k).trans ?_
  rw [View.ld_unit_zero (S := S1024) hz1, View.ld_unit_zero (S := S1024) hz1]
  unfold Cert.Ht2Im.selTable
  refine congrArg (· * _) (congrArg₂ (· + ·) ?_ ?_)
  · exact Finset.sum_congr rfl fun h _ => by rw [ld_lo]
  · exact Finset.sum_congr rfl fun h _ => by rw [ld_hi]

/-! ## What each point writes back, and the whole array -/

/-- The printed index maps, decided over the grid: the table's block is the whole array at every point; the votes' blocks,
    and the output's block along the votes, move with the point; and the point's grid coordinate is its number. -/
theorem idx_facts : ∀ t : Fin cfg0.N, win0_0.index t (0 : Fin 2) = 0 ∧ win0_0.index t (1 : Fin 2) = 0
    ∧ win0_1.index t (0 : Fin 1) = t.val ∧ win0_2.index t (0 : Fin 1) = t.val
    ∧ win0_3.index t (0 : Fin 2) = 0 ∧ win0_3.index t (1 : Fin 2) = t.val ∧ ((grid0.coords t) 0).val = t.val :=
  (by decide +kernel : ∀ t : Fin grid0.N, _)

/-- WHAT POINT `t` WRITES BACK is block `t` of `vals`: row `r`, vote `k` of the block is row `r`, padded vote
    `t·1024 + k` of the array; the table's block is the table, the words' and weights' blocks are the padded arrays at
    `t·1024 + k`. -/
theorem flushed3_eq (t : Fin cfg0.N) :
    (Gather.dat (F := Ideal) V c).flushed 3 t = ((cfg0.win 3).blk t).view.read (Elt Ideal) (vals V c) := by
  show (cfg0.win 3).cut (grid0.coords t) ((Gather.dat (F := Ideal) V c).after 3 t) = _
  rw [Gather.after3]
  unfold Gather.stored
  rw [View.canon_unit_zero hz2]
  obtain ⟨e00, e01, e1, e2, e30, e31, eg⟩ := idx_facts t
  have ht : t.val < 980 := lt_of_lt_of_eq t.isLt Gen.N_0
  funext j
  obtain ⟨r, k, rfl⟩ : ∃ (r : Fin 256) (k : Fin 1024), j = ix2 r k := ⟨j 0, j 1, eq_ix2 j⟩
  have hk : k.val < 1024 := k.isLt
  have hv : t.val * 1024 + k.val < 1003520 := by omega
  refine (point_apply (grid0.coords t) (Gather.blk V c 0 t) (Gather.blk V c 1 t) (Gather.blk V c 2 t) r k).trans ?_
  -- the block's element (r, k) sits in the array at (r, t·1024 + k)
  have e3 : ((cfg0.win 3).blk t).view.emb (ix2 r k) = (ix2 r (⟨t.val * 1024 + k.val, hv⟩ : Fin 1003520) : S256x1003520.Idx) := by
    refine Shape.idx_ext₂ ?_ ?_
    · show win0_3.index t (0 : Fin 2) * 256 + 1 * r.val = r.val
      omega
    · show win0_3.index t (1 : Fin 2) * 1024 + 1 * k.val = t.val * 1024 + k.val
      omega
  -- the table's block is the table
  have b0 : (fun (r : Fin 256) (h : Fin 11008) => Gather.blk V c 0 t (ix2 r h)) = fun r h => tab V c (ix2 r h) := by
    funext r h
    show V c main_v2 (((cfg0.win 0).blk t).view.emb (ix2 r h)) = V c main_v2 (ix2 r h)
    refine congrArg _ (Shape.idx_ext₂ ?_ ?_)
    · show win0_0.index t (0 : Fin 2) * 256 + 1 * r.val = r.val
      omega
    · show win0_0.index t (1 : Fin 2) * 11008 + 1 * h.val = h.val
      omega
  -- the words' and the weights' blocks at vote k are the padded arrays at t·1024 + k
  have b1 : Gather.blk V c 1 t (ix1 k) = hts V c (ix1 (⟨t.val * 1024 + k.val, hv⟩ : Fin 1003520)) := by
    show V c main_v3 (((cfg0.win 1).blk t).view.emb (ix1 k)) = V c main_v3 (ix1 (⟨t.val * 1024 + k.val, hv⟩ : Fin 1003520))
    refine congrArg _ (funext fun a => Fin.ext ?_)
    match a with
    | ⟨0, _⟩ =>
      show win0_1.index t (0 : Fin 1) * 1024 + 1 * k.val = t.val * 1024 + k.val
      omega
  have b2 : Gather.blk V c 2 t (ix1 k) = wts V c (ix1 (⟨t.val * 1024 + k.val, hv⟩ : Fin 1003520)) := by
    show V c main_v5 (((cfg0.win 2).blk t).view.emb (ix1 k)) = V c main_v5 (ix1 (⟨t.val * 1024 + k.val, hv⟩ : Fin 1003520))
    refine congrArg _ (funext fun a => Fin.ext ?_)
    match a with
    | ⟨0, _⟩ =>
      show win0_2.index t (0 : Fin 1) * 1024 + 1 * k.val = t.val * 1024 + k.val
      omega
  show _ = vals V c (((cfg0.win 3).blk t).view.emb (ix2 r k))
  rw [e3, b0, b1, b2, eg]
  rfl

/-- An index of the output array is in point `t`'s block exactly when each coordinate is in the block's range on its axis. -/
theorem mem_blk3 (t : Fin cfg0.N) (i : S256x1003520.Idx) :
    i ∈ ((cfg0.win 3).blk t).view.set
      ↔ ∀ a : Fin 2, win0_3.index t a * S256x1024.size a ≤ (i a).val ∧ (i a).val < win0_3.index t a * S256x1024.size a + S256x1024.size a := by
  show i ∈ ((View.whole main_v6).slice (win0_3.rect t)).set ↔ _
  rw [View.set_slice_whole, Rect.mem_set_unit]
  exact Iff.rfl

/-- Every index (r, v) of the output array lies in the block of point v / 1024, which is written back. -/
theorem covered3 (i : S256x1003520.Idx) :
    ∃ t : Fin cfg0.N, (cfg0.win 3).flush t = true ∧ i ∈ ((cfg0.win 3).blk t).view.set := by
  have hi0 : (i 0).val < 256 := (i 0).isLt
  have hi1 : (i 1).val < 1003520 := (i 1).isLt
  have hN : grid0.N = 980 := Gen.N_0
  have hq : (i 1).val / 1024 < grid0.N := by omega
  obtain ⟨e00, e01, e1, e2, e30, e31, eg⟩ := idx_facts ⟨(i 1).val / 1024, hq⟩
  refine ⟨⟨(i 1).val / 1024, hq⟩, Gen.flush0_3 _, ?_⟩
  rw [mem_blk3]
  intro a
  match a with
  | ⟨0, _⟩ =>
    show win0_3.index ⟨(i 1).val / 1024, hq⟩ (0 : Fin 2) * 256 ≤ (i 0).val
      ∧ (i 0).val < win0_3.index ⟨(i 1).val / 1024, hq⟩ (0 : Fin 2) * 256 + 256
    omega
  | ⟨1, _⟩ =>
    show win0_3.index ⟨(i 1).val / 1024, hq⟩ (1 : Fin 2) * 1024 ≤ (i 1).val
      ∧ (i 1).val < win0_3.index ⟨(i 1).val / 1024, hq⟩ (1 : Fin 2) * 1024 + 1024
    have e31' : win0_3.index ⟨(i 1).val / 1024, hq⟩ (1 : Fin 2) = (i 1).val / 1024 := e31
    omega

/-- After its 980 points the gather's output array holds `vals`. -/
theorem gather_array : (Gather.dat (F := Ideal) V c).arrAt 3 cfg0.N = vals V c := by
  exact (Gather.dat (F := Ideal) V c).arrAt_eq_of_cover 3 (vals V c) (fun t _ => flushed3_eq V c t) covered3

end Cert.KernelIdeal.GatherVal

end
-- ==== Proof.Pay1.lean ====
import proofs.«428843_j77163382440036_3_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Pay

open Idealize.ShloMosaic Idealize.ShloMosaic.ValueIdx Cert.KernelIdeal

/-! ## Words

The scatter kernel compares each image-index word of its block with the pixel number of a lane: the lane's
coordinate plus 2048 times the grid coordinate, all in 32-bit words. -/

/-- Sums and products of words commute with `BitVec.ofNat` (both hold modulo 2^32, with no range condition): the
    lane's coordinate `q` plus `a` times 2048, formed in words, is the word of the number `a * 2048 + q`. -/
theorem k1_word_add (a q : Nat) : BitVec.ofNat 32 q + BitVec.ofNat 32 a * 2048#32 = BitVec.ofNat 32 (a * 2048 + q) := by
  rw [BitVec.ofNat_add, BitVec.ofNat_mul, BitVec.add_comm]

/-- The equality bit of a word with itself, widened to 32 bits, is the word 1. -/
theorem k1_flag_eq (a : BitVec 32) : BitVec.setWidth 32 (IntOp.cmpi .eq a a) = 1#32 := by
  have : IntOp.cmpi .eq a a = 1#1 := by simp [IntOp.cmpi]
  rw [this]; rfl

/-- The equality bit of two different words, widened to 32 bits, is the word 0. -/
theorem k1_flag_ne {a b : BitVec 32} (h : ¬a = b) : BitVec.setWidth 32 (IntOp.cmpi .eq a b) = 0#32 := by
  have hb : (a == b) = false := beq_eq_false_iff_ne.mpr h
  have : IntOp.cmpi .eq a b = 0#1 := by simp [IntOp.cmpi, hb]
  rw [this]; rfl

/-- Read as a signed integer and then as an extended real, the widened equality bit is the indicator of the
    equality: 1 where the two words are equal, 0 where they differ. -/
theorem k1_flag_val (a b : BitVec 32) :
    (FloatOps.sitofp (F := Ideal) .f32 ((IntOp.cmpi .eq a b).setWidth 32) : EReal) = if a = b then 1 else 0 := by
  by_cases h : a = b
  · subst h
    rw [if_pos rfl, k1_flag_eq]
    show (((1#32 : BitVec 32).toInt : ℝ) : EReal) = 1
    have : (1#32 : BitVec 32).toInt = 1 := by decide
    rw [this]; simp
  · rw [if_neg h, k1_flag_ne h]
    show (((0#32 : BitVec 32).toInt : ℝ) : EReal) = 0
    have : (0#32 : BitVec 32).toInt = 0 := by decide
    rw [this]; simp

/-! ## The two sides of the comparison, read at `(c, q)` -/

/-- The index block `[4096]` viewed as a column `[4096, 1]` and repeated along 2048 lanes reads, at `(c, q)`, the
    block's word `c`: the broadcast keeps the row and sends the lane to the column's one position, and the two
    row-major positions `c` and `c * 1 + 0` agree. -/
theorem k1_col_apply (v4 : IVec S4096 32) (h1 : S4096.ShapeCasts S4096x1) (h2 : S4096x1.Broadcasts S4096x2048)
    (c : Fin 4096) (q : Fin 2048) :
    broadcastTo S4096x2048 (shapeCast S4096x1 v4 h1) h2 (ix2 c q) = v4 (ix1 c) := by
  refine (broadcastTo_apply _ h2 (ix2 c q) (ix2 c (0 : Fin 1)) fun a => ?_).trans ?_
  · match a with
    | ⟨0, _⟩ => rfl
    | ⟨1, _⟩ => rfl
  · refine shapeCast_apply v4 h1 (ix2 c (0 : Fin 1)) (ix1 c) ?_
    rw [Shape.rowMajor_val_one, Shape.rowMajor_val_two]
    show c.val = c.val * 1 + 0
    omega

/-- The row `[1, 2048]` of lane numbers, each shifted by the word `i0 * 2048`, repeated over 4096 rows reads, at
    `(c, q)`, the word of the pixel number `i0 * 2048 + q`. -/
theorem k1_row_apply (i0 : Nat) (hi : S1x2048.Iotas .tc 32 [1]) (h2 : S1x2048.Broadcasts S4096x2048)
    (c : Fin 4096) (q : Fin 2048) :
    broadcastTo S4096x2048
        (addi (iota .tc S1x2048 32 [1] hi) (broadcast S1x2048 (Scalar.muli (BitVec.ofNat 32 i0) 2048#32))) h2 (ix2 c q)
      = BitVec.ofNat 32 (i0 * 2048 + q.val) := by
  rw [broadcastTo_1b_ab_apply]
  show iota .tc S1x2048 32 [1] hi (ix2 (0 : Fin 1) q) + BitVec.ofNat 32 i0 * 2048#32 = _
  rw [iota_single_apply]
  exact k1_word_add i0 q.val

/-! ## The block product's index maps

The product contracts the left operand's axis 1 with the right operand's axis 0: one contracted axis, of extent 4096.
At the output index `(r, q)` and contraction position `k` the left operand is read at `(r, k)` and the right one at
`(k, q)`. -/

theorem k1_contr_rank : (dot_S256x4096_S4096x2048_S256x2048_1_0_0_1_n_n).contr.rank = 1 := rfl
theorem k1_contr_size : (dot_S256x4096_S4096x2048_S256x2048_1_0_0_1_n_n).contr.size ⟨0, by rw [k1_contr_rank]; exact Nat.one_pos⟩ = 4096 := rfl

/-- The left operand's row is the output's row. -/
theorem k1_lhs_ax0 (r : Fin 256) (q : Fin 2048) (k : (dot_S256x4096_S4096x2048_S256x2048_1_0_0_1_n_n).contr.Idx) :
    ((dot_S256x4096_S4096x2048_S256x2048_1_0_0_1_n_n).lhsIdx (ix2 r q) k 0).val = r.val := by
  simp [DotDims.lhsIdx, dot_S256x4096_S4096x2048_S256x2048_1_0_0_1_n_n]
  rfl

/-- The left operand's column is the contraction position. -/
theorem k1_lhs_ax1 (r : Fin 256) (q : Fin 2048) (k : (dot_S256x4096_S4096x2048_S256x2048_1_0_0_1_n_n).contr.Idx) :
    ((dot_S256x4096_S4096x2048_S256x2048_1_0_0_1_n_n).lhsIdx (ix2 r q) k 1).val = (k ⟨0, by rw [k1_contr_rank]; exact Nat.one_pos⟩).val :=
  DotDims.lhsIdx_val_of_single _ rfl _ _

/-- The right operand's row is the contraction position. -/
theorem k1_rhs_ax0 (r : Fin 256) (q : Fin 2048) (k : (dot_S256x4096_S4096x2048_S256x2048_1_0_0_1_n_n).contr.Idx) :
    ((dot_S256x4096_S4096x2048_S256x2048_1_0_0_1_n_n).rhsIdx (ix2 r q) k 0).val = (k ⟨0, by rw [k1_contr_rank]; exact Nat.one_pos⟩).val :=
  DotDims.rhsIdx_val_of_single _ rfl _ _

/-- The right operand's column is the output's column. -/
theorem k1_rhs_ax1 (r : Fin 256) (q : Fin 2048) (k : (dot_S256x4096_S4096x2048_S256x2048_1_0_0_1_n_n).contr.Idx) :
    ((dot_S256x4096_S4096x2048_S256x2048_1_0_0_1_n_n).rhsIdx (ix2 r q) k 1).val = q.val := by
  simp [DotDims.rhsIdx, dot_S256x4096_S4096x2048_S256x2048_1_0_0_1_n_n]
  rfl

/-- With the contraction position named by its one coordinate `c` below 4096, the left operand is read at `(r, c)`. -/
theorem k1_lhs_at (r : Fin 256) (q : Fin 2048) (c : Fin 4096) :
    (dot_S256x4096_S4096x2048_S256x2048_1_0_0_1_n_n).lhsIdx (ix2 r q) ((contrEquiv1 dot_S256x4096_S4096x2048_S256x2048_1_0_0_1_n_n 4096 k1_contr_rank k1_contr_size).symm c) = ix2 r c := by
  funext ax; apply Fin.ext
  match ax with
  | ⟨0, _⟩ => exact k1_lhs_ax0 r q _
  | ⟨1, _⟩ => exact (k1_lhs_ax1 r q _).trans (contrEquiv1_symm_val _ 4096 k1_contr_rank k1_contr_size c)

/-- … and the right operand at `(c, q)`. -/
theorem k1_rhs_at (r : Fin 256) (q : Fin 2048) (c : Fin 4096) :
    (dot_S256x4096_S4096x2048_S256x2048_1_0_0_1_n_n).rhsIdx (ix2 r q) ((contrEquiv1 dot_S256x4096_S4096x2048_S256x2048_1_0_0_1_n_n 4096 k1_contr_rank k1_contr_size).symm c) = ix2 c q := by
  funext ax; apply Fin.ext
  match ax with
  | ⟨0, _⟩ => exact (k1_rhs_ax0 r q _).trans (contrEquiv1_symm_val _ 4096 k1_contr_rank k1_contr_size c)
  | ⟨1, _⟩ => exact k1_rhs_ax1 r q _

/-! ## The two stored values -/

/-- The value the accumulator is reset to: the splat of the f32 zero pattern, cast to its own shape, is the extended
    real 0 at every index. -/
theorem pay1_zero (j : S256x2048.Idx) : Gen.k1_pay1 (F := Ideal) j = (0 : EReal) := by
  unfold Gen.k1_pay1
  simp only [shapeCast_self]
  exact Ideal.ofBits_zero_f32

/-- The accumulated value at `(r, q)`: the accumulator there plus, over the 4096 votes of the block, the value block's
    entry `(r, k)` where vote `k`'s image-index word is the word of pixel number `i0 * 2048 + q`, and 0 elsewhere.
    The casts of a shape to itself are the identity; the product into the zero accumulator is the sum over the
    contraction index of the operands' products, re-indexed by the contracted coordinate; the one-hot operand's entry
    `(k, q)` is the indicator of the equality of the two words (a change of float format being the identity on the
    extended reals); and `x * 1 = x`, `x * 0 = 0` hold for every extended real `x`. -/
theorem pay2_apply (i : grid1.Coords) (v4 : Vec Ideal S4096 .i32) (v16 : Vec Ideal S256x4096 .bf16)
    (v19 : Vec Ideal S256x2048 .f32) (r : Fin 256) (q : Fin 2048) :
    Gen.k1_pay2 (F := Ideal) i v4 v16 v19 (ix2 r q)
      = v19 (ix2 r q) + ∑ k : Fin 4096, if v4 (ix1 k) = BitVec.ofNat 32 ((i 0).val * 2048 + q.val) then v16 (ix2 r k) else 0 := by
  unfold Gen.k1_pay2
  simp only [shapeCast_self]
  rw [addf_apply]
  refine congrArg (v19 (ix2 r q) + ·) ?_
  simp only [matmul]
  rw [Ideal.matmul_constant_zero_apply,
    ← Equiv.sum_comp (contrEquiv1 dot_S256x4096_S4096x2048_S256x2048_1_0_0_1_n_n 4096 k1_contr_rank k1_contr_size).symm]
  refine Finset.sum_congr rfl fun c _ => ?_
  rw [k1_lhs_at, k1_rhs_at, truncf_apply, sitofp_apply, extui_apply]
  show v16 (ix2 r c) * FloatOps.sitofp (F := Ideal) .f32 (BitVec.setWidth 32 (IntOp.cmpi .eq
      (broadcastTo S4096x2048 (shapeCast S4096x1 v4 Gen.shapeCasts_S4096_S4096x1) Gen.broadcasts_S4096x1_S4096x2048 (ix2 c q))
      (broadcastTo S4096x2048
        (addi (iota .tc S1x2048 32 [1] Gen.iota_S1x2048_d1_w32)
          (broadcast S1x2048 (Scalar.muli (BitVec.ofNat 32 (i 0).val) 2048#32))) Gen.broadcasts_S1x2048_S4096x2048 (ix2 c q)))) = _
  rw [k1_col_apply, k1_row_apply, k1_flag_val]
  split
  · exact mul_one _
  · exact mul_zero _

end Cert.KernelIdeal.Pay

end
-- ==== Proof.ScatterVal.lean ====
import proofs.«428843_j77163382440036_3_alg».proof.Proof.Scatter
import proofs.«428843_j77163382440036_3_alg».proof.Proof.Pay1
import proofs.«428843_j77163382440036_3_alg».proof.Proof.Sums
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.ScatterVal

open Idealize.ShloMosaic Idealize.ShloMosaic.TcCoe Idealize.ShloMosaic.ValueIdx Idealize.SL.Sem Cert.KernelIdeal Cert.KernelIdeal.Gen
open Idealize.ShloMosaic.Pipeline (Dat)

variable (V : (c : Dev nD) → (b : Ref sig .tc) → Buf (Elt Ideal) ((c : Thread nD τ).loc b)) (c : Dev nD)

/-- The scatter's two input arrays as the region finds them: the gathered values, the padded image index words. -/
abbrev valsIn : S256x1003520.Idx → EReal := V c main_v6
abbrev ims : S1003520.Idx → BitVec 32 := V c main_v4

/-- Row `r`, image pixel `p`: the values of the padded votes whose image index word is `p`, summed. -/
def scattered : S256x16384.Idx → EReal := fun j =>
  ∑ v : Fin 1003520, if ims V c (ix1 v) = BitVec.ofNat 32 (j 1).val then valsIn V c (ix2 (j 0) v) else 0

/-! ## What each case of the body leaves, as a value

The body's stores and loads go through whole buffers at offset zero, so a case's found pieces, read back, are the stored
payloads over the loaded contents: the accumulator after a chunk is the accumulated value `k1_pay2` of the chunk's two
input blocks over what the accumulator held (the zero splat `k1_pay1` where it was cleared first), and at a tile's last
chunk the output block is given that same value. -/

open Idealize.ShloMosaic.Tactic in
theorem hz2 : (![0, 0] : Fin 2 → Nat) = fun _ => 0 := funext fun a => by fin_cases a <;> rfl
open Idealize.ShloMosaic.Tactic in
theorem hz1 : (![0] : Fin 1 → Nat) = fun _ => 0 := funext fun a => by fin_cases a; rfl

open Idealize.ShloMosaic.Tactic in
/-- A later chunk that does not store: the accumulator is left at the accumulated value over what it held. -/
theorem accPlain_eq {F : FTy → Type} [FloatOps F] (i : grid1.Coords) (arg2 : Memref sig .tc .vmem S256x4096 .bf16) (harg2 : arg2.IsWhole) (arg3 : Memref sig .tc .vmem S4096 .i32) (harg3 : arg3.IsWhole) (arg4 : Memref sig .tc .vmem S256x2048 .f32) (harg4 : arg4.IsWhole) (arg5 : Memref sig .tc .vmem S256x2048 .f32) (harg5 : arg5.IsWhole) (hc0 : ¬Scatter.Clears i) (hc1 : ¬Scatter.Stores i) (x0 : Vec F S256x4096 .bf16) (x1 : Vec F S4096 .i32) (xa : Vec F S256x2048 .f32) :
    Scatter.accPlain c i arg2 harg2 arg3 harg3 arg4 harg4 arg5 harg5 hc0 hc1 x0 x1 xa = Gen.k1_pay2 i x1 x0 xa := by
  unfold Scatter.accPlain
  rw [View.read_writes_eq_canon _ _ _ (Scatter.accPlain_cover c i arg2 harg2 arg3 harg3 arg4 harg4 arg5 harg5 hc0 hc1 x0 x1 xa)]
  unfold Scatter.runPlain
  dsimp only
  rw [View.canon_unit_zero hz2]
  simp only [View.readAt_eq_ld, harg2.read_unread, harg3.read_unread, harg5.read_unread,
    View.ld_unit_zero (S := S256x4096) hz2, View.ld_unit_zero (S := S4096) hz1, View.ld_unit_zero (S := S256x2048) hz2]

open Idealize.ShloMosaic.Tactic in
/-- The last chunk of a tile: the accumulator likewise, -/
theorem accStore_eq {F : FTy → Type} [FloatOps F] (i : grid1.Coords) (arg2 : Memref sig .tc .vmem S256x4096 .bf16) (harg2 : arg2.IsWhole) (arg3 : Memref sig .tc .vmem S4096 .i32) (harg3 : arg3.IsWhole) (arg4 : Memref sig .tc .vmem S256x2048 .f32) (harg4 : arg4.IsWhole) (arg5 : Memref sig .tc .vmem S256x2048 .f32) (harg5 : arg5.IsWhole) (hc0 : ¬Scatter.Clears i) (hc1 : Scatter.Stores i) (x0 : Vec F S256x4096 .bf16) (x1 : Vec F S4096 .i32) (xa : Vec F S256x2048 .f32) :
    Scatter.accStore c i arg2 harg2 arg3 harg3 arg4 harg4 arg5 harg5 hc0 hc1 x0 x1 xa = Gen.k1_pay2 i x1 x0 xa := by
  unfold Scatter.accStore
  rw [View.read_writes_eq_canon _ _ _ (Scatter.accStore_cover c i arg2 harg2 arg3 harg3 arg4 harg4 arg5 harg5 hc0 hc1 x0 x1 xa)]
  unfold Scatter.runStore
  dsimp only
  sl_unfold_words
  rw [View.canon_unit_zero (S := S256x2048) hz2]
  simp only [View.readAt_eq_ld, harg2.read_unread, harg3.read_unread, harg5.read_unread,
    View.ld_unit_zero (S := S256x4096) hz2, View.ld_unit_zero (S := S4096) hz1, View.ld_unit_zero (S := S256x2048) hz2]

open Idealize.ShloMosaic.Tactic in
/-- and the output block is given the accumulator as just updated: the same value (the load of the accumulator after its
    covering store reads the stored payload back). -/
theorem outStore_eq {F : FTy → Type} [FloatOps F] (i : grid1.Coords) (arg2 : Memref sig .tc .vmem S256x4096 .bf16) (harg2 : arg2.IsWhole) (arg3 : Memref sig .tc .vmem S4096 .i32) (harg3 : arg3.IsWhole) (arg4 : Memref sig .tc .vmem S256x2048 .f32) (harg4 : arg4.IsWhole) (arg5 : Memref sig .tc .vmem S256x2048 .f32) (harg5 : arg5.IsWhole) (hc0 : ¬Scatter.Clears i) (hc1 : Scatter.Stores i) (x0 : Vec F S256x4096 .bf16) (x1 : Vec F S4096 .i32) (xa : Vec F S256x2048 .f32) :
    Scatter.outStore c i arg2 harg2 arg3 harg3 arg4 harg4 arg5 harg5 hc0 hc1 x0 x1 xa = Gen.k1_pay2 i x1 x0 xa := by
  unfold Scatter.outStore
  rw [View.read_writes_eq_canon _ _ _ (Scatter.outStore_cover c i arg2 harg2 arg3 harg3 arg4 harg4 arg5 harg5 hc0 hc1 x0 x1 xa)]
  unfold Scatter.runStore
  dsimp only
  sl_unfold_words
  rw [View.canon_unit_zero (S := S256x2048) hz2, View.readCov_unit_zero (S := S256x2048) _ hz2]
  simp only [View.readAt_eq_ld, harg2.read_unread, harg3.read_unread, harg5.read_unread,
    View.ld_unit_zero (S := S256x4096) hz2, View.ld_unit_zero (S := S4096) hz1, View.ld_unit_zero (S := S256x2048) hz2]

open Idealize.ShloMosaic.Tactic in
/-- Chunk 0 of a tile: the accumulator is cleared, read back (the zero splat), and left at the accumulated value over
    it; of the two covering stores the later one is what remains. -/
theorem accClear_eq {F : FTy → Type} [FloatOps F] (i : grid1.Coords) (arg2 : Memref sig .tc .vmem S256x4096 .bf16) (harg2 : arg2.IsWhole) (arg3 : Memref sig .tc .vmem S4096 .i32) (harg3 : arg3.IsWhole) (arg4 : Memref sig .tc .vmem S256x2048 .f32) (harg4 : arg4.IsWhole) (arg5 : Memref sig .tc .vmem S256x2048 .f32) (harg5 : arg5.IsWhole) (hc0 : Scatter.Clears i) (hc1 : ¬Scatter.Stores i) (x0 : Vec F S256x4096 .bf16) (x1 : Vec F S4096 .i32) :
    Scatter.accClear c i arg2 harg2 arg3 harg3 arg4 harg4 arg5 harg5 hc0 hc1 x0 x1 = Gen.k1_pay2 i x1 x0 (Gen.k1_pay1) := by
  unfold Scatter.accClear
  rw [View.read_writes_eq_canon _ _ _ (Scatter.accClear_cover c i arg2 harg2 arg3 harg3 arg4 harg4 arg5 harg5 hc0 hc1 x0 x1)]
  unfold Scatter.runClear
  dsimp only
  sl_unfold_words
  rw [View.canon_cons_unit_zero (S := S256x2048) hz2, View.readCov_unit_zero (S := S256x2048) _ hz2]
  simp only [View.readAt_eq_ld, harg2.read_unread, harg3.read_unread,
    View.ld_unit_zero (S := S256x4096) hz2, View.ld_unit_zero (S := S4096) hz1]

/-! ## The grid and the windows' blocks

Point `t` of the 8 × 245 grid has tile coordinate `t / 245`; the value window's block index there is `(0, t mod 245)`,
the index window's `t mod 245`, the output window's `(0, t / 245)`: each decided over the 1960 points. A block's
entry sits in its array, on each axis, at the block index times the block's extent plus the entry's own coordinate. -/

theorem coords0 : ∀ t : Fin cfg1.N, ((grid1.coords t) 0).val = t.val / 245 :=
  (by decide +kernel : ∀ t : Fin grid1.N, ((grid1.coords t) 0).val = t.val / 245)
theorem index0 : ∀ t : Fin cfg1.N, win1_0.index t 0 = 0 ∧ win1_0.index t 1 = t.val % 245 :=
  (by decide +kernel : ∀ t : Fin grid1.N, win1_0.index t 0 = 0 ∧ win1_0.index t 1 = t.val % 245)
theorem index1 : ∀ t : Fin cfg1.N, win1_1.index t 0 = t.val % 245 :=
  (by decide +kernel : ∀ t : Fin grid1.N, win1_1.index t 0 = t.val % 245)
theorem index2 : ∀ t : Fin cfg1.N, win1_2.index t 0 = 0 ∧ win1_2.index t 1 = t.val / 245 :=
  (by decide +kernel : ∀ t : Fin grid1.N, win1_2.index t 0 = 0 ∧ win1_2.index t 1 = t.val / 245)

/-- The value block at point `t` reads, at `(r, k)`, the value array at row `r` and vote `4096 · (t mod 245) + k`. -/
theorem blk0_apply (t : Fin cfg1.N) (r : Fin 256) (k : Fin 4096) :
    (Scatter.blk (F := Ideal) V c 0 t : Vec Ideal S256x4096 .bf16) (ix2 r k)
      = valsIn V c (ix2 r (⟨(t.val % 245) * 4096 + k.val, by omega⟩ : Fin 1003520)) := by
  unfold Scatter.blk
  rw [View.read_apply]
  show V c main_v6 _ = V c main_v6 _
  congr 1
  funext a
  apply Fin.ext
  match a with
  | ⟨0, _⟩ =>
    show win1_0.index t 0 * 256 + 1 * r.val = r.val
    rw [(index0 t).1]; omega
  | ⟨1, _⟩ =>
    show win1_0.index t 1 * 4096 + 1 * k.val = (t.val % 245) * 4096 + k.val
    rw [(index0 t).2]; omega

/-- The index block at point `t` reads, at `k`, the image index word of vote `4096 · (t mod 245) + k`. -/
theorem blk1_apply (t : Fin cfg1.N) (k : Fin 4096) :
    (Scatter.blk (F := Ideal) V c 1 t : Vec Ideal S4096 .i32) (ix1 k)
      = ims V c (ix1 (⟨(t.val % 245) * 4096 + k.val, by omega⟩ : Fin 1003520)) := by
  unfold Scatter.blk
  rw [View.read_apply]
  show V c main_v4 _ = V c main_v4 _
  congr 1
  funext a
  apply Fin.ext
  match a with
  | ⟨0, _⟩ =>
    show win1_1.index t 0 * 4096 + 1 * k.val = (t.val % 245) * 4096 + k.val
    rw [index1 t]; omega

/-- An array over the output's shape read through the output block at point `t`: entry `(r, q)` is the array at row `r`
    and pixel column `2048 · (t / 245) + q`. -/
theorem blk2_read (G : S256x16384.Idx → EReal) (t : Fin cfg1.N) (r : Fin 256) (q : Fin 2048)
    (hT : t.val / 245 * 2048 + q.val < 16384) :
    ((cfg1.win 2).blk t).view.read (Elt Ideal) G (ix2 r q) = G (ix2 r (⟨t.val / 245 * 2048 + q.val, hT⟩ : Fin 16384)) := by
  rw [View.read_apply]
  show G _ = G _
  congr 1
  funext a
  apply Fin.ext
  match a with
  | ⟨0, _⟩ =>
    show win1_2.index t 0 * 256 + 1 * r.val = r.val
    rw [(index2 t).1]; omega
  | ⟨1, _⟩ =>
    show win1_2.index t 1 * 2048 + 1 * q.val = t.val / 245 * 2048 + q.val
    rw [(index2 t).2]; omega

/-! ## The accumulator after each point -/

/-- One vote's term at row `r` and pixel number `p`: its value where its image index word is `p`'s word, else 0. -/
def term (r : Fin 256) (p : ℕ) (v : Fin 1003520) : EReal :=
  if ims V c (ix1 v) = BitVec.ofNat 32 p then valsIn V c (ix2 r v) else 0

/-- The terms of chunk `n` (votes 4096 · n … 4096 · n + 4095), summed; nothing past the last chunk. -/
def chunkSum (r : Fin 256) (p : ℕ) (n : ℕ) : EReal :=
  if h : n < 245 then ∑ k : Fin 4096, term V c r p (⟨n * 4096 + k.val, by omega⟩ : Fin 1003520) else 0

/-- One step: the accumulated value of point `t`'s blocks over `prev` is, at `(r, q)`, `prev` there plus the point's
    chunk of pixel `2048 · (t / 245) + q`. -/
theorem step (t : Fin cfg1.N) (prev : Vec Ideal S256x2048 .f32) (r : Fin 256) (q : Fin 2048) :
    Gen.k1_pay2 (F := Ideal) (grid1.coords t) (Scatter.blk V c 1 t) (Scatter.blk V c 0 t) prev (ix2 r q)
      = prev (ix2 r q) + chunkSum V c r (t.val / 245 * 2048 + q.val) (t.val % 245) := by
  rw [Pay.pay2_apply, coords0 t]
  unfold chunkSum
  rw [dif_pos (Nat.mod_lt _ (by norm_num))]
  refine congrArg (prev (ix2 r q) + ·) (Finset.sum_congr rfl fun k _ => ?_)
  unfold term
  rw [blk1_apply, blk0_apply]

/-- At a tile's chunk 0 the accumulator holds that chunk alone (the cleared accumulator is 0 everywhere). -/
theorem accAt_first (t : Fin cfg1.N) (h0 : t.val % 245 = 0) (r : Fin 256) (q : Fin 2048) :
    Scatter.accAt (F := Ideal) V c t.val t.isLt (ix2 r q) = chunkSum V c r (t.val / 245 * 2048 + q.val) 0 := by
  rw [Scatter.accAt_clear V c t h0, accClear_eq, step, Pay.pay1_zero, zero_add, h0]

/-- At a later chunk it holds what the point before left plus this chunk. -/
theorem accAt_next (t : Fin cfg1.N) (h0 : ¬t.val % 245 = 0) (r : Fin 256) (q : Fin 2048) :
    Scatter.accAt (F := Ideal) V c t.val t.isLt (ix2 r q)
      = Scatter.accAt (F := Ideal) V c (t.val - 1) (Nat.lt_of_le_of_lt (Nat.sub_le _ _) t.isLt) (ix2 r q)
        + chunkSum V c r (t.val / 245 * 2048 + q.val) (t.val % 245) := by
  by_cases h1 : t.val % 245 = 244
  · rw [Scatter.accAt_store V c t h0 h1, accStore_eq, step]
  · rw [Scatter.accAt_plain V c t h0 h1, accPlain_eq, step]

/-- After position `n` the accumulator holds, at `(r, q)`, the chunks 0 … n mod 245 of pixel `2048 · (n / 245) + q`: by
    induction on the position; a position with `n mod 245 ≠ 0` has the tile and the chunk count of the one before. -/
theorem acc_inv (n : ℕ) : ∀ (hn : n < cfg1.N) (r : Fin 256) (q : Fin 2048),
    Scatter.accAt (F := Ideal) V c n hn (ix2 r q)
      = ∑ m ∈ Finset.range (n % 245 + 1), chunkSum V c r (n / 245 * 2048 + q.val) m := by
  induction n with
  | zero =>
    intro hn r q
    exact (accAt_first V c ⟨0, hn⟩ (Nat.zero_mod _) r q).trans (Finset.sum_range_one _).symm
  | succ n ih =>
    intro hn r q
    by_cases h0 : (n + 1) % 245 = 0
    · rw [h0]
      exact (accAt_first V c ⟨n + 1, hn⟩ h0 r q).trans (Finset.sum_range_one _).symm
    · refine (accAt_next V c ⟨n + 1, hn⟩ h0 r q).trans ?_
      have e := ih (Nat.lt_of_succ_lt hn) r q
      have hd : n / 245 = (n + 1) / 245 := by omega
      have hm : n % 245 + 1 = (n + 1) % 245 := by omega
      rw [hd, hm] at e
      show Scatter.accAt (F := Ideal) V c n _ (ix2 r q) + _ = _
      rw [e, Finset.sum_range_succ]

/-- At a storing point the written block holds, at `(r, q)`, the sum over all the padded votes: the 245 chunk sums of
    the tile are the sum over the 1,003,520 votes. -/
theorem outAt_store_apply (t : Fin cfg1.N) (h1 : t.val % 245 = 244) (r : Fin 256) (q : Fin 2048) :
    Scatter.outAt (F := Ideal) V c t (ix2 r q) = ∑ v : Fin 1003520, term V c r (t.val / 245 * 2048 + q.val) v := by
  have h0 : ¬t.val % 245 = 0 := by omega
  have hd : (t.val - 1) / 245 = t.val / 245 := by omega
  have hm : (t.val - 1) % 245 + 1 = 244 := by omega
  rw [Scatter.outAt_store V c t h0 h1, outStore_eq, step, acc_inv, hd, hm, h1, ← Finset.sum_range_succ, Finset.sum_range]
  exact (Finset.sum_congr rfl fun m _ => dif_pos m.isLt).trans (Cert.Ht2Im.sum_chunks (term V c r (t.val / 245 * 2048 + q.val)))

/-! ## The output array -/

/-- What a point that writes back writes is its block of `scattered`. -/
theorem flushed_eq (t : Fin cfg1.N) (hf : (cfg1.win 2).flush t = true) :
    (Scatter.dat (F := Ideal) V c).flushed 2 t = ((cfg1.win 2).blk t).view.read (Elt Ideal) (scattered V c) := by
  have h1 : t.val % 245 = 244 := (flush1_2 t).mp hf
  have hN : t.val < 1960 := lt_of_lt_of_eq t.isLt (show cfg1.N = 1960 from N_1)
  show (cfg1.win 2).cut (grid1.coords t) ((Scatter.dat (F := Ideal) V c).after 2 t) = _
  rw [Scatter.after2]
  funext j
  obtain ⟨r, q, rfl⟩ : ∃ (r : Fin 256) (q : Fin 2048), j = ix2 r q := ⟨j 0, j 1, eq_ix2 j⟩
  show Scatter.outAt (F := Ideal) V c t (ix2 r q) = _
  rw [outAt_store_apply V c t h1, blk2_read (scattered V c) t r q (by omega)]
  rfl

/-- Pixel column `p` lies in the block of its tile's storing point, `245 · (p / 2048) + 244`. -/
theorem mem_blk (r : Fin 256) (p : Fin 16384) (t : Fin cfg1.N) (ht : t.val = p.val / 2048 * 245 + 244) :
    (ix2 r p : S256x16384.Idx) ∈ ((cfg1.win 2).blk t).view.set := by
  show (ix2 r p : S256x16384.Idx) ∈ ((View.whole main_v7).slice (win1_2.rect t)).set
  rw [View.set_slice_whole, Rect.mem_set_unit]
  intro a
  match a with
  | ⟨0, _⟩ =>
    show win1_2.index t 0 * 256 ≤ r.val ∧ r.val < win1_2.index t 0 * 256 + 256
    rw [(index2 t).1]; omega
  | ⟨1, _⟩ =>
    show win1_2.index t 1 * 2048 ≤ p.val ∧ p.val < win1_2.index t 1 * 2048 + 2048
    rw [(index2 t).2, ht]; omega

/-- After its 8 × 245 points the scatter's output array holds `scattered`. -/
theorem scatter_array : (Scatter.dat (F := Ideal) V c).arrAt 2 cfg1.N = scattered V c := by
  -- every point that writes back writes its block of `scattered`, and the eight storing points' blocks cover the array
  refine (Scatter.dat (F := Ideal) V c).arrAt_eq_of_cover 2 (scattered V c) (flushed_eq V c) fun i => ?_
  obtain ⟨r, p, rfl⟩ : ∃ (r : Fin 256) (p : Fin 16384), i = (ix2 r p : S256x16384.Idx) := ⟨i 0, i 1, eq_ix2 i⟩
  have hp : p.val / 2048 * 245 + 244 < cfg1.N := by rw [show cfg1.N = 1960 from N_1]; omega
  exact ⟨⟨p.val / 2048 * 245 + 244, hp⟩, (flush1_2 _).mpr (by show (p.val / 2048 * 245 + 244) % 245 = 244; omega),
    mem_blk r p _ rfl⟩

end Cert.KernelIdeal.ScatterVal

end
-- ==== Proof.Result.lean ====
/-
  The idealized kernel's result, index by index. The closing reshape reads the scatter's output array; the scatter's
  array is, per row and pixel, the sum over the padded votes whose image index word is the pixel of the gathered
  values; the gathered values are the padded table read through the two one-hot halves at the vote's HT index word,
  times the padded weight and the position mask; the paddings and the change of format leave zeros beyond the
  1,000,000 votes and beyond column 10980. Under the range condition on the HT index words that sum is the
  specification's sum over the votes.
-/
import proofs.«428843_j77163382440036_3_alg».proof.Proof.Whole
import proofs.«428843_j77163382440036_3_alg».proof.Proof.HostVal
import proofs.«428843_j77163382440036_3_alg».proof.Proof.GatherVal
import proofs.«428843_j77163382440036_3_alg».proof.Proof.ScatterVal
import proofs.«428843_j77163382440036_3_alg».proof.Proof.KernelMath
import Idealize.ShloMosaic.Lib.StableHlo.Run
import Idealize.ShloMosaic.Lib.Pipeline.Value
import Idealize.ShloMosaic.Lib.ValueIdx

set_option maxRecDepth 16384

noncomputable section

namespace Cert.KernelIdeal.Result

open Idealize.ShloMosaic Idealize.ShloMosaic.TcCoe Idealize.ShloMosaic.ValueIdx Idealize.SL.Sem Cert.KernelIdeal Cert.KernelIdeal.Gen
open Cert.KernelIdeal.Whole Cert.KernelIdeal.HostVal

variable (m : (ℓ : Loc nD τ sig) → Buf (Elt Ideal) ℓ) (c : Dev nD)

/-- The arrays the two regions read and write, each at its literal type: the padded table, the padded HT index words,
    image index words and weights as the gather finds them; the scatter's output array; the result buffer at the end. -/
abbrev tabA : S256x11008.Idx → EReal := V8 (F := Ideal) m c (Proc.devRef .tc main_v2)
abbrev htsA : S1003520.Idx → BitVec 32 := V8 (F := Ideal) m c (Proc.devRef .tc main_v3)
abbrev imsA : S1003520.Idx → BitVec 32 := V8 (F := Ideal) m c (Proc.devRef .tc main_v4)
abbrev wtsA : S1003520.Idx → EReal := V8 (F := Ideal) m c (Proc.devRef .tc main_v5)
abbrev outA : S256x16384.Idx → EReal := Ws (F := Ideal) m c (Proc.devRef .tc main_v7)
abbrev resA : S4x64x128x128.Idx → EReal := Wend (F := Ideal) m c (Proc.devRef .tc main_v8)

/-- The result buffer at the end is the scatter's output array, reshaped. -/
theorem result_reshape : resA m c = shapeCast S4x64x128x128 (outA m c) shapeCasts_S256x16384_S4x64x128x128 := by
  dsimp only [resA, outA, Wend, hostOps2]; after_results; rfl

/-- The scatter's output array, at row `r` and pixel `p`. -/
theorem scatter_out_apply (r : Fin 256) (p : Fin 16384) :
    outA m c (ix2 r p)
      = ∑ v : Fin 1003520, if imsA m c (ix1 v) = BitVec.ofNat 32 p.val
          then Cert.Ht2Im.selTable (fun r h => tabA m c (ix2 r h)) r (htsA m c (ix1 v))
              * (wtsA m c (ix1 v) * (if v.val < 1000000 then (1 : EReal) else 0))
          else 0 := by
  have h1 : outA m c = ScatterVal.scattered (Vg m) c :=
    (Ws_arr m c 2).trans (ScatterVal.scatter_array (Vg m) c)
  have h2 : ScatterVal.valsIn (Vg m) c = GatherVal.vals (Vin m) c :=
    (Wg_arr m c 3).trans (GatherVal.gather_array (Vin m) c)
  have h3 : ScatterVal.ims (Vg m) c = imsA m c :=
    Wg_of_ne m c main_v4 (by decide)
  rw [h1]
  unfold ScatterVal.scattered
  rw [h2, h3]
  rfl

/-- THE KERNEL'S VALUE: under the range condition on the HT index words, the result buffer ends at the specification
    of the four arguments' launch contents. -/
theorem result_eq (hr : Cert.Ht2Im.HtInRange (argHt m c)) :
    resA m c = Cert.Ht2Im.G (argX m c) (argHt m c) (argIm m c) (argW m c) := by
  rw [result_reshape]
  funext j
  obtain ⟨b, ch, y, z, rfl⟩ : ∃ (b : Fin 4) (ch : Fin 64) (y z : Fin 128), j = ix4 b ch y z := ⟨j 0, j 1, j 2, j 3, eq_ix4 j⟩
  rw [Cert.Ht2Im.G_apply]
  have hcast := shapeCast_apply (outA m c) shapeCasts_S256x16384_S4x64x128x128
    (ix4 b ch y z) (ix2 (⟨b.val * 64 + ch.val, by omega⟩ : Fin 256) (⟨y.val * 128 + z.val, by omega⟩ : Fin 16384))
    (by rewrite [Shape.rowMajor_val_four, Shape.rowMajor_val_two]
        show (b.val * 64 + ch.val) * 16384 + (y.val * 128 + z.val) = ((b.val * 64 + ch.val) * 128 + y.val) * 128 + z.val
        omega)
  rw [hcast, scatter_out_apply]
  exact Cert.Ht2Im.kernel_sum_eq_votes (argX m c) (argHt m c) (argIm m c) (argW m c) hr
    (fun r h => tabA m c (ix2 r h)) (fun v => htsA m c (ix1 v)) (fun v => imsA m c (ix1 v)) (fun v => wtsA m c (ix1 v))
    (fun r h => table_apply m c r h) (fun v => htp_apply m c v) (fun v => imp_apply m c v) (fun v => wp_apply m c v) b ch ⟨y.val * 128 + z.val, by omega⟩

end Cert.KernelIdeal.Result

end
-- ==== Proof.LibScatterRows.lean ====
/-
  The host's accumulating scatter (a segment sum) read at an index, at the ideal instance.

  Operand `[N, C]`, scatter indices `[E, 1]` (one row number per update row), updates `[E, C]`:
  update row `e` is added, column by column, onto operand row `idx[e, 0]` read as a SIGNED integer,
  and is dropped when that number is not a row of the operand. So element `(n, j)` of the result is
  the operand's plus the sum, over the update rows `e` whose index is `n`, of `upd[e, j]`.
  The flat form (operand `[N]`, updates `[E]`) is the same with no column.
-/
import Idealize.ShloMosaic.PureOps.Ideal
import Idealize.ShloMosaic.Lib.ValueIdx
import Idealize.ShloMosaic.Lib.ValueIdxRank1

noncomputable section

namespace Idealize.ShloMosaic.SegSum

open Idealize.ShloMosaic Idealize.ShloMosaic.ValueIdx

/-- The dimension numbers of a row scatter: operand `[N, C]`, indices `[E, 1]`, updates `[E, C]`;
    the updates' axis 1 is the window, the operand's axis 0 is the scattered one. -/
abbrev rowsDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- The dimension numbers of a flat scatter: operand `[N]`, indices `[E, 1]`, updates `[E]`. -/
abbrev flatDims (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The update rows that land on operand row `n`: those whose index word, read signed, is `n`. -/
def rowsOf {N E w : Nat} (idx : IVec ⟨2, ![E, 1]⟩ w) (n : Fin N) : Finset (Fin E) :=
  Finset.univ.filter fun e => (idx (ix2 e (0 : Fin 1))).toInt = (n.val : Int)

/-- An update index lands on operand index `i` exactly when, on every axis, its start plus its
    window coordinate is `i`'s coordinate (being inside the operand is then automatic). -/
private theorem resultIdx?_eq_some_iff {s si u : Shape} (d : ScatterDims s si u) {w : Nat}
    (j : u.Idx) (idx : IVec si w) (i : s.Idx) :
    d.resultIdx? j idx = some i ↔ ∀ a, d.start j idx a + (d.window j a : Int) = ((i a).val : Int) := by
  unfold ScatterDims.resultIdx?
  constructor
  · intro h
    split at h
    · rename_i hb
      intro a
      have hv := congrArg (fun f => (f a).val) (Option.some.inj h)
      simp only at hv
      have := hb a
      omega
    · cases h
  · intro h
    have hb : ∀ a, 0 ≤ d.start j idx a + d.window j a ∧ d.start j idx a + d.window j a < s.size a := by
      intro a
      have := h a
      have := (i a).isLt
      omega
    rw [dif_pos hb]
    congr 1
    funext a
    apply Fin.ext
    have := h a
    simp only
    omega

section Rows
variable {N E C w : Nat}
  (wf : ScatterDims.WF ⟨2, ![N, C]⟩ ⟨2, ![E, 1]⟩ ⟨2, ![E, C]⟩ [1] [0] [0] 1)

/-- On the scattered axis the start is the update row's index word, read signed. -/
private theorem rows_start0 (e : Fin E) (j' : Fin C) (idx : IVec ⟨2, ![E, 1]⟩ w) :
    (rowsDims N E C wf).start (ix2 e j') idx 0 = (idx (ix2 e (0 : Fin 1))).toInt := by
  unfold ScatterDims.start
  rw [dif_pos (show (0 : Fin 2) ∈ (rowsDims N E C wf).scatterDimsToOperandDims from List.mem_singleton.mpr rfl)]
  congr 2
  funext b; refine Fin.ext ?_
  match b with
  | ⟨0, _⟩ => rfl
  | ⟨1, _⟩ => rfl

/-- The column axis is not a scattered one: its start is `0`. -/
private theorem rows_start1 (u : (⟨2, ![E, C]⟩ : Shape).Idx) (idx : IVec ⟨2, ![E, 1]⟩ w) :
    (rowsDims N E C wf).start u idx 1 = 0 := by
  unfold ScatterDims.start
  rw [dif_neg (show (1 : Fin 2) ∉ [(0 : Fin 2)] by decide)]

/-- The scattered axis is an inserted one: its window coordinate is `0`. -/
private theorem rows_window0 (u : (⟨2, ![E, C]⟩ : Shape).Idx) :
    (rowsDims N E C wf).window u 0 = 0 := by
  have h : (0 : Fin 2) ∉ (rowsDims N E C wf).sKept := by
    show (0 : Fin 2) ∉ (List.finRange 2).filter (· ∉ [(0 : Fin 2)])
    decide
  unfold ScatterDims.window
  exact dif_neg h

/-- On the column axis the window coordinate is the update's column. -/
private theorem rows_window1 (e : Fin E) (j' : Fin C) :
    (rowsDims N E C wf).window (ix2 e j') 1 = j'.val := by
  have h : (1 : Fin 2) ∈ (rowsDims N E C wf).sKept := by
    show (1 : Fin 2) ∈ (List.finRange 2).filter (· ∉ [(0 : Fin 2)])
    decide
  unfold ScatterDims.window
  rw [dif_pos h]
  rfl

/-- Update element `(e, j')` lands on operand element `(n, j)` exactly when row `e`'s index word,
    read signed, is `n` and the columns agree. -/
private theorem rows_resultIdx_iff (e : Fin E) (j' : Fin C) (idx : IVec ⟨2, ![E, 1]⟩ w)
    (n : Fin N) (j : Fin C) :
    (rowsDims N E C wf).resultIdx? (ix2 e j') idx = some (ix2 n j) ↔
      (idx (ix2 e (0 : Fin 1))).toInt = (n.val : Int) ∧ j' = j := by
  rw [resultIdx?_eq_some_iff]
  constructor
  · intro h
    have h0 : (rowsDims N E C wf).start (ix2 e j') idx 0
        + ((rowsDims N E C wf).window (ix2 e j') 0 : Int) = (n.val : Int) := h 0
    have h1 : (rowsDims N E C wf).start (ix2 e j') idx 1
        + ((rowsDims N E C wf).window (ix2 e j') 1 : Int) = (j.val : Int) := h 1
    rw [rows_start0, rows_window0] at h0
    rw [rows_start1, rows_window1] at h1
    exact ⟨by omega, Fin.ext (by omega)⟩
  · rintro ⟨hn, rfl⟩ a
    match a with
    | ⟨0, _⟩ =>
      show (rowsDims N E C wf).start (ix2 e j') idx 0 + ((rowsDims N E C wf).window (ix2 e j') 0 : Int) = (n.val : Int)
      rw [rows_start0, rows_window0, hn]; simp
    | ⟨1, _⟩ =>
      show (rowsDims N E C wf).start (ix2 e j') idx 1 + ((rowsDims N E C wf).window (ix2 e j') 1 : Int) = (j'.val : Int)
      rw [rows_start1, rows_window1]; simp

end Rows

/-- THE ROW SCATTER READ AT `(n, j)`. -/
theorem hostScatterAdd_rows_apply {N E C w : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ w)
    (upd : (⟨2, ![E, C]⟩ : Shape).Idx → EReal) (n : Fin N) (j : Fin C) :
    Ideal.hostScatterAdd (rowsDims N E C wf) x idx upd (ix2 n j)
      = x (ix2 n j) + ∑ e ∈ rowsOf idx n, upd (ix2 e j) := by
  unfold Ideal.hostScatterAdd rowsOf
  congr 1
  rw [Finset.sum_filter, Finset.sum_filter, sum_idx2]
  refine Finset.sum_congr rfl fun e _ => ?_
  simp only [rows_resultIdx_iff]
  by_cases h : (idx (ix2 e (0 : Fin 1))).toInt = (n.val : Int)
  · simp [h]
  · simp [h]

section Flat
variable {N E w : Nat}
  (wf : ScatterDims.WF ⟨1, ![N]⟩ ⟨2, ![E, 1]⟩ ⟨1, ![E]⟩ [] [0] [0] 1)

/-- On the one (scattered) axis the start is the update's index word, read signed. -/
private theorem flat_start0 (e : Fin E) (idx : IVec ⟨2, ![E, 1]⟩ w) :
    (flatDims N E wf).start (ix1 e) idx 0 = (idx (ix2 e (0 : Fin 1))).toInt := by
  unfold ScatterDims.start
  rw [dif_pos (show (0 : Fin 1) ∈ (flatDims N E wf).scatterDimsToOperandDims from List.mem_singleton.mpr rfl)]
  congr 2
  funext b; refine Fin.ext ?_
  match b with
  | ⟨0, _⟩ => rfl
  | ⟨1, _⟩ => rfl

/-- The one axis is an inserted one: its window coordinate is `0`. -/
private theorem flat_window0 (u : (⟨1, ![E]⟩ : Shape).Idx) :
    (flatDims N E wf).window u 0 = 0 := by
  have h : (0 : Fin 1) ∉ (flatDims N E wf).sKept := by
    show (0 : Fin 1) ∉ (List.finRange 1).filter (· ∉ [(0 : Fin 1)])
    decide
  unfold ScatterDims.window
  exact dif_neg h

/-- Update element `e` lands on operand element `n` exactly when its index word, read signed, is `n`. -/
private theorem flat_resultIdx_iff (e : Fin E) (idx : IVec ⟨2, ![E, 1]⟩ w) (n : Fin N) :
    (flatDims N E wf).resultIdx? (ix1 e) idx = some (ix1 n) ↔
      (idx (ix2 e (0 : Fin 1))).toInt = (n.val : Int) := by
  rw [resultIdx?_eq_some_iff]
  constructor
  · intro h
    have h0 : (flatDims N E wf).start (ix1 e) idx 0
        + ((flatDims N E wf).window (ix1 e) 0 : Int) = (n.val : Int) := h 0
    rw [flat_start0, flat_window0] at h0
    omega
  · intro hn a
    match a with
    | ⟨0, _⟩ =>
      show (flatDims N E wf).start (ix1 e) idx 0 + ((flatDims N E wf).window (ix1 e) 0 : Int) = (n.val : Int)
      rw [flat_start0, flat_window0, hn]; simp

end Flat

/-- THE FLAT SCATTER READ AT `n`. -/
theorem hostScatterAdd_flat_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w)
    (upd : (⟨1, ![E]⟩ : Shape).Idx → EReal) (n : Fin N) :
    Ideal.hostScatterAdd (flatDims N E wf) x idx upd (ix1 n)
      = x (ix1 n) + ∑ e ∈ rowsOf idx n, upd (ix1 e) := by
  unfold Ideal.hostScatterAdd rowsOf
  congr 1
  rw [Finset.sum_filter, Finset.sum_filter, ← Equiv.sum_comp (idxEquiv1 (n := E)).symm]
  refine Finset.sum_congr rfl fun e _ => ?_
  show (if (flatDims N E wf).resultIdx? (ix1 e) idx = some (ix1 n) then upd (ix1 e) else 0) = _
  simp only [flat_resultIdx_iff]

end Idealize.ShloMosaic.SegSum

end
-- ==== Proof.RefVal.lean ====
import proofs.«428843_j77163382440036_3_alg».proof.Proof.Gen.ReferenceIdeal.Read
import proofs.«428843_j77163382440036_3_alg».proof.Proof.Spec
import proofs.«428843_j77163382440036_3_alg».proof.Proof.LibScatterRows
import Idealize.ShloMosaic.PureOps.Ideal.Laws
import Idealize.ShloMosaic.Lib.ValueIdx
import Idealize.ShloMosaic.Lib.Pipeline.Value

noncomputable section

namespace Cert.ReferenceIdeal.RefVal

open Idealize.ShloMosaic Idealize.ShloMosaic.ValueIdx Cert.ReferenceIdeal

/-! ## The gather read at an index

Operand [4, 64, 10980], start indices [1000000, 1], result [4, 64, 1000000]: the first two axes are offset axes
carried whole, the third is collapsed and named by the start index. Result element (b, c, e) is the operand's
(b, c, r), r the index word of vote e read signed and clamped into [0, 10979]. -/

theorem gather_apply {α : Type} {w : Nat} (x : S4x64x10980.Idx → α) (idx : IVec S1000000x1 w)
    (b : Fin 4) (c : Fin 64) (e : Fin 1000000) :
    Host.gather gather_S4x64x10980_S1000000x1_S4x64x1000000_01_2_n_n_2_1_4641 x idx (ix3 b c e)
      = x (ix3 b c (⟨min (idx (ix2 e (0 : Fin 1))).toInt.toNat 10979, by omega⟩ : Fin 10980)) := by
  unfold Host.gather
  congr 1
  funext a
  refine Fin.ext ?_
  match a with
  | ⟨0, _⟩ =>
    show gather_S4x64x10980_S1000000x1_S4x64x1000000_01_2_n_n_2_1_4641.start (ix3 b c e) idx 0
      + gather_S4x64x10980_S1000000x1_S4x64x1000000_01_2_n_n_2_1_4641.batchCoord (ix3 b c e) 0
      + gather_S4x64x10980_S1000000x1_S4x64x1000000_01_2_n_n_2_1_4641.offCoord (ix3 b c e) 0 = b.val
    rw [GatherDims.batchCoord_eq_zero _ _ _ List.not_mem_nil]
    unfold GatherDims.start
    rw [dif_neg (show (0 : Fin 3) ∉ gather_S4x64x10980_S1000000x1_S4x64x1000000_01_2_n_n_2_1_4641.startIndexMap from
      (by decide : (0 : Fin 3) ∉ [(2 : Fin 3)]))]
    simp only [Nat.add_zero, Nat.zero_add]
    unfold GatherDims.offCoord
    rw [dif_pos ((GatherDims.mem_sKept _ _).mpr ⟨(by decide : (0 : Fin 3) ∉ [(2 : Fin 3)]), List.not_mem_nil⟩)]
    rfl
  | ⟨1, _⟩ =>
    show gather_S4x64x10980_S1000000x1_S4x64x1000000_01_2_n_n_2_1_4641.start (ix3 b c e) idx 1
      + gather_S4x64x10980_S1000000x1_S4x64x1000000_01_2_n_n_2_1_4641.batchCoord (ix3 b c e) 1
      + gather_S4x64x10980_S1000000x1_S4x64x1000000_01_2_n_n_2_1_4641.offCoord (ix3 b c e) 1 = c.val
    rw [GatherDims.batchCoord_eq_zero _ _ _ List.not_mem_nil]
    unfold GatherDims.start
    rw [dif_neg (show (1 : Fin 3) ∉ gather_S4x64x10980_S1000000x1_S4x64x1000000_01_2_n_n_2_1_4641.startIndexMap from
      (by decide : (1 : Fin 3) ∉ [(2 : Fin 3)]))]
    simp only [Nat.add_zero, Nat.zero_add]
    unfold GatherDims.offCoord
    rw [dif_pos ((GatherDims.mem_sKept _ _).mpr ⟨(by decide : (1 : Fin 3) ∉ [(2 : Fin 3)]), List.not_mem_nil⟩)]
    rfl
  | ⟨2, _⟩ =>
    show gather_S4x64x10980_S1000000x1_S4x64x1000000_01_2_n_n_2_1_4641.start (ix3 b c e) idx 2
      + gather_S4x64x10980_S1000000x1_S4x64x1000000_01_2_n_n_2_1_4641.batchCoord (ix3 b c e) 2
      + gather_S4x64x10980_S1000000x1_S4x64x1000000_01_2_n_n_2_1_4641.offCoord (ix3 b c e) 2
        = min (idx (ix2 e (0 : Fin 1))).toInt.toNat 10979
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (2 : Fin 3) ∈ gather_S4x64x10980_S1000000x1_S4x64x1000000_01_2_n_n_2_1_4641.startIndexMap from
      List.mem_singleton.mpr rfl)]
    have hsi : gather_S4x64x10980_S1000000x1_S4x64x1000000_01_2_n_n_2_1_4641.siIdx (ix3 b c e)
        ⟨List.idxOf (2 : Fin 3) gather_S4x64x10980_S1000000x1_S4x64x1000000_01_2_n_n_2_1_4641.startIndexMap,
          List.idxOf_lt_length_iff.2 (List.mem_singleton.mpr rfl)⟩ = ix2 e (0 : Fin 1) := by
      funext b'; refine Fin.ext ?_
      match b' with
      | ⟨0, _⟩ => rfl
      | ⟨1, _⟩ => rfl
    rw [hsi]
    rfl

/-! ## The index word of a vote

The program wraps a negative word by adding 10980; under the range condition no word is negative, so the wrapped
word is the word, and read signed and clamped into [0, 10979] it is the vote's HT pixel number. -/

/-- A word below 10980 reads the same signed and unsigned. -/
theorem toInt_of_lt (v : BitVec 32) (h : v.toNat < 10980) : v.toInt = (v.toNat : Int) := by
  rw [BitVec.toInt_eq_toNat_cond]
  have : 2 * v.toNat < 2 ^ 32 := by omega
  rw [if_pos this]

/-- The start indices of the gather at vote e: the HT index word itself. -/
theorem v6_apply (ht : IVec S1000000 32) (hr : Cert.Ht2Im.HtInRange ht) (e : Fin 1000000) :
    Read.val_main_v6 (F := Ideal) ht (ix2 e (0 : Fin 1)) = ht (ix1 e) := by
  have hi : Read.idx_main_v6 (ix2 e (0 : Fin 1)) = ix1 e := by
    funext a; match a with | ⟨0, _⟩ => rfl
  rw [Read.val_main_v6_apply, hi, Read.val_main_v5_apply, Read.val_main_v2_apply, Read.val_main_v1_apply,
    Read.val_main_c_apply]
  have hs : IntOp.cmpi .slt (ht (ix1 e)) 0#32 = 0#1 := by
    show BitVec.ofBool ((ht (ix1 e)).slt 0#32) = 0#1
    have hf : (ht (ix1 e)).slt 0#32 = false := by
      rw [BitVec.slt_eq_decide, toInt_of_lt _ (hr e)]
      exact decide_eq_false (by simp)
    rw [hf]; rfl
  rw [hs, select_zero]

/-- The clamped start of vote e is its HT pixel number. -/
theorem clamp_eq (ht : IVec S1000000 32) (hr : Cert.Ht2Im.HtInRange ht) (e : Fin 1000000) :
    (⟨min (Read.val_main_v6 (F := Ideal) ht (ix2 e (0 : Fin 1))).toInt.toNat 10979, by omega⟩ : Fin 10980)
      = Cert.Ht2Im.htPix ht e := by
  apply Fin.ext
  show min (Read.val_main_v6 (F := Ideal) ht (ix2 e (0 : Fin 1))).toInt.toNat 10979 = (Cert.Ht2Im.htPix ht e).val
  rw [v6_apply ht hr e, Cert.Ht2Im.htPix_val hr e, toInt_of_lt _ (hr e), Int.toNat_natCast]
  have := hr e
  omega

/-! ## The reshapes and the product, read at an index -/

/-- The flattened HT planes at (b, c, h) are the planes at row h / 60, column h mod 60. -/
theorem v0_apply (x0 : FVec Ideal S4x64x183x60 .f32) (b : Fin 4) (c : Fin 64) (h : Fin 10980) :
    Read.val_main_v0 (F := Ideal) x0 (ix3 b c h) = Cert.Ht2Im.xAt x0 b c h := by
  rw [Read.val_main_v0_apply]
  unfold Cert.Ht2Im.xAt
  congr 1
  funext a
  refine Fin.ext ?_
  have hb := b.isLt; have hc := c.isLt; have hh := h.isLt
  match a with
  | ⟨0, _⟩ => show ((b.val * 64 + c.val) * 10980 + h.val) / 702720 = b.val; omega
  | ⟨1, _⟩ => show ((b.val * 64 + c.val) * 10980 + h.val) / 10980 % 64 = c.val; omega
  | ⟨2, _⟩ => show ((b.val * 64 + c.val) * 10980 + h.val) / 60 % 183 = h.val / 60; omega
  | ⟨3, _⟩ => show ((b.val * 64 + c.val) * 10980 + h.val) % 60 = h.val % 60; omega

/-- The gathered value of vote e at channel (b, c): the planes at the vote's HT pixel. -/
theorem v7_apply (x0 : FVec Ideal S4x64x183x60 .f32) (ht : IVec S1000000 32) (hr : Cert.Ht2Im.HtInRange ht)
    (b : Fin 4) (c : Fin 64) (e : Fin 1000000) :
    Read.val_main_v7 (F := Ideal) x0 ht (ix3 b c e) = Cert.Ht2Im.xAt x0 b c (Cert.Ht2Im.htPix ht e) := by
  unfold Read.val_main_v7
  rw [gather_apply, clamp_eq ht hr e, v0_apply]

/-- The weighted value of vote e at channel (b, c). -/
theorem v10_apply (x0 : FVec Ideal S4x64x183x60 .f32) (ht : IVec S1000000 32) (w : FVec Ideal S1000000 .f32)
    (hr : Cert.Ht2Im.HtInRange ht) (b : Fin 4) (c : Fin 64) (e : Fin 1000000) :
    Read.val_main_v10 (F := Ideal) x0 ht w (ix3 b c e)
      = Cert.Ht2Im.xAt x0 b c (Cert.Ht2Im.htPix ht e) * w (ix1 e) := by
  have hi : Read.idx_main_v8 (Read.idx_main_v9 (ix3 b c e)) = ix1 e := by
    funext a; match a with | ⟨0, _⟩ => rfl
  rw [Read.val_main_v10_apply, v7_apply x0 ht hr, Read.val_main_v9_apply, Read.val_main_v8_apply, hi]
  rfl

/-- The update rows of the scatter: row e, column 64 b + c is the weighted value of vote e at channel (b, c). -/
theorem v12_apply (x0 : FVec Ideal S4x64x183x60 .f32) (ht : IVec S1000000 32) (w : FVec Ideal S1000000 .f32)
    (hr : Cert.Ht2Im.HtInRange ht) (b : Fin 4) (c : Fin 64) (e : Fin 1000000) :
    Read.val_main_v12 (F := Ideal) x0 ht w (ix2 e (⟨b.val * 64 + c.val, by omega⟩ : Fin 256))
      = Cert.Ht2Im.xAt x0 b c (Cert.Ht2Im.htPix ht e) * w (ix1 e) := by
  have hi : Read.idx_main_v11 (Read.idx_main_v12 (ix2 e (⟨b.val * 64 + c.val, by omega⟩ : Fin 256))) = ix3 b c e := by
    funext a
    refine Fin.ext ?_
    have hb := b.isLt; have hc := c.isLt; have he := e.isLt
    match a with
    | ⟨0, _⟩ => show ((b.val * 64 + c.val) * 1000000 + e.val) / 64000000 = b.val; omega
    | ⟨1, _⟩ => show ((b.val * 64 + c.val) * 1000000 + e.val) / 1000000 % 64 = c.val; omega
    | ⟨2, _⟩ => show ((b.val * 64 + c.val) * 1000000 + e.val) % 1000000 = e.val; omega
  rw [Read.val_main_v12_apply, Read.val_main_v11_apply, hi, v10_apply x0 ht w hr]

/-! ## The scatter and the assembly -/

/-- A pixel number below 16384, as a 32-bit word, reads signed as itself. -/
theorem toInt_ofNat_lt (p : Nat) (hp : p < 16384) : (BitVec.ofNat 32 p).toInt = (p : Int) := by
  have hn : (BitVec.ofNat 32 p).toNat = p := by
    rw [BitVec.toNat_ofNat]; exact Nat.mod_eq_of_lt (by omega)
  rw [BitVec.toInt_eq_toNat_cond, hn, if_pos (by omega)]

/-- A word reads signed as the pixel number p exactly when it is the word of p. -/
theorem toInt_eq_iff (v : BitVec 32) (p : Nat) (hp : p < 16384) :
    v.toInt = (p : Int) ↔ v = BitVec.ofNat 32 p := by
  constructor
  · intro h
    apply BitVec.eq_of_toInt_eq
    rw [h, toInt_ofNat_lt p hp]
  · intro h
    rw [h, toInt_ofNat_lt p hp]

/-- The scatter read at row p, column q: the operand's element plus the update rows whose index word, read signed,
    is p. -/
theorem v15_apply (x0 : FVec Ideal S4x64x183x60 .f32) (ht im : IVec S1000000 32) (w : FVec Ideal S1000000 .f32)
    (p : Fin 16384) (q : Fin 256) :
    Read.val_main_v15 (F := Ideal) x0 ht im w (ix2 p q)
      = Read.val_main_v13 (F := Ideal) (ix2 p q)
        + ∑ e ∈ SegSum.rowsOf (Read.val_main_v14 (F := Ideal) im) p, Read.val_main_v12 (F := Ideal) x0 ht w (ix2 e q) := by
  -- at the extended reals the accumulating scatter is the exact sum
  have h : Read.val_main_v15 (F := Ideal) x0 ht im w
      = Ideal.hostScatterAdd scatter_S16384x256_S1000000x1_S1000000x256_1_0_0_1 (Read.val_main_v13 (F := Ideal))
          (Read.val_main_v14 (F := Ideal) im) (Read.val_main_v12 (F := Ideal) x0 ht w) := rfl
  rw [h]
  exact SegSum.hostScatterAdd_rows_apply
    Facts₀.scatter_S16384x256_S1000000x1_S1000000x256_1_0_0_1_wf _ _ _ p q

theorem ref_eq_G (x0 : FVec Ideal S4x64x183x60 .f32) (ht im : IVec S1000000 32) (w : FVec Ideal S1000000 .f32)
    (hr : Cert.Ht2Im.HtInRange ht) :
    Cert.ReferenceIdeal.Read.val_main_v17 (F := Ideal) x0 ht im w = Cert.Ht2Im.G x0 ht im w := by
  funext j
  obtain ⟨b, c, y, z, rfl⟩ : ∃ (b : Fin 4) (c : Fin 64) (y z : Fin 128), j = ix4 b c y z :=
    ⟨j 0, j 1, j 2, j 3, eq_ix4 j⟩
  have hb := b.isLt; have hc := c.isLt; have hy := y.isLt; have hz := z.isLt
  rw [Cert.Ht2Im.G_apply]
  -- the last reshape and transpose: image pixel (y, z) of channel (b, c) is row 128 y + z, column 64 b + c
  have hi : Read.idx_main_v16 (Read.idx_main_v17 (ix4 b c y z))
      = ix2 (⟨y.val * 128 + z.val, by omega⟩ : Fin 16384) (⟨b.val * 64 + c.val, by omega⟩ : Fin 256) := by
    funext a
    refine Fin.ext ?_
    match a with
    | ⟨0, _⟩ => show (((b.val * 64 + c.val) * 128 + y.val) * 128 + z.val) % 16384 = y.val * 128 + z.val; omega
    | ⟨1, _⟩ => show (((b.val * 64 + c.val) * 128 + y.val) * 128 + z.val) / 16384 = b.val * 64 + c.val; omega
  -- the scatter at that element: the zero operand plus the update rows whose index word names the row
  rw [Read.val_main_v17_apply, Read.val_main_v16_apply, hi, v15_apply,
    Read.val_main_v13_apply, Read.val_main_cst_apply, Ideal.ofBits_def, Ideal.ofBits_zero_f32, zero_add]
  unfold SegSum.rowsOf Cert.Ht2Im.votes
  rw [Finset.sum_filter]
  refine Finset.sum_congr rfl fun e _ => ?_
  rw [v12_apply x0 ht w hr b c e]
  refine if_congr ?_ rfl rfl
  have hi14 : Read.idx_main_v14 (ix2 e (0 : Fin 1)) = ix1 e := by
    funext a; match a with | ⟨0, _⟩ => rfl
  rw [Read.val_main_v14_apply, hi14]
  exact toInt_eq_iff _ _ (by omega)

end Cert.ReferenceIdeal.RefVal

end
-- ==== Proof.PreHt.lean ====
import proofs.«428843_j77163382440036_3_alg».proof.Pre_finite_inputs
import proofs.«428843_j77163382440036_3_alg».proof.Proof.Spec
import Idealize.ShloMosaic.Lib.ReduceAll
import Idealize.ShloMosaic.Lib.StableHlo.Predicate
import Idealize.ShloMosaic.Lib.ValueIdx

noncomputable section

namespace Cert.Pre_finite_inputs.Decode

open Idealize.ShloMosaic Idealize.ShloMosaic.ValueIdx Cert.Pre_finite_inputs

/-- The rank-0 shape has one index. -/
instance subsingleton_scalar_idx : Subsingleton S_.Idx := ⟨fun a b => funext fun d => d.elim0⟩

theorem ht_in_range [Cert.Pre_finite_inputs.Facts] (x0 : FVec Ideal S4x64x183x60 .f32) (ht im : IVec S1000000 32)
    (w : FVec Ideal S1000000 .f32)
    (h : Cert.Pre_finite_inputs.fn (F := Ideal) x0 ht im w = (fun _ => 1#1)) : Cert.Ht2Im.HtInRange ht := by
  intro v
  have h0 := congrFun h ValueIdx.ix0
  dsimp only [fn, fn_part1] at h0
  obtain ⟨h123, h4⟩ := IntOp.andi_eq_one.1 h0
  obtain ⟨h12, h3⟩ := IntOp.andi_eq_one.1 h123
  have ge := Host.reduce_andi_all _ _ _ _ _ h3 (ix1 v)
  have lt := Host.reduce_andi_all _ _ _ _ _ h4 (ix1 v)
  -- the two compares, read signed: 0 ≤ the word's signed value < 10980
  have ge' : (0#32 : BitVec 32).toInt ≤ (ht (ix1 v)).toInt := IntOp.cmpi_sge.1 ge
  have lt' : (ht (ix1 v)).toInt < (10980#32 : BitVec 32).toInt := IntOp.cmpi_slt.1 lt
  rw [show (0#32 : BitVec 32).toInt = 0 from by decide] at ge'
  rw [show (10980#32 : BitVec 32).toInt = 10980 from by decide] at lt'
  have hlt := (ht (ix1 v)).isLt
  -- a word whose sign bit is clear has its signed value equal to its unsigned one; one whose sign bit is set is negative
  rcases Nat.lt_or_ge (2 * (ht (ix1 v)).toNat) (2 ^ 32) with hc | hc
  · rw [BitVec.toInt_eq_toNat_cond, if_pos hc] at lt'; omega
  · rw [BitVec.toInt_eq_toNat_cond, if_neg (by omega)] at ge'; omega

end Cert.Pre_finite_inputs.Decode

end
-- ==== Proof.lean ====
/-
  The certificate of the HT-to-image vote accumulation: `out[b, c, im_index[v]] += input_ht[b, c, ht_index[v]] · weight[v]`
  over 1,000,000 votes.

  THE KERNEL does both indexed steps as matrix products with one-hot matrices. A first pallas_call (980 points of
  1024 votes) multiplies the HT planes, as [256, 11008] rows padded with zero columns, by the one-hot matrix of the
  point's HT index words, and scales each gathered column by its vote's weight and by a position mask that clears the
  3520 padded votes. A second pallas_call (8 image tiles × 245 chunks of 4096 votes) multiplies each chunk's gathered
  values by the one-hot matrix of the chunk's image index words against the tile's pixel numbers, adding into an
  accumulator it keeps across the 245 chunks of a tile and stores at the last. THE REFERENCE gathers
  `x[:, :, ht_index]`, scales by the weights, and scatter-adds the votes into the image pixels.

  On the extended reals both are, at channel (b, c) and pixel p, the sum over the votes whose image index word is p of
  `x[b, c, h / 60, h mod 60] · weight[v]` (Proof/Spec.lean): a one-hot product selects (x · 1 = x, x · 0 = 0 and
  0 + x = x hold on all of the extended reals, so no finiteness is used), a vote whose image index word is no pixel
  number is dropped by the kernel's compare and by the reference's scatter alike, and the order in which the votes are
  added does not matter. The two differ where an HT index word is out of range — the reference wraps a negative word
  and clamps into the table, the kernel's compare finds no row —, so the claim is stated under the range condition
  `0 ≤ ht_index < 10980` added to the precondition (the reference indexes outside its array there).

  The frames: each program's @main is run as eleven segments — host stretches, the two regions, the closing
  reshape — over the contents of the unscoped buffers at each boundary (Proof/Whole.lean; the word-level program's
  modules under Proof/Bits are the same text with the program's name substituted); each region's body is run once per
  control case (Proof/Gather.lean, Proof/Scatter*.lean). The values: the reference's run read at an index
  (Proof/RefVal.lean), the kernel's two payloads at an index (Proof/Pay0.lean, Proof/Pay1.lean), the regions' written
  arrays as whole-array functions (Proof/GatherVal.lean, Proof/ScatterVal.lean), the host stretches' paddings
  (Proof/HostVal.lean), the sum identities (Proof/Sums.lean, Proof/KernelMath.lean), assembled in Proof/Result.lean;
  the range condition is read off the printed precondition in Proof/PreHt.lean.
-/
import proofs.«428843_j77163382440036_3_alg».proof.Defs
import proofs.«428843_j77163382440036_3_alg».proof.Proof.Gen.Kernel
import proofs.«428843_j77163382440036_3_alg».proof.Proof.Gen.KernelIdeal
import proofs.«428843_j77163382440036_3_alg».proof.Proof.Gen.ReferenceIdeal
import proofs.«428843_j77163382440036_3_alg».proof.Proof.Gen.ReferenceIdeal.Run
import proofs.«428843_j77163382440036_3_alg».proof.Proof.Gen.ReferenceIdeal.Read
import proofs.«428843_j77163382440036_3_alg».proof.Proof.Gen.Pre_finite_inputs
import proofs.«428843_j77163382440036_3_alg».proof.Proof.Bits.Whole
import proofs.«428843_j77163382440036_3_alg».proof.Proof.Whole
import proofs.«428843_j77163382440036_3_alg».proof.Proof.Result
import proofs.«428843_j77163382440036_3_alg».proof.Proof.RefVal
import proofs.«428843_j77163382440036_3_alg».proof.Proof.PreHt
import Idealize.ShloMosaic.Adequacy
import Idealize.ShloMosaic.Init

noncomputable section

namespace Cert.Proof

open Idealize.ShloMosaic Idealize.ShloMosaic.TcCoe Idealize.SL.Sem

/-- The word-level kernel runs to its end, nothing faulting, its arguments unchanged. -/
theorem frame_kernel : Cert.frame_Kernel := fun m ρ _ => Cert.Kernel.Whole.frame (F := Bits) m ρ

/-- So does the idealized kernel. -/
theorem frame_kernelIdeal : Cert.frame_KernelIdeal := fun m ρ _ => Cert.KernelIdeal.Whole.frame (F := Ideal) m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both idealized programs end with the specification of the arguments in their result buffers. -/
theorem algebraic : Cert.algebraic_KernelIdeal_ReferenceIdeal := by
  intro m ρ m' ρ' hpre hagree
  have hr : ∀ c : Dev Cert.KernelIdeal.nD, Cert.Ht2Im.HtInRange (m ((c.tc : Thread Cert.KernelIdeal.nD Cert.KernelIdeal.τ).loc Cert.KernelIdeal.main_arg1)) := fun c =>
    Cert.Pre_finite_inputs.Decode.ht_in_range _ _ _ _ (hpre c)
  refine ⟨fun c => Cert.Ht2Im.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · refine (θ_run Cert.KernelIdeal.defs _ _).mono (fun _ h c => ⟨?_, ?_, ?_, ?_, ?_⟩) (Cert.KernelIdeal.Whole.run_all (F := Ideal) m ρ)
    · exact (h c _ (Cert.KernelIdeal.Whole.mem_uc Cert.KernelIdeal.main_v8 (by decide))).trans (Cert.KernelIdeal.Result.result_eq m c (hr c))
    · exact (h c _ (Cert.KernelIdeal.Whole.mem_uc Cert.KernelIdeal.main_arg0 (by decide))).trans (Cert.KernelIdeal.Whole.Wend_main_arg0 m c)
    · exact (h c _ (Cert.KernelIdeal.Whole.mem_uc Cert.KernelIdeal.main_arg1 (by decide))).trans (Cert.KernelIdeal.Whole.Wend_main_arg1 m c)
    · exact (h c _ (Cert.KernelIdeal.Whole.mem_uc Cert.KernelIdeal.main_arg2 (by decide))).trans (Cert.KernelIdeal.Whole.Wend_main_arg2 m c)
    · exact (h c _ (Cert.KernelIdeal.Whole.mem_uc Cert.KernelIdeal.main_arg3 (by decide))).trans (Cert.KernelIdeal.Whole.Wend_main_arg3 m c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, (hagree c).1, (hagree c).2.1, (hagree c).2.2.1, (hagree c).2.2.2]
    exact Cert.ReferenceIdeal.RefVal.ref_eq_G _ _ _ _ (hr c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
